-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1000000 : Shape := ⟨2, ![2, 1000000]⟩
abbrev S64x128 : Shape := ⟨2, ![64, 128]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S64 .f32) (main_arg9 : FVec F S64 .f32) (main_arg10 : FVec F S64x64 .f32) (main_arg11 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x1000000 32) (main_arg2 : FVec F S64x128 .f32) (main_arg3 : FVec F S64 .f32) (main_arg4 : FVec F S64x64 .f32) (main_arg5 : FVec F S64 .f32) (main_arg6 : FVec F S64x64 .f32) (main_arg7 : FVec F S64 .f32) (main_arg8 : FVec F S64 .f32) (main_arg9 : FVec F S64 .f32) (main_arg10 : FVec F S64x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x1000000 : Shape := ⟨2, ![2, 1000000]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S50000x64 : Shape := ⟨2, ![50000, 64]⟩
abbrev S5000x128 : Shape := ⟨2, ![5000, 128]⟩
abbrev S5000x64 : Shape := ⟨2, ![5000, 64]⟩
abbrev S1x64 : Shape := ⟨2, ![1, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S50000 : Shape := ⟨1, ![50000]⟩
abbrev S50000x1 : Shape := ⟨2, ![50000, 1]⟩
abbrev S5000x1 : Shape := ⟨2, ![5000, 1]⟩

abbrev nBuf : Space → Nat
  | .hbm => 42
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x1000000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S128x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S50000x64, .f32⟩
  | .hbm, ⟨17, _⟩ => ⟨S1x1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S_, .f32⟩
  | .hbm, ⟨31, _⟩ => ⟨S50000x64, .f32⟩
  | .hbm, ⟨32, _⟩ => ⟨S1000000x1, .i32⟩
  | .hbm, ⟨33, _⟩ => ⟨S50000x64, .f32⟩
  | .hbm, ⟨34, _⟩ => ⟨S_, .f32⟩
  | .hbm, ⟨35, _⟩ => ⟨S1000000, .f32⟩
  | .hbm, ⟨36, _⟩ => ⟨S_, .f32⟩
  | .hbm, ⟨37, _⟩ => ⟨S50000, .f32⟩
  | .hbm, ⟨38, _⟩ => ⟨S1000000x1, .i32⟩
  | .hbm, ⟨39, _⟩ => ⟨S50000, .f32⟩
  | .hbm, ⟨40, _⟩ => ⟨S50000x1, .f32⟩
  | .hbm, ⟨41, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S64, .f32⟩
  | .local _ .vmem, ⟨14, _⟩ => ⟨S64x64, .f32⟩
  | .local _ .vmem, ⟨15, _⟩ => ⟨S64, .f32⟩
  | .local _ .vmem, ⟨16, _⟩ => ⟨S64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | .local _ .vmem, ⟨22, _⟩ => ⟨S50000x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg11_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc1_scratch4 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem11_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![3, 10], ![false, false]⟩

def k1_mult1 (i : grid1.Coords) : BitVec 32 :=
  let arg1 : BitVec 32 := BitVec.ofNat 32 (i 1).val
  let c5000_i32 : BitVec 32 := 5000#32
  let v0 : BitVec 32 := Scalar.muli arg1 c5000_i32
  v0
def k1_cond2 (i : grid1.Coords) : BitVec 1 :=
  let arg0 : BitVec 32 := BitVec.ofNat 32 (i 0).val
  let c0_i32_2 : BitVec 32 := 0#32
  let v7 : BitVec 1 := Scalar.cmpi .eq arg0 c0_i32_2
  let v8 : BitVec 32 := Scalar.extui v7
  let c0_i32_3 : BitVec 32 := 0#32
  let v9 : BitVec 1 := Scalar.cmpi .ne v8 c0_i32_3
  v9

def k1_off1 (i : grid1.Coords) : Fin 2 → Nat :=
  let arg1 : BitVec 32 := BitVec.ofNat 32 (i 1).val
  let c5000_i32 : BitVec 32 := 5000#32
  let v0 : BitVec 32 := Scalar.muli arg1 c5000_i32
  let v1 : BitVec 32 := v0
  let v47 : Index := Scalar.indexCast v1
  let c0_24 : Index := 0#32
  ![v47.toNat, 0]
def k1_cond4 (i : grid1.Coords) : BitVec 1 :=
  let arg0 : BitVec 32 := BitVec.ofNat 32 (i 0).val
  let c1_i32_6 : BitVec 32 := 1#32
  let v15 : BitVec 1 := Scalar.cmpi .eq arg0 c1_i32_6
  let v16 : BitVec 32 := Scalar.extui v15
  let c0_i32_7 : BitVec 32 := 0#32
  let v17 : BitVec 1 := Scalar.cmpi .ne v16 c0_i32_7
  v17

def k1_off2 (i : grid1.Coords) : Fin 2 → Nat :=
  let arg1 : BitVec 32 := BitVec.ofNat 32 (i 1).val
  let c5000_i32 : BitVec 32 := 5000#32
  let v0 : BitVec 32 := Scalar.muli arg1 c5000_i32
  let v1 : BitVec 32 := v0
  let v26 : Index := Scalar.indexCast v1
  let c0 : Index := 0#32
  ![v26.toNat, 0]
def k1_cond6 (i : grid1.Coords) : BitVec 1 :=
  let arg0 : BitVec 32 := BitVec.ofNat 32 (i 0).val
  let c2_i32_10 : BitVec 32 := 2#32
  let v23 : BitVec 1 := Scalar.cmpi .eq arg0 c2_i32_10
  let v24 : BitVec 32 := Scalar.extui v23
  let c0_i32_11 : BitVec 32 := 0#32
  let v25 : BitVec 1 := Scalar.cmpi .ne v24 c0_i32_11
  v25

def k1_off3 (i : grid1.Coords) : Fin 2 → Nat :=
  let arg1 : BitVec 32 := BitVec.ofNat 32 (i 1).val
  let c5000_i32 : BitVec 32 := 5000#32
  let v0 : BitVec 32 := Scalar.muli arg1 c5000_i32
  let v1 : BitVec 32 := v0
  let v26 : Index := Scalar.indexCast v1
  let c0 : Index := 0#32
  ![v26.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 32 := Scalar.select v0 arg1 c9_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 32 := Scalar.select v0 arg1 c9_i32
  let c0_i32_0 : BitVec 32 := 0#32
  let c0_i32_1 : BitVec 32 := 0#32
  ![v1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c9_i32 : BitVec 32 := 9#32
  let v1 : BitVec 32 := Scalar.select v0 arg1 c9_i32
  let c0_i32_0 : BitVec 32 := 0#32
  let c0_i32_1 : BitVec 32 := 0#32
  ![v1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 2 → Memref sig .tc .vmem S5000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

class Facts₀ : Prop where
  transposes_S64x128_S128x64_1_0 : S64x128.Transposes [1, 0] S128x64
  transposes_S64x64_S64x64_1_0 : S64x64.Transposes [1, 0] S64x64
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reduces_S5000x64_S64 : S5000x64.Reduces [0] S64
  dot_S5000x128_S128x64_S5000x64_1_0_0_1_n_n_wf : DotDims.WF S5000x128 S128x64 S5000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  k1_mult1_dvd : ∀ i : grid1.Coords, 5000 ∣ (k1_mult1 i).toNat
  k1_off1_inb : ∀ i : grid1.Coords, ∀ (k1_h2 : k1_cond2 i = 1#1), ∀ a, (k1_off1 i) a + S5000x64.size a ≤ S50000x64.size a
  k1_off2_inb : ∀ i : grid1.Coords, ∀ (k1_h4 : k1_cond4 i = 1#1), ∀ a, (k1_off2 i) a + S5000x64.size a ≤ S50000x64.size a
  k1_off3_inb : ∀ i : grid1.Coords, ∀ (k1_h6 : k1_cond6 i = 1#1), ∀ a, (k1_off3 i) a + S5000x64.size a ≤ S50000x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64.size a ≤ S64.size a
  hwx1_10 : ∀ i : grid1.Coords, EltTy.bits .f32 = 32 ∨ (Rect.block (s := S64) S64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x64.size a ≤ S50000x64.size a
  hwx1_11 : ∀ i : grid1.Coords, EltTy.bits .f32 = 32 ∨ (Rect.block (s := S50000x64) S5000x64.size (cc1_transform_11 i) (hinb1_11 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v3) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg11) S64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v24) S5000x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

abbrev idle1 : Fin 12 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k1_cond6 i == 1#1) | ⟨_ + 12, h⟩ => absurd h (Nat.not_lt.2 (Nat.le_add_left _ _))

class Facts : Prop extends Facts₀ where

variable [Facts]
-- ==== ReferenceIdeal.lean ====
abbrev S50000x128 : Shape := ⟨2, ![50000, 128]⟩
abbrev S2x1000000 : Shape := ⟨2, ![2, 1000000]⟩
abbrev S64x128 : Shape := ⟨2, ![64, 128]⟩
abbrev S64 : Shape := ⟨1, ![64]⟩
abbrev S64x64 : Shape := ⟨2, ![64, 64]⟩
abbrev S128x64 : Shape := ⟨2, ![128, 64]⟩
abbrev S50000x64 : Shape := ⟨2, ![50000, 64]⟩
abbrev S1x64 : Shape := ⟨2, ![1, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S50000 : Shape := ⟨1, ![50000]⟩
abbrev S50000x1 : Shape := ⟨2, ![50000, 1]⟩

abbrev nBuf : Space → Nat
  | .hbm => 94
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1000000, .i32⟩
  | .hbm, ⟨2, _⟩ => ⟨S64x128, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S128x64, .f32⟩
  | .hbm, ⟨13, _⟩ => ⟨S50000x64, .f32⟩
  | .hbm, ⟨14, _⟩ => ⟨S1x64, .f32⟩
  | .hbm, ⟨15, _⟩ => ⟨S50000x64, .f32⟩
  | .hbm, ⟨16, _⟩ => ⟨S50000x64, .f32⟩
  | .hbm, ⟨17, _⟩ => ⟨S1x1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S_, .i32⟩
  | .hbm, ⟨22, _⟩ => ⟨S1000000, .i32⟩
  | .hbm, ⟨23, _⟩ => ⟨S1000000, .i1⟩
  | .hbm, ⟨24, _⟩ => ⟨S_, .i32⟩
  | .hbm, ⟨25, _⟩ => ⟨S1000000, .i32⟩
  | .hbm, ⟨26, _⟩ => ⟨S1000000, .i32⟩
  | .hbm, ⟨27, _⟩ => ⟨S1000000, .i32⟩
  | .hbm, ⟨28, _⟩ => ⟨S1000000x1, .i32⟩
  | .hbm, ⟨29, _⟩ => ⟨S1000000x64, .f32⟩
  | .hbm, ⟨30, _⟩ => ⟨S_, .f32⟩
  | .hbm, ⟨31, _⟩ => ⟨S50000x64, .f32⟩
  | .hbm, ⟨32, _⟩ => ⟨S1000000x1, .i32⟩
  | .hbm, ⟨33, _⟩ => ⟨S50000x64, .f32⟩
  | .hbm, ⟨34, _⟩ => ⟨S_, .f32⟩
  | .hbm, ⟨35, _⟩ => ⟨S1000000, .f32⟩
  | .hbm, ⟨36, _⟩ => ⟨S_, .f32⟩
  | .hbm, ⟨37, _⟩ => ⟨S50000, .f32⟩
  | .hbm, ⟨38, _⟩ => ⟨S1000000x1, .i32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .f32⟩
  | .hbm, ⟨43, _⟩ => ⟨S50000x1, .f32⟩
  | .hbm, ⟨44, _⟩ => ⟨S50000x64, .f32⟩
  | .hbm, ⟨45, _⟩ => ⟨S50000x64, .f32⟩
  | .hbm, ⟨46, _⟩ => ⟨S64x64, .f32⟩
  | .hbm, ⟨47, _⟩ => ⟨S50000x64, .f32⟩
  | .hbm, ⟨48, _⟩ => ⟨S1x64, .f32⟩
  | .hbm, ⟨49, _⟩ => ⟨S50000x64, .f32⟩
  | .hbm, ⟨50, _⟩ => ⟨S50000x64, .f32⟩
  | .hbm, ⟨51, _⟩ => ⟨S64x64, .f32⟩
  | .hbm, ⟨52, _⟩ => ⟨S50000x64, .f32⟩
  | .hbm, ⟨53, _⟩ => ⟨S50000x64, .f32⟩
  | .hbm, ⟨54, _⟩ => ⟨S_, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S50000x64, .f32⟩
  | .hbm, ⟨64, _⟩ => ⟨S_, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S1x64, .f32⟩
  | .hbm, ⟨74, _⟩ => ⟨S50000x64, .f32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S50000x64, .f32⟩
  | .hbm, ⟨84, _⟩ => ⟨S50000x64, .i1⟩
  | .hbm, ⟨85, _⟩ => ⟨S_, .f32⟩
  | .hbm, ⟨86, _⟩ => ⟨S50000x64, .f32⟩
  | .hbm, ⟨87, _⟩ => ⟨S50000x64, .f32⟩
  | .hbm, ⟨88, _⟩ => ⟨S50000x64, .f32⟩
  | .hbm, ⟨89, _⟩ => ⟨S64x64, .f32⟩
  | .hbm, ⟨90, _⟩ => ⟨S50000x64, .f32⟩
  | .hbm, ⟨91, _⟩ => ⟨S1x64, .f32⟩
  | .hbm, ⟨92, _⟩ => ⟨S50000x64, .f32⟩
  | .hbm, ⟨93, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_6 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_cst_10 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  reducesTo_S50000x64_S64_d0 : S50000x64.ReducesTo [0] S64
  h_S_ : 0 < S_.numel
  bcast_S_S64 : S_.BroadcastsInDim S64 (![] : Fin 0 → Fin S64.rank)
  dot_S50000x128_S128x64_S50000x64_1_0_0_1_n_n_wf : DotDims.WF S50000x128 S128x64 S50000x64 [1] [0] [0] [1] [] []
  gather_S50000x64_S1000000x1_S1000000x64_1_0_n_n_0_1_164_wf : GatherDims.WF S50000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  dot_S50000x64_S64x64_S50000x64_1_0_0_1_n_n_wf : DotDims.WF S50000x64 S64x64 S50000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Pure.lean ====
/-
  The two kernel bodies as pure functions of whole arrays (any float instance).

  The first kernel maps row block j (5000 rows) of x to x_j · W + b.  The second walks a 3 × 10 grid over
  the same row blocks: phase 0 forms conv_j = (agg_j / max(cnt_j, 1)) · Wl + bl + h_j · Wr, keeps it and adds its
  column sums to a running sum; phase 1 turns the sum into the shift gms · (sum / 50000) and accumulates the
  column sums of (conv_j - shift)²; phase 2 turns those into 1 / sqrt(var + eps) and writes
  leaky((conv_j - shift) · inv · gw + gb) · Wo + bo as row block j of the result.
  Everything is stated through the payload terms of the kernels' skeletons, so that the same text reads at the
  word-level instance and at the extended reals.
-/
import proofs.«407117_j28578712387660_3_alg».proof.Proof.Gen.KernelIdeal.Skeleton
import Idealize.ShloMosaic.Lib.ValueIdx

noncomputable section

namespace Cert.KernelIdeal.Pure

open Idealize.ShloMosaic Idealize.ShloMosaic.ValueIdx Cert.KernelIdeal Cert.KernelIdeal.Gen

variable {F : FTy → Type} [FloatOps F]

/-- Row r of row block j, as a row of the 50000-row array. -/
def rowOf (j : Fin 10) (r : Fin 5000) : Fin 50000 := ⟨5000 * j.val + r.val, by have := j.isLt; have := r.isLt; omega⟩

/-- Row block j (rows 5000 j … 5000 j + 4999) of an array of 50000 rows and n columns. -/
def blk {n : Nat} {e : EltTy} (A : Vec F ⟨2, ![50000, n]⟩ e) (j : Fin 10) : Vec F ⟨2, ![5000, n]⟩ e :=
  fun y => A (ix2 (rowOf j (y 0)) (y 1))

/-- The array of 50000 rows whose row block j is B j. -/
def asm {n : Nat} {e : EltTy} (B : Fin 10 → Vec F ⟨2, ![5000, n]⟩ e) : Vec F ⟨2, ![50000, n]⟩ e :=
  fun i => B ⟨(i 0).val / 5000, by have := (i 0).isLt; exact Nat.div_lt_of_lt_mul (by simpa using this)⟩
    (ix2 ⟨(i 0).val % 5000, Nat.mod_lt _ (by decide)⟩ (i 1))

/-- The first kernel's result: row block j is x_j · W + b. -/
def hArr (x : Vec F S50000x128 .f32) (w : Vec F S128x64 .f32) (b : Vec F S64 .f32) : Vec F S50000x64 .f32 :=
  asm fun j => k0_pay1 (blk x j) w b

section Second

variable (agg : Vec F S50000x64 .f32) (cnt : Vec F S50000x1 .f32) (h : Vec F S50000x64 .f32)
  (wl : Vec F S64x64 .f32) (bl : Vec F S64 .f32) (wr : Vec F S64x64 .f32) (gms gw gb : Vec F S64 .f32)
  (wo : Vec F S64x64 .f32) (bo : Vec F S64 .f32)

/-- conv_j: what phase 0 keeps of row block j. -/
def convBlk (j : Fin 10) : Vec F S5000x64 .f32 := k1_pay3 (blk agg j) (blk cnt j) wl bl (blk h j) wr

/-- The running column sums after the first n row blocks of phase 0. -/
def sumAt : (n : Nat) → n ≤ 10 → Vec F S1x64 .f32
  | 0, _ => k1_pay1
  | n + 1, hn => k1_pay4 (blk agg ⟨n, hn⟩) (blk cnt ⟨n, hn⟩) wl bl (blk h ⟨n, hn⟩) wr (sumAt n (Nat.le_of_succ_le hn))

/-- gms · mean. -/
def shift : Vec F S1x64 .f32 := k1_pay5 (sumAt agg cnt h wl bl wr 10 (Nat.le_refl _)) gms

/-- The running column sums of the squared centred rows after the first n row blocks of phase 1. -/
def sqAt : (n : Nat) → n ≤ 10 → Vec F S1x64 .f32
  | 0, _ => k1_pay6
  | n + 1, hn => k1_pay7 (convBlk agg cnt h wl bl wr ⟨n, hn⟩) (shift agg cnt h wl bl wr gms) (sqAt n (Nat.le_of_succ_le hn))

/-- 1 / sqrt(var + eps). -/
def invStd : Vec F S1x64 .f32 := k1_pay8 (sqAt agg cnt h wl bl wr gms 10 (Nat.le_refl _))

/-- Row block j of the result. -/
def outBlk (j : Fin 10) : Vec F S5000x64 .f32 :=
  k1_pay9 (convBlk agg cnt h wl bl wr j) (shift agg cnt h wl bl wr gms) (invStd agg cnt h wl bl wr gms) gw gb wo bo

/-- The second kernel's result as one array. -/
def outArr : Vec F S50000x64 .f32 := asm fun j => outBlk agg cnt h wl bl wr gms gw gb wo bo j

end Second

/-! ## The host operations between the two kernels, and the whole program -/

/-- The source indices (row 0 of the edge list), a negative one wrapped once by 50000. -/
def srcIdx (e : Vec F S2x1000000 .i32) : Vec F S1000000x1 .i32 :=
  broadcastInDim S1000000x1 ![0] bcast_S1000000_S1000000x1_0
    (select (cmpi .slt (shapeCast S1000000 (extractStridedSlice S1x1000000 ![0, 0] e slices_S2x1000000_S1x1000000_0_0) shapeCasts_S1x1000000_S1000000)
        (broadcastInDim S1000000 ![] bcast_S_S1000000 (constantI S_ 32 0#32)))
      (addi (shapeCast S1000000 (extractStridedSlice S1x1000000 ![0, 0] e slices_S2x1000000_S1x1000000_0_0) shapeCasts_S1x1000000_S1000000)
        (broadcastInDim S1000000 ![] bcast_S_S1000000 (constantI S_ 32 50000#32)))
      (shapeCast S1000000 (extractStridedSlice S1x1000000 ![0, 0] e slices_S2x1000000_S1x1000000_0_0) shapeCasts_S1x1000000_S1000000))

/-- The destination indices (row 1 of the edge list). -/
def dstIdx (e : Vec F S2x1000000 .i32) : Vec F S1000000x1 .i32 :=
  broadcastInDim S1000000x1 ![0] bcast_S1000000_S1000000x1_0
    (shapeCast S1000000 (extractStridedSlice S1x1000000 ![1, 0] e slices_S2x1000000_S1x1000000_1_0) shapeCasts_S1x1000000_S1000000)

/-- The rows of h gathered along the edges' sources and summed into the edges' destinations. -/
def aggOf (h : Vec F S50000x64 .f32) (e : Vec F S2x1000000 .i32) : Vec F S50000x64 .f32 :=
  Host.scatterAdd scatter_S50000x64_S1000000x1_S1000000x64_1_0_0_1
    (broadcastInDim S50000x64 ![] bcast_S_S50000x64 (constant S_ .f32 0x00000000#32))
    (dstIdx e)
    (Host.gather gather_S50000x64_S1000000x1_S1000000x64_1_0_n_n_0_1_164 h (srcIdx e))

/-- The number of edges into each node, as a column. -/
def cntOf (e : Vec F S2x1000000 .i32) : Vec F S50000x1 .f32 :=
  shapeCast S50000x1
    (Host.scatterAdd scatter_S50000_S1000000x1_S1000000_n_0_0_1
      (broadcastInDim S50000 ![] bcast_S_S50000 (constant S_ .f32 0x00000000#32))
      (dstIdx e)
      (broadcastInDim S1000000 ![] bcast_S_S1000000 (constant S_ .f32 0x3F800000#32)))
    shapeCasts_S50000_S50000x1

/-- The whole program's result from its twelve arguments. -/
def result (x : Vec F S50000x128 .f32) (e : Vec F S2x1000000 .i32) (win : Vec F S64x128 .f32) (bin : Vec F S64 .f32)
    (wl : Vec F S64x64 .f32) (bl : Vec F S64 .f32) (wr : Vec F S64x64 .f32) (gw gb gms : Vec F S64 .f32)
    (wo : Vec F S64x64 .f32) (bo : Vec F S64 .f32) : Vec F S50000x64 .f32 :=
  outArr (aggOf (hArr x (transpose S128x64 [1, 0] win transposes_S64x128_S128x64_1_0) bin) e) (cntOf e)
    (hArr x (transpose S128x64 [1, 0] win transposes_S64x128_S128x64_1_0) bin)
    (transpose S64x64 [1, 0] wl transposes_S64x64_S64x64_1_0) bl
    (transpose S64x64 [1, 0] wr transposes_S64x64_S64x64_1_0) gms gw gb
    (transpose S64x64 [1, 0] wo transposes_S64x64_S64x64_1_0) bo

end Cert.KernelIdeal.Pure

end
-- ==== Proof.Fr.Base.lean ====
/-
  What the two pipelines' schedules decide, once, over their grids (10 points; 3 × 10 points), and the windows'
  blocks as the pipelines read them.
  The second kernel's six branches hold exactly at: point 0; points 0-9 (phase 0); point 10; points 10-19
  (phase 1); point 20; points 20-29 (phase 2). Its three row-block slices of the conv cache start at row
  5000 · (t mod 10). Its output window is stored into, and written back, exactly at the points of phase 2.
-/
import proofs.«407117_j28578712387660_3_alg».proof.Proof.Gen.KernelIdeal.Launch
import proofs.«407117_j28578712387660_3_alg».proof.Proof.Gen.KernelIdeal.Skeleton
import proofs.«407117_j28578712387660_3_alg».proof.Proof.Gen.KernelIdeal.Points
import proofs.«407117_j28578712387660_3_alg».proof.Proof.Pure
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t of the first pipeline, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window w's block at point t of the second pipeline. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The second kernel's branch conditions over the grid -/

abbrev c1 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev c2 (i : grid1.Coords) : Prop := k1_cond2 i = 1#1
abbrev c3 (i : grid1.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
abbrev c4 (i : grid1.Coords) : Prop := k1_cond4 i = 1#1
abbrev c5 (i : grid1.Coords) : Prop := (Scalar.cmpi .ne (Scalar.extui (Scalar.andi (Scalar.cmpi .eq (BitVec.ofNat 32 (i 0).val) 2#32) (Scalar.cmpi .eq (BitVec.ofNat 32 (i 1).val) 0#32))) 0#32) = 1#1
abbrev c6 (i : grid1.Coords) : Prop := k1_cond6 i = 1#1

theorem hc1 : ∀ t : Fin cfg1.N, c1 (grid1.coords t) ↔ t.val = 0 :=
  (by decide +kernel : ∀ t : Fin grid1.N, c1 (grid1.coords t) ↔ t.val = 0)
theorem hc2 : ∀ t : Fin cfg1.N, c2 (grid1.coords t) ↔ t.val < 10 :=
  (by decide +kernel : ∀ t : Fin grid1.N, c2 (grid1.coords t) ↔ t.val < 10)
theorem hc3 : ∀ t : Fin cfg1.N, c3 (grid1.coords t) ↔ t.val = 10 :=
  (by decide +kernel : ∀ t : Fin grid1.N, c3 (grid1.coords t) ↔ t.val = 10)
theorem hc4 : ∀ t : Fin cfg1.N, c4 (grid1.coords t) ↔ (10 ≤ t.val ∧ t.val < 20) :=
  (by decide +kernel : ∀ t : Fin grid1.N, c4 (grid1.coords t) ↔ (10 ≤ t.val ∧ t.val < 20))
theorem hc5 : ∀ t : Fin cfg1.N, c5 (grid1.coords t) ↔ t.val = 20 :=
  (by decide +kernel : ∀ t : Fin grid1.N, c5 (grid1.coords t) ↔ t.val = 20)
theorem hc6 : ∀ t : Fin cfg1.N, c6 (grid1.coords t) ↔ 20 ≤ t.val :=
  (by decide +kernel : ∀ t : Fin grid1.N, c6 (grid1.coords t) ↔ 20 ≤ t.val)

/-! ## The conv cache's row-block slices -/

theorem off1_eq : ∀ t : Fin cfg1.N, k1_off1 (grid1.coords t) = ![5000 * (t.val % 10), 0] :=
  (by decide +kernel : ∀ t : Fin grid1.N, k1_off1 (grid1.coords t) = ![5000 * (t.val % 10), 0])
theorem off2_eq : ∀ t : Fin cfg1.N, k1_off2 (grid1.coords t) = ![5000 * (t.val % 10), 0] :=
  (by decide +kernel : ∀ t : Fin grid1.N, k1_off2 (grid1.coords t) = ![5000 * (t.val % 10), 0])
theorem off3_eq : ∀ t : Fin cfg1.N, k1_off3 (grid1.coords t) = ![5000 * (t.val % 10), 0] :=
  (by decide +kernel : ∀ t : Fin grid1.N, k1_off3 (grid1.coords t) = ![5000 * (t.val % 10), 0])

/-! ## The output window of the second pipeline: idle and not written back before phase 2 -/

theorem idle1_11 : ∀ t : Fin cfg1.N, cfg1.idle 11 (grid1.coords t) = true ↔ t.val < 20 :=
  (by decide +kernel : ∀ t : Fin grid1.N, cfg1.idle 11 (grid1.coords t) = true ↔ t.val < 20)
theorem flush1_11 : ∀ t : Fin cfg1.N, (cfg1.win 11).flush t = true ↔ 20 ≤ t.val :=
  (by decide +kernel : ∀ t : Fin grid1.N, win1_11.flush t = true ↔ 20 ≤ t.val)

/-! ## The streamed windows' block indices -/

theorem index1_0 : ∀ t : Fin cfg1.N, win1_0.index t = ![if t.val < 10 then t.val else 9, 0] :=
  (by decide +kernel : ∀ t : Fin grid1.N, win1_0.index t = ![if t.val < 10 then t.val else 9, 0])
theorem index1_1 : ∀ t : Fin cfg1.N, win1_1.index t = ![if t.val < 10 then t.val else 9, 0] :=
  (by decide +kernel : ∀ t : Fin grid1.N, win1_1.index t = ![if t.val < 10 then t.val else 9, 0])
theorem index1_2 : ∀ t : Fin cfg1.N, win1_2.index t = ![if t.val < 10 then t.val else 9, 0] :=
  (by decide +kernel : ∀ t : Fin grid1.N, win1_2.index t = ![if t.val < 10 then t.val else 9, 0])
theorem index1_11 : ∀ t : Fin cfg1.N, win1_11.index t = ![if 20 ≤ t.val then t.val - 20 else 0, 0] :=
  (by decide +kernel : ∀ t : Fin grid1.N, win1_11.index t = ![if 20 ≤ t.val then t.val - 20 else 0, 0])
theorem index0_0 : ∀ t : Fin cfg0.N, win0_0.index t = ![t.val, 0] :=
  (by decide +kernel : ∀ t : Fin grid0.N, win0_0.index t = ![t.val, 0])
theorem index0_3 : ∀ t : Fin cfg0.N, win0_3.index t = ![t.val, 0] :=
  (by decide +kernel : ∀ t : Fin grid0.N, win0_3.index t = ![t.val, 0])

end Cert.KernelIdeal.Fr

end
-- ==== Proof.Fr.RunBase.lean ====
/-
  Stores read back (any float instance): one store over the whole shape leaves its payload; one store through a
  rectangle leaves its payload on the rectangle and keeps the contents off it. And the row-block slices of the
  conv cache that the second kernel's three phases address.
-/
import proofs.«407117_j28578712387660_3_alg».proof.Proof.Fr.Base
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem z2 : (![0, 0] : Fin 2 → Nat) = fun _ => 0 := by funext a; match a with | ⟨0, _⟩ => rfl | ⟨1, _⟩ => rfl
theorem z1 : (![0] : Fin 1 → Nat) = fun _ => 0 := by funext a; match a with | ⟨0, _⟩ => rfl

/-- One whole-shape store leaves its payload, whatever was there and whatever was stored before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero h inb y⟩), View.canon_cons_unit_zero h]

/-- One store through a rectangle, read back through the rectangle, is its payload; -/
theorem ld_read_writes_self {κ : Kind} {sp : Space} {S : Shape} {e : EltTy} (v : View sig κ sp S e) (f : v.ty.Contents (Elt F))
    (r : Rect S) (w : r.shape.Idx → Elt F e) :
    View.ld (v.read (Elt F) (v.writes (Elt F) f [⟨r, w⟩])) r = w := by
  funext x
  exact View.read_writes_cons_emb v f r w [] x

/-- off the rectangle the contents are kept. -/
theorem read_writes_off {κ : Kind} {sp : Space} {S : Shape} {e : EltTy} (v : View sig κ sp S e) (f : v.ty.Contents (Elt F))
    (r : Rect S) (w : r.shape.Idx → Elt F e) (y : S.Idx) (hy : y ∉ r.set) :
    v.read (Elt F) (v.writes (Elt F) f [⟨r, w⟩]) y = v.read (Elt F) f y :=
  View.read_writes_apply_of_forall_not_mem v f y [⟨r, w⟩] (fun p hp => by
    rw [List.mem_singleton] at hp; subst hp; exact hy)

/-- The conv cache's row-block slice the body stores into at grid coordinates i in phase 0, -/
abbrev rect1 (i : grid1.Coords) (h : c2 i) : Rect S50000x64 := Rect.unit (s := S50000x64) (k1_off1 i) S5000x64.size (k1_off1_inb i h)
/-- loads in phase 1, -/
abbrev rect2 (i : grid1.Coords) (h : c4 i) : Rect S50000x64 := Rect.unit (s := S50000x64) (k1_off2 i) S5000x64.size (k1_off2_inb i h)
/-- and loads in phase 2. -/
abbrev rect3 (i : grid1.Coords) (h : c6 i) : Rect S50000x64 := Rect.unit (s := S50000x64) (k1_off3 i) S5000x64.size (k1_off3_inb i h)

end Cert.KernelIdeal.Fr

end
-- ==== Proof.Fr.Region0.lean ====
/-
  The first pipeline (ten points, one per row block) at any contents V of the core's buffers at its entry:
  at every point the three input windows hold their blocks (the row block of x; the whole weight; the whole
  bias), and the body leaves in the output window's buffer the payload x_t · W + b of those blocks.
-/
import proofs.«407117_j28578712387660_3_alg».proof.Proof.Fr.RunBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's current buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

abbrev r0_out : Rect S5000x64 := Rect.unit (s := S5000x64) ![0, 0] S5000x64.size inb_S5000x64_S5000x64_0_0

set_option maxHeartbeats 1000000 in
/-- On whole staging memrefs, the inputs' at contents x0 x1 x2 and the output's at anything, the body runs to the
    continuation holding the inputs' as they were and the output's at the payload of the inputs. -/
theorem sound_kernel0 (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S64 .f32) (harg3 : arg3.IsWhole) (arg4 : Memref sig .tc .vmem S5000x64 .f32) (harg4 : arg4.IsWhole)
    (x0 : Vec F S5000x128 .f32) (x1 : Vec F S128x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__fc_in_kernel i arg1 harg1 arg2 harg2 arg3 harg3 arg4 harg4) K := by
  simp only [cc0__fc_in_kernel_eq_skeleton]; unfold cc0__fc_in_kernel_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  simp only [View.readAt_eq_ld, harg1.read_unread, harg2.read_unread, harg3.read_unread,
    View.ld_unit_zero (S := S5000x128) z2, View.ld_unit_zero (S := S128x64) z2, View.ld_unit_zero (S := S64) z1]
  exact read_writes_whole _ _ z2 _ _ _

/-! ## The pipeline's proof data -/

/-- The proof data of the first pipeline on core c: the arrays as the region finds them; after the body at point t
    each input's buffer at its block and the output's at the payload of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.Fr.Bridge.lean ====
/-
  The windows' blocks as row blocks of the arrays (any float instance): a streamed window's block at a point is
  the row block of its array that the point's block index names; a window whose block is its whole array reads
  the whole array at every point.
-/
import proofs.«407117_j28578712387660_3_alg».proof.Proof.Fr.Base
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Pure

variable (V : (c : Dev nD) → (b : Ref sig .tc) → Buf (Elt F) ((c : Thread nD τ).loc b))

/-- The row block a point of the second grid works on. -/
def jOf (t : Fin cfg1.N) : Fin 10 := ⟨t.val % 10, Nat.mod_lt _ (by decide)⟩
/-- The row block a point of the first grid works on. -/
def jOf0 (t : Fin cfg0.N) : Fin 10 := ⟨t.val % 10, Nat.mod_lt _ (by decide)⟩

/-- An element of the assembled array is the element of its row block (any float instance). -/
theorem asm_rowOf {n : Nat} {e : EltTy} (B : Fin 10 → Vec F ⟨2, ![5000, n]⟩ e) (j : Fin 10) (r : Fin 5000) (k : Fin n) :
    asm B (ValueIdx.ix2 (rowOf j r) k) = B j (ValueIdx.ix2 r k) := by
  have e1 : ∀ h, (⟨(rowOf j r).val / 5000, h⟩ : Fin 10) = j := fun h => Fin.ext (by
    show (5000 * j.val + r.val) / 5000 = j.val
    have := r.isLt; omega)
  have e2 : ∀ h, (⟨(rowOf j r).val % 5000, h⟩ : Fin 5000) = r := fun h => Fin.ext (by
    show (5000 * j.val + r.val) % 5000 = r.val
    have := r.isLt; omega)
  exact congr (congrArg B (e1 _)) (congrArg (fun t : Fin 5000 => (ValueIdx.ix2 t k : (⟨2, ![5000, n]⟩ : Shape).Idx)) (e2 _))

/-! ## The block indices of the windows whose block is the whole array -/

theorem index0_1 : ∀ t : Fin cfg0.N, win0_1.index t = ![0, 0] :=
  (by decide +kernel : ∀ t : Fin grid0.N, win0_1.index t = ![0, 0])
theorem index0_2 : ∀ t : Fin cfg0.N, win0_2.index t = ![0] :=
  (by decide +kernel : ∀ t : Fin grid0.N, win0_2.index t = ![0])

theorem index1_3 : ∀ t : Fin cfg1.N, win1_3.index t = ![0, 0] :=
  (by decide +kernel : ∀ t : Fin grid1.N, win1_3.index t = ![0, 0])
theorem index1_4 : ∀ t : Fin cfg1.N, win1_4.index t = ![0] :=
  (by decide +kernel : ∀ t : Fin grid1.N, win1_4.index t = ![0])
theorem index1_5 : ∀ t : Fin cfg1.N, win1_5.index t = ![0, 0] :=
  (by decide +kernel : ∀ t : Fin grid1.N, win1_5.index t = ![0, 0])
theorem index1_6 : ∀ t : Fin cfg1.N, win1_6.index t = ![0] :=
  (by decide +kernel : ∀ t : Fin grid1.N, win1_6.index t = ![0])
theorem index1_7 : ∀ t : Fin cfg1.N, win1_7.index t = ![0] :=
  (by decide +kernel : ∀ t : Fin grid1.N, win1_7.index t = ![0])
theorem index1_8 : ∀ t : Fin cfg1.N, win1_8.index t = ![0] :=
  (by decide +kernel : ∀ t : Fin grid1.N, win1_8.index t = ![0])
theorem index1_9 : ∀ t : Fin cfg1.N, win1_9.index t = ![0, 0] :=
  (by decide +kernel : ∀ t : Fin grid1.N, win1_9.index t = ![0, 0])
theorem index1_10 : ∀ t : Fin cfg1.N, win1_10.index t = ![0] :=
  (by decide +kernel : ∀ t : Fin grid1.N, win1_10.index t = ![0])

/-- A point of the first grid is below 10. -/
theorem lt0 (t : Fin cfg0.N) : t.val < 10 := lt_of_lt_of_eq t.isLt N_0
/-- A point of the second grid is below 30. -/
theorem lt1 (t : Fin cfg1.N) : t.val < 30 := lt_of_lt_of_eq t.isLt N_1

/-! ## The first pipeline -/

theorem iblk0_0 (c : Dev nD) (t : Fin cfg0.N) :
    (iblk0 V c 0 t : Vec F S5000x128 .f32) = blk (V c main_arg0 : Vec F S50000x128 .f32) (jOf0 t) := by
  refine funext fun (y : S5000x128.Idx) => ?_
  have h0 : win0_0.index t (0 : Fin 2) = t.val := congrFun (index0_0 t) 0
  have h1 : win0_0.index t (1 : Fin 2) = 0 := congrFun (index0_0 t) 1
  have ht := lt0 t
  unfold iblk0
  rw [View.read_apply]
  show (V c main_arg0 : Vec F S50000x128 .f32) _ = (V c main_arg0 : Vec F S50000x128 .f32) (ValueIdx.ix2 (rowOf (jOf0 t) (y 0)) (y 1))
  refine congrArg _ (funext fun a => Fin.ext ?_)
  match a with
  | ⟨0, _⟩ => show win0_0.index t (0 : Fin 2) * 5000 + 1 * (y 0).val = 5000 * (t.val % 10) + (y 0).val; rw [h0]; omega
  | ⟨1, _⟩ => show win0_0.index t (1 : Fin 2) * 128 + 1 * (y 1).val = (y 1).val; rw [h1]; omega
theorem iblk0_1 (c : Dev nD) (t : Fin cfg0.N) : (iblk0 V c 1 t : Vec F S128x64 .f32) = (V c main_v0 : Vec F S128x64 .f32) := by
  refine funext fun (y : S128x64.Idx) => ?_
  have h0 : win0_1.index t (0 : Fin 2) = 0 := congrFun (index0_1 t) 0
  have h1 : win0_1.index t (1 : Fin 2) = 0 := congrFun (index0_1 t) 1
  unfold iblk0
  rw [View.read_apply]
  show (V c main_v0 : Vec F S128x64 .f32) _ = (V c main_v0 : Vec F S128x64 .f32) y
  refine congrArg _ (funext fun a => Fin.ext ?_)
  match a with
  | ⟨0, _⟩ => show win0_1.index t (0 : Fin 2) * 128 + 1 * (y 0).val = (y 0).val; rw [h0]; omega
  | ⟨1, _⟩ => show win0_1.index t (1 : Fin 2) * 64 + 1 * (y 1).val = (y 1).val; rw [h1]; omega
theorem iblk0_2 (c : Dev nD) (t : Fin cfg0.N) : (iblk0 V c 2 t : Vec F S64 .f32) = (V c main_arg3 : Vec F S64 .f32) := by
  refine funext fun (y : S64.Idx) => ?_
  have h0 : win0_2.index t (0 : Fin 1) = 0 := congrFun (index0_2 t) 0
  unfold iblk0
  rw [View.read_apply]
  show (V c main_arg3 : Vec F S64 .f32) _ = (V c main_arg3 : Vec F S64 .f32) y
  refine congrArg _ (funext fun a => Fin.ext ?_)
  match a with
  | ⟨0, _⟩ => show win0_2.index t (0 : Fin 1) * 64 + 1 * (y 0).val = (y 0).val; rw [h0]; omega

/-! ## The second pipeline: the three streamed windows during phase 0, the eight whole ones always -/

theorem iblk1_0 (c : Dev nD) (t : Fin cfg1.N) (ht : t.val < 10) :
    (iblk1 V c 0 t : Vec F S5000x64 .f32) = blk (V c main_v18 : Vec F S50000x64 .f32) (jOf t) := by
  refine funext fun (y : S5000x64.Idx) => ?_
  have h0 : win1_0.index t (0 : Fin 2) = t.val := (congrFun (index1_0 t) 0).trans (if_pos ht)
  have h1 : win1_0.index t (1 : Fin 2) = 0 := congrFun (index1_0 t) 1
  unfold iblk1
  rw [View.read_apply]
  show (V c main_v18 : Vec F S50000x64 .f32) _ = (V c main_v18 : Vec F S50000x64 .f32) (ValueIdx.ix2 (rowOf (jOf t) (y 0)) (y 1))
  refine congrArg _ (funext fun a => Fin.ext ?_)
  match a with
  | ⟨0, _⟩ => show win1_0.index t (0 : Fin 2) * 5000 + 1 * (y 0).val = 5000 * (t.val % 10) + (y 0).val; rw [h0]; omega
  | ⟨1, _⟩ => show win1_0.index t (1 : Fin 2) * 64 + 1 * (y 1).val = (y 1).val; rw [h1]; omega
theorem iblk1_1 (c : Dev nD) (t : Fin cfg1.N) (ht : t.val < 10) :
    (iblk1 V c 1 t : Vec F S5000x1 .f32) = blk (V c main_v23 : Vec F S50000x1 .f32) (jOf t) := by
  refine funext fun (y : S5000x1.Idx) => ?_
  have h0 : win1_1.index t (0 : Fin 2) = t.val := (congrFun (index1_1 t) 0).trans (if_pos ht)
  have h1 : win1_1.index t (1 : Fin 2) = 0 := congrFun (index1_1 t) 1
  unfold iblk1
  rw [View.read_apply]
  show (V c main_v23 : Vec F S50000x1 .f32) _ = (V c main_v23 : Vec F S50000x1 .f32) (ValueIdx.ix2 (rowOf (jOf t) (y 0)) (y 1))
  refine congrArg _ (funext fun a => Fin.ext ?_)
  match a with
  | ⟨0, _⟩ => show win1_1.index t (0 : Fin 2) * 5000 + 1 * (y 0).val = 5000 * (t.val % 10) + (y 0).val; rw [h0]; omega
  | ⟨1, _⟩ => show win1_1.index t (1 : Fin 2) * 1 + 1 * (y 1).val = (y 1).val; rw [h1]; omega
theorem iblk1_2 (c : Dev nD) (t : Fin cfg1.N) (ht : t.val < 10) :
    (iblk1 V c 2 t : Vec F S5000x64 .f32) = blk (V c main_v4 : Vec F S50000x64 .f32) (jOf t) := by
  refine funext fun (y : S5000x64.Idx) => ?_
  have h0 : win1_2.index t (0 : Fin 2) = t.val := (congrFun (index1_2 t) 0).trans (if_pos ht)
  have h1 : win1_2.index t (1 : Fin 2) = 0 := congrFun (index1_2 t) 1
  unfold iblk1
  rw [View.read_apply]
  show (V c main_v4 : Vec F S50000x64 .f32) _ = (V c main_v4 : Vec F S50000x64 .f32) (ValueIdx.ix2 (rowOf (jOf t) (y 0)) (y 1))
  refine congrArg _ (funext fun a => Fin.ext ?_)
  match a with
  | ⟨0, _⟩ => show win1_2.index t (0 : Fin 2) * 5000 + 1 * (y 0).val = 5000 * (t.val % 10) + (y 0).val; rw [h0]; omega
  | ⟨1, _⟩ => show win1_2.index t (1 : Fin 2) * 64 + 1 * (y 1).val = (y 1).val; rw [h1]; omega
theorem iblk1_3 (c : Dev nD) (t : Fin cfg1.N) : (iblk1 V c 3 t : Vec F S64x64 .f32) = (V c main_v1 : Vec F S64x64 .f32) := by
  refine funext fun (y : S64x64.Idx) => ?_
  have h0 : win1_3.index t (0 : Fin 2) = 0 := congrFun (index1_3 t) 0
  have h1 : win1_3.index t (1 : Fin 2) = 0 := congrFun (index1_3 t) 1
  unfold iblk1
  rw [View.read_apply]
  show (V c main_v1 : Vec F S64x64 .f32) _ = (V c main_v1 : Vec F S64x64 .f32) y
  refine congrArg _ (funext fun a => Fin.ext ?_)
  match a with
  | ⟨0, _⟩ => show win1_3.index t (0 : Fin 2) * 64 + 1 * (y 0).val = (y 0).val; rw [h0]; omega
  | ⟨1, _⟩ => show win1_3.index t (1 : Fin 2) * 64 + 1 * (y 1).val = (y 1).val; rw [h1]; omega
theorem iblk1_4 (c : Dev nD) (t : Fin cfg1.N) : (iblk1 V c 4 t : Vec F S64 .f32) = (V c main_arg5 : Vec F S64 .f32) := by
  refine funext fun (y : S64.Idx) => ?_
  have h0 : win1_4.index t (0 : Fin 1) = 0 := congrFun (index1_4 t) 0
  unfold iblk1
  rw [View.read_apply]
  show (V c main_arg5 : Vec F S64 .f32) _ = (V c main_arg5 : Vec F S64 .f32) y
  refine congrArg _ (funext fun a => Fin.ext ?_)
  match a with
  | ⟨0, _⟩ => show win1_4.index t (0 : Fin 1) * 64 + 1 * (y 0).val = (y 0).val; rw [h0]; omega
theorem iblk1_5 (c : Dev nD) (t : Fin cfg1.N) : (iblk1 V c 5 t : Vec F S64x64 .f32) = (V c main_v2 : Vec F S64x64 .f32) := by
  refine funext fun (y : S64x64.Idx) => ?_
  have h0 : win1_5.index t (0 : Fin 2) = 0 := congrFun (index1_5 t) 0
  have h1 : win1_5.index t (1 : Fin 2) = 0 := congrFun (index1_5 t) 1
  unfold iblk1
  rw [View.read_apply]
  show (V c main_v2 : Vec F S64x64 .f32) _ = (V c main_v2 : Vec F S64x64 .f32) y
  refine congrArg _ (funext fun a => Fin.ext ?_)
  match a with
  | ⟨0, _⟩ => show win1_5.index t (0 : Fin 2) * 64 + 1 * (y 0).val = (y 0).val; rw [h0]; omega
  | ⟨1, _⟩ => show win1_5.index t (1 : Fin 2) * 64 + 1 * (y 1).val = (y 1).val; rw [h1]; omega
theorem iblk1_6 (c : Dev nD) (t : Fin cfg1.N) : (iblk1 V c 6 t : Vec F S64 .f32) = (V c main_arg9 : Vec F S64 .f32) := by
  refine funext fun (y : S64.Idx) => ?_
  have h0 : win1_6.index t (0 : Fin 1) = 0 := congrFun (index1_6 t) 0
  unfold iblk1
  rw [View.read_apply]
  show (V c main_arg9 : Vec F S64 .f32) _ = (V c main_arg9 : Vec F S64 .f32) y
  refine congrArg _ (funext fun a => Fin.ext ?_)
  match a with
  | ⟨0, _⟩ => show win1_6.index t (0 : Fin 1) * 64 + 1 * (y 0).val = (y 0).val; rw [h0]; omega
theorem iblk1_7 (c : Dev nD) (t : Fin cfg1.N) : (iblk1 V c 7 t : Vec F S64 .f32) = (V c main_arg7 : Vec F S64 .f32) := by
  refine funext fun (y : S64.Idx) => ?_
  have h0 : win1_7.index t (0 : Fin 1) = 0 := congrFun (index1_7 t) 0
  unfold iblk1
  rw [View.read_apply]
  show (V c main_arg7 : Vec F S64 .f32) _ = (V c main_arg7 : Vec F S64 .f32) y
  refine congrArg _ (funext fun a => Fin.ext ?_)
  match a with
  | ⟨0, _⟩ => show win1_7.index t (0 : Fin 1) * 64 + 1 * (y 0).val = (y 0).val; rw [h0]; omega
theorem iblk1_8 (c : Dev nD) (t : Fin cfg1.N) : (iblk1 V c 8 t : Vec F S64 .f32) = (V c main_arg8 : Vec F S64 .f32) := by
  refine funext fun (y : S64.Idx) => ?_
  have h0 : win1_8.index t (0 : Fin 1) = 0 := congrFun (index1_8 t) 0
  unfold iblk1
  rw [View.read_apply]
  show (V c main_arg8 : Vec F S64 .f32) _ = (V c main_arg8 : Vec F S64 .f32) y
  refine congrArg _ (funext fun a => Fin.ext ?_)
  match a with
  | ⟨0, _⟩ => show win1_8.index t (0 : Fin 1) * 64 + 1 * (y 0).val = (y 0).val; rw [h0]; omega
theorem iblk1_9 (c : Dev nD) (t : Fin cfg1.N) : (iblk1 V c 9 t : Vec F S64x64 .f32) = (V c main_v3 : Vec F S64x64 .f32) := by
  refine funext fun (y : S64x64.Idx) => ?_
  have h0 : win1_9.index t (0 : Fin 2) = 0 := congrFun (index1_9 t) 0
  have h1 : win1_9.index t (1 : Fin 2) = 0 := congrFun (index1_9 t) 1
  unfold iblk1
  rw [View.read_apply]
  show (V c main_v3 : Vec F S64x64 .f32) _ = (V c main_v3 : Vec F S64x64 .f32) y
  refine congrArg _ (funext fun a => Fin.ext ?_)
  match a with
  | ⟨0, _⟩ => show win1_9.index t (0 : Fin 2) * 64 + 1 * (y 0).val = (y 0).val; rw [h0]; omega
  | ⟨1, _⟩ => show win1_9.index t (1 : Fin 2) * 64 + 1 * (y 1).val = (y 1).val; rw [h1]; omega
theorem iblk1_10 (c : Dev nD) (t : Fin cfg1.N) : (iblk1 V c 10 t : Vec F S64 .f32) = (V c main_arg11 : Vec F S64 .f32) := by
  refine funext fun (y : S64.Idx) => ?_
  have h0 : win1_10.index t (0 : Fin 1) = 0 := congrFun (index1_10 t) 0
  unfold iblk1
  rw [View.read_apply]
  show (V c main_arg11 : Vec F S64 .f32) _ = (V c main_arg11 : Vec F S64 .f32) y
  refine congrArg _ (funext fun a => Fin.ext ?_)
  match a with
  | ⟨0, _⟩ => show win1_10.index t (0 : Fin 1) * 64 + 1 * (y 0).val = (y 0).val; rw [h0]; omega

/-! ## A row block of an array read through an output window's block -/

/-- The block the first pipeline's output window names at point t, read off an assembled array, is row block t. -/
theorem read_blk0_3 (c : Dev nD) (t : Fin cfg0.N) (B : Fin 10 → Vec F S5000x64 .f32) :
    (((cfg0.win 3).blk t).view.read (Elt F) (asm B : Vec F S50000x64 .f32) : Vec F S5000x64 .f32) = B (jOf0 t) := by
  refine funext fun (y : S5000x64.Idx) => ?_
  have h0 : win0_3.index t (0 : Fin 2) = t.val := congrFun (index0_3 t) 0
  have h1 : win0_3.index t (1 : Fin 2) = 0 := congrFun (index0_3 t) 1
  have ht := lt0 t
  have e : (((cfg0.win 3).blk t).view.emb y : S50000x64.Idx) = ValueIdx.ix2 (rowOf (jOf0 t) (y 0)) (y 1) := by
    refine funext fun a => Fin.ext ?_
    match a with
    | ⟨0, _⟩ => show win0_3.index t (0 : Fin 2) * 5000 + 1 * (y 0).val = 5000 * (t.val % 10) + (y 0).val; rw [h0]; omega
    | ⟨1, _⟩ => show win0_3.index t (1 : Fin 2) * 64 + 1 * (y 1).val = (y 1).val; rw [h1]; omega
  rw [View.read_apply]
  show (asm B : Vec F S50000x64 .f32) (((cfg0.win 3).blk t).view.emb y) = B (jOf0 t) y
  rw [e]
  exact (asm_rowOf B (jOf0 t) (y 0) (y 1)).trans (congrArg (B (jOf0 t)) (ValueIdx.eq_ix2 y).symm)

/-- The block the second pipeline's output window names at a point t of phase 2, read off an assembled array, is
    row block t - 20. -/
theorem read_blk1_11 (c : Dev nD) (t : Fin cfg1.N) (ht : 20 ≤ t.val) (B : Fin 10 → Vec F S5000x64 .f32) :
    (((cfg1.win 11).blk t).view.read (Elt F) (asm B : Vec F S50000x64 .f32) : Vec F S5000x64 .f32) = B (jOf t) := by
  refine funext fun (y : S5000x64.Idx) => ?_
  have h0 : win1_11.index t (0 : Fin 2) = t.val - 20 := (congrFun (index1_11 t) 0).trans (if_pos ht)
  have h1 : win1_11.index t (1 : Fin 2) = 0 := congrFun (index1_11 t) 1
  have hlt := lt1 t
  have e : (((cfg1.win 11).blk t).view.emb y : S50000x64.Idx) = ValueIdx.ix2 (rowOf (jOf t) (y 0)) (y 1) := by
    refine funext fun a => Fin.ext ?_
    match a with
    | ⟨0, _⟩ => show win1_11.index t (0 : Fin 2) * 5000 + 1 * (y 0).val = 5000 * (t.val % 10) + (y 0).val; rw [h0]; omega
    | ⟨1, _⟩ => show win1_11.index t (1 : Fin 2) * 64 + 1 * (y 1).val = (y 1).val; rw [h1]; omega
  rw [View.read_apply]
  show (asm B : Vec F S50000x64 .f32) (((cfg1.win 11).blk t).view.emb y) = B (jOf t) y
  rw [e]
  exact (asm_rowOf B (jOf t) (y 0) (y 1)).trans (congrArg (B (jOf t)) (ValueIdx.eq_ix2 y).symm)

/-- An index of the first pipeline's output array is in point t's block iff each coordinate is in the block's
    range on its axis. -/
theorem mem_blk0_3 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v4).slice (win0_3.rect t)).set ↔ _
  rw [View.set_slice_whole, Rect.mem_set_unit]
  exact Iff.rfl

/-- Row i of the first pipeline's output array lies in the block of point i / 5000. -/
theorem cover0_3_at (i : S50000x64.Idx) :
    ∃ t : Fin cfg0.N, (cfg0.win 3).flush t = true ∧ i ∈ ((cfg0.win 3).blk t).view.set := by
  have hi0 : (i 0).val < 50000 := ValueIdx.idx2_lt0 i
  have hi1 : (i 1).val < 64 := ValueIdx.idx2_lt1 i
  let t : Fin cfg0.N := ⟨(i 0).val / 5000, by rw [show cfg0.N = 10 from N_0]; omega⟩
  have h0 : win0_3.index t (0 : Fin 2) = (i 0).val / 5000 := congrFun (index0_3 t) 0
  have h1 : win0_3.index t (1 : Fin 2) = 0 := congrFun (index0_3 t) 1
  refine ⟨t, flush0_3 t, ?_⟩
  rw [mem_blk0_3]
  intro a
  match a with
  | ⟨0, _⟩ =>
    show win0_3.index t (0 : Fin 2) * 5000 ≤ (i 0).val ∧ (i 0).val < win0_3.index t (0 : Fin 2) * 5000 + 5000
    rw [h0]; omega
  | ⟨1, _⟩ =>
    show win0_3.index t (1 : Fin 2) * 64 ≤ (i 1).val ∧ (i 1).val < win0_3.index t (1 : Fin 2) * 64 + 64
    rw [h1]; omega

/-- Every element of the first pipeline's output array lies in the block of some point (all ten write back). -/
theorem cover0_3 (c : Dev nD) (i : ((cfg0.win 3).arr.view.loc (c.tc : Thread nD τ)).2.ty.Idx) :
    ∃ t : Fin cfg0.N, (cfg0.win 3).flush t = true ∧ i ∈ ((cfg0.win 3).blk t).view.set :=
  cover0_3_at i

/-- An index of the second pipeline's output array is in point t's block iff each coordinate is in the block's
    range on its axis. -/
theorem mem_blk1_11 (t : Fin cfg1.N) (i : S50000x64.Idx) :
    i ∈ ((cfg1.win 11).blk t).view.set ↔ ∀ a : Fin 2, win1_11.index t a * S5000x64.size a ≤ (i a).val
      ∧ (i a).val < win1_11.index t a * S5000x64.size a + S5000x64.size a := by
  show i ∈ ((View.whole main_v24).slice (win1_11.rect t)).set ↔ _
  rw [View.set_slice_whole, Rect.mem_set_unit]
  exact Iff.rfl

/-- Row i of the second pipeline's output array lies in the block of point 20 + i / 5000. -/
theorem cover1_11_at (i : S50000x64.Idx) :
    ∃ t : Fin cfg1.N, (cfg1.win 11).flush t = true ∧ i ∈ ((cfg1.win 11).blk t).view.set := by
  have hi0 : (i 0).val < 50000 := ValueIdx.idx2_lt0 i
  have hi1 : (i 1).val < 64 := ValueIdx.idx2_lt1 i
  let t : Fin cfg1.N := ⟨20 + (i 0).val / 5000, by rw [show cfg1.N = 30 from N_1]; omega⟩
  have h20 : 20 ≤ t.val := Nat.le_add_right _ _
  have h0 : win1_11.index t (0 : Fin 2) = t.val - 20 := (congrFun (index1_11 t) 0).trans (if_pos h20)
  have h1 : win1_11.index t (1 : Fin 2) = 0 := congrFun (index1_11 t) 1
  have htv : t.val - 20 = (i 0).val / 5000 := Nat.add_sub_cancel_left 20 ((i 0).val / 5000)
  refine ⟨t, (flush1_11 t).mpr h20, ?_⟩
  rw [mem_blk1_11]
  intro a
  match a with
  | ⟨0, _⟩ =>
    show win1_11.index t (0 : Fin 2) * 5000 ≤ (i 0).val ∧ (i 0).val < win1_11.index t (0 : Fin 2) * 5000 + 5000
    rw [h0, htv]; omega
  | ⟨1, _⟩ =>
    show win1_11.index t (1 : Fin 2) * 64 ≤ (i 1).val ∧ (i 1).val < win1_11.index t (1 : Fin 2) * 64 + 64
    rw [h1]; omega

/-- Every element of the second pipeline's output array lies in the block of some point of phase 2. -/
theorem cover1_11 (c : Dev nD) (i : ((cfg1.win 11).arr.view.loc (c.tc : Thread nD τ)).2.ty.Idx) :
    ∃ t : Fin cfg1.N, (cfg1.win 11).flush t = true ∧ i ∈ ((cfg1.win 11).blk t).view.set :=
  cover1_11_at i

end Cert.KernelIdeal.Fr

end
-- ==== Proof.Fr.Inv1.lean ====
/-
  The second pipeline's proof data (any float instance). Between points the five scratch buffers hold: the conv
  cache, whose first min(n, 10) row-block slices are the conv blocks; from point 1 on the running sum after
  min(n, 10) blocks; from point 11 on the shift and the running sum of squares after min(n - 10, 10) blocks; from
  point 21 on the inverse deviation. After the body the eleven input windows hold their blocks, and at the points
  of phase 2 the output window holds the output block of the point's row block.
-/
import proofs.«407117_j28578712387660_3_alg».proof.Proof.Fr.Bridge
import proofs.«407117_j28578712387660_3_alg».proof.Proof.Fr.RunBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Pure

variable (V : (c : Dev nD) → (b : Ref sig .tc) → Buf (Elt F) ((c : Thread nD τ).loc b))

/-! ## The arrays the region finds, and the kernel's quantities of them -/

abbrev AGG (c : Dev nD) : Vec F S50000x64 .f32 := V c main_v18
abbrev CNT (c : Dev nD) : Vec F S50000x1 .f32 := V c main_v23
abbrev HH (c : Dev nD) : Vec F S50000x64 .f32 := V c main_v4
abbrev WL (c : Dev nD) : Vec F S64x64 .f32 := V c main_v1
abbrev BL (c : Dev nD) : Vec F S64 .f32 := V c main_arg5
abbrev WR (c : Dev nD) : Vec F S64x64 .f32 := V c main_v2
abbrev GMS (c : Dev nD) : Vec F S64 .f32 := V c main_arg9
abbrev GW (c : Dev nD) : Vec F S64 .f32 := V c main_arg7
abbrev GB (c : Dev nD) : Vec F S64 .f32 := V c main_arg8
abbrev WO (c : Dev nD) : Vec F S64x64 .f32 := V c main_v3
abbrev BO (c : Dev nD) : Vec F S64 .f32 := V c main_arg11

def cv (c : Dev nD) (j : Fin 10) : Vec F S5000x64 .f32 := convBlk (AGG V c) (CNT V c) (HH V c) (WL V c) (BL V c) (WR V c) j
def sm (c : Dev nD) (n : Nat) (hn : n ≤ 10) : Vec F S1x64 .f32 := sumAt (AGG V c) (CNT V c) (HH V c) (WL V c) (BL V c) (WR V c) n hn
def sh (c : Dev nD) : Vec F S1x64 .f32 := shift (AGG V c) (CNT V c) (HH V c) (WL V c) (BL V c) (WR V c) (GMS V c)
def sq (c : Dev nD) (n : Nat) (hn : n ≤ 10) : Vec F S1x64 .f32 := sqAt (AGG V c) (CNT V c) (HH V c) (WL V c) (BL V c) (WR V c) (GMS V c) n hn
def iv (c : Dev nD) : Vec F S1x64 .f32 := invStd (AGG V c) (CNT V c) (HH V c) (WL V c) (BL V c) (WR V c) (GMS V c)
def ob (c : Dev nD) (j : Fin 10) : Vec F S5000x64 .f32 :=
  outBlk (AGG V c) (CNT V c) (HH V c) (WL V c) (BL V c) (WR V c) (GMS V c) (GW V c) (GB V c) (WO V c) (BO V c) j

theorem sm_succ (c : Dev nD) (n : Nat) (hn : n + 1 ≤ 10) :
    sm V c (n + 1) hn = k1_pay4 (blk (AGG V c) ⟨n, hn⟩) (blk (CNT V c) ⟨n, hn⟩) (WL V c) (BL V c) (blk (HH V c) ⟨n, hn⟩) (WR V c) (sm V c n (Nat.le_of_succ_le hn)) := rfl
theorem sm_zero (c : Dev nD) : sm V c 0 (Nat.zero_le _) = k1_pay1 := rfl
theorem sq_succ (c : Dev nD) (n : Nat) (hn : n + 1 ≤ 10) :
    sq V c (n + 1) hn = k1_pay7 (cv V c ⟨n, hn⟩) (sh V c) (sq V c n (Nat.le_of_succ_le hn)) := rfl
theorem sq_zero (c : Dev nD) : sq V c 0 (Nat.zero_le _) = k1_pay6 := rfl
theorem cv_def (c : Dev nD) (j : Fin 10) :
    cv V c j = k1_pay3 (blk (AGG V c) j) (blk (CNT V c) j) (WL V c) (BL V c) (blk (HH V c) j) (WR V c) := rfl
theorem sh_def (c : Dev nD) : sh V c = k1_pay5 (sm V c 10 (Nat.le_refl _)) (GMS V c) := rfl
theorem iv_def (c : Dev nD) : iv V c = k1_pay8 (sq V c 10 (Nat.le_refl _)) := rfl
theorem ob_def (c : Dev nD) (j : Fin 10) :
    ob V c j = k1_pay9 (cv V c j) (sh V c) (iv V c) (GW V c) (GB V c) (WO V c) (BO V c) := rfl

/-! ## The conv cache's row-block slices -/

/-- Row-block slice j of the conv cache. -/
abbrev rectJ (j : Fin 10) : Rect S50000x64 :=
  Rect.unit (s := S50000x64) ![5000 * j.val, 0] S5000x64.size (fun a => by
    match a with
    | ⟨0, _⟩ => show 5000 * j.val + 5000 ≤ 50000; have := j.isLt; omega
    | ⟨1, _⟩ => show 0 + 64 ≤ 64; omega)

theorem unit_congr {S : Shape} {off off' size : Fin S.rank → Nat} (h : off = off') (inb : ∀ a, off a + size a ≤ S.size a)
    (inb' : ∀ a, off' a + size a ≤ S.size a) : Rect.unit off size inb = Rect.unit off' size inb' := by
  subst h; rfl

theorem rect1_eq (t : Fin cfg1.N) (h : c2 (grid1.coords t)) : rect1 (grid1.coords t) h = rectJ (jOf t) :=
  unit_congr (off1_eq t) _ _
theorem rect2_eq (t : Fin cfg1.N) (h : c4 (grid1.coords t)) : rect2 (grid1.coords t) h = rectJ (jOf t) :=
  unit_congr (off2_eq t) _ _
theorem rect3_eq (t : Fin cfg1.N) (h : c6 (grid1.coords t)) : rect3 (grid1.coords t) h = rectJ (jOf t) :=
  unit_congr (off3_eq t) _ _

/-! ## What the scratch buffers hold before point n -/

/-- The running sums at equal step counts are equal, whatever the proofs of the bound. -/
theorem sm_congr (c : Dev nD) {a b : Nat} (h : a = b) (ha : a ≤ 10) (hb : b ≤ 10) : sm V c a ha = sm V c b hb := by
  subst h; rfl
theorem sq_congr (c : Dev nD) {a b : Nat} (h : a = b) (ha : a ≤ 10) (hb : b ≤ 10) : sq V c a ha = sq V c b hb := by
  subst h; rfl

/-- Row-block slice j lies wholly above slice n when j < n: rows 5000 j … 5000 j + 4999 are below row 5000 n. -/
theorem rectJ_idx_not_mem {j n : Fin 10} (hlt : j.val < n.val) (x : (rectJ j).shape.Idx) : (rectJ j).idx x ∉ (rectJ n).set := by
  intro hmem
  have hb := (Rect.mem_set_unit.mp hmem) ⟨0, Nat.zero_lt_two⟩
  have hx : (x ⟨0, Nat.zero_lt_two⟩).val < 5000 := (x ⟨0, Nat.zero_lt_two⟩).isLt
  have h1 : 5000 * n.val ≤ 5000 * j.val + 1 * (x ⟨0, Nat.zero_lt_two⟩).val := hb.1
  omega

structure Inv (c : Dev nD) (n : Nat) (s14 : Vec F S50000x64 .f32) (s15 s16 s17 s18 : Vec F S1x64 .f32) : Prop where
  conv : ∀ j : Fin 10, j.val < n → View.ld s14 (rectJ j) = cv V c j
  sum : 1 ≤ n → s15 = sm V c (min n 10) (Nat.min_le_right _ _)
  shift : 11 ≤ n → s17 = sh V c
  sqs : 11 ≤ n → s16 = sq V c (min (n - 10) 10) (Nat.min_le_right _ _)
  inv : 21 ≤ n → s18 = iv V c

theorem Inv.zero (c : Dev nD) (s14 : Vec F S50000x64 .f32) (s15 s16 s17 s18 : Vec F S1x64 .f32) : Inv V c 0 s14 s15 s16 s17 s18 :=
  ⟨fun j h => absurd h (Nat.not_lt_zero _), fun h => absurd h (by omega), fun h => absurd h (by omega), fun h => absurd h (by omega), fun h => absurd h (by omega)⟩

/-- A point of phase 0 (n < 10): slice n of the conv cache now holds conv block n, every other row is kept, and the
    running sum has taken block n in. -/
theorem Inv.step0 (c : Dev nD) (n : Nat) (hn : n < 10) {s14 s14' : Vec F S50000x64 .f32} {s15 s15' s16 s17 s18 : Vec F S1x64 .f32}
    (h : Inv V c n s14 s15 s16 s17 s18)
    (h14 : View.ld s14' (rectJ ⟨n, hn⟩) = cv V c ⟨n, hn⟩ ∧ ∀ y, y ∉ (rectJ ⟨n, hn⟩).set → s14' y = s14 y)
    (h15 : s15' = sm V c (n + 1) hn) : Inv V c (n + 1) s14' s15' s16 s17 s18 := by
  refine ⟨fun j hj => ?_, fun _ => ?_, fun h11 => absurd h11 (by omega), fun h11 => absurd h11 (by omega),
    fun h21 => absurd h21 (by omega)⟩
  · rcases Nat.lt_succ_iff_lt_or_eq.mp hj with hlt | heq
    · refine Eq.trans ?_ (h.conv j hlt)
      funext x
      exact h14.2 _ (rectJ_idx_not_mem (n := ⟨n, hn⟩) hlt x)
    · have hj' : j = ⟨n, hn⟩ := Fin.ext heq
      subst hj'
      exact h14.1
  · rw [h15]
    exact sm_congr V c (by omega) _ _

/-- Point 10: the shift is formed and the running sum of squares has taken block 0 in. -/
theorem Inv.step10 (c : Dev nD) {s14 : Vec F S50000x64 .f32} {s15 s16 s16' s17 s17' s18 : Vec F S1x64 .f32}
    (h : Inv V c 10 s14 s15 s16 s17 s18) (h17 : s17' = sh V c) (h16 : s16' = sq V c 1 (by omega)) :
    Inv V c 11 s14 s15 s16' s17' s18 := by
  refine ⟨fun j _ => h.conv j j.isLt, fun _ => ?_, fun _ => h17, fun _ => ?_, fun h21 => absurd h21 (by omega)⟩
  · rw [h.sum (by omega)]
    exact sm_congr V c (by omega) _ _
  · rw [h16]
    exact sq_congr V c (by omega) _ _

/-- A later point of phase 1 (10 < n < 20): the running sum of squares has taken block n - 10 in. -/
theorem Inv.step1 (c : Dev nD) (n : Nat) (h10 : 10 < n) (h20 : n < 20) {s14 : Vec F S50000x64 .f32} {s15 s16 s16' s17 s18 : Vec F S1x64 .f32}
    (h : Inv V c n s14 s15 s16 s17 s18) (h16 : s16' = sq V c (n - 10 + 1) (by omega)) :
    Inv V c (n + 1) s14 s15 s16' s17 s18 := by
  refine ⟨fun j _ => h.conv j (by have := j.isLt; omega), fun _ => ?_, fun _ => h.shift (by omega), fun _ => ?_,
    fun h21 => absurd h21 (by omega)⟩
  · rw [h.sum (by omega)]
    exact sm_congr V c (by omega) _ _
  · rw [h16]
    exact sq_congr V c (by omega) _ _

/-- Point 20: the inverse deviation is formed. -/
theorem Inv.step20 (c : Dev nD) {s14 : Vec F S50000x64 .f32} {s15 s16 s17 s18 s18' : Vec F S1x64 .f32}
    (h : Inv V c 20 s14 s15 s16 s17 s18) (h18 : s18' = iv V c) : Inv V c 21 s14 s15 s16 s17 s18' := by
  refine ⟨fun j _ => h.conv j (by have := j.isLt; omega), fun _ => ?_, fun _ => h.shift (by omega), fun _ => ?_, fun _ => h18⟩
  · rw [h.sum (by omega)]
    exact sm_congr V c (by omega) _ _
  · rw [h.sqs (by omega)]
    exact sq_congr V c (by omega) _ _

/-- A later point of phase 2: nothing of the scratch changes. -/
theorem Inv.step2 (c : Dev nD) (n : Nat) (h20 : 20 < n) {s14 : Vec F S50000x64 .f32} {s15 s16 s17 s18 : Vec F S1x64 .f32}
    (h : Inv V c n s14 s15 s16 s17 s18) : Inv V c (n + 1) s14 s15 s16 s17 s18 := by
  refine ⟨fun j _ => h.conv j (by have := j.isLt; omega), fun _ => ?_, fun _ => h.shift (by omega), fun _ => ?_,
    fun _ => h.inv (by omega)⟩
  · rw [h.sum (by omega)]
    exact sm_congr V c (by omega) _ _
  · rw [h.sqs (by omega)]
    exact sq_congr V c (by omega) _ _

end Cert.KernelIdeal.Fr

end
-- ==== Proof.Fr.Dat1.lean ====
/-
  The second pipeline's invariant and proof data (any float instance): between points the scratch buffers at
  contents that satisfy the point's invariant, the first pipeline's staging buffers at anything, the generator
  register at some state; after the body each input window at its block and, in phase 2, the output window at the
  output block of the point's row block.
-/
import proofs.«407117_j28578712387660_3_alg».proof.Proof.Fr.Inv1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Pure

variable (V : (c : Dev nD) → (b : Ref sig .tc) → Buf (Elt F) ((c : Thread nD τ).loc b))

/-! ## Each input window's current buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The scratch operands -/

abbrev scM0 : Memref sig .tc .vmem S50000x64 .f32 := Memref.whole cc1_scratch0
abbrev scM1 : Memref sig .tc .vmem S1x64 .f32 := Memref.whole cc1_scratch1
abbrev scM2 : Memref sig .tc .vmem S1x64 .f32 := Memref.whole cc1_scratch2
abbrev scM3 : Memref sig .tc .vmem S1x64 .f32 := Memref.whole cc1_scratch3
abbrev scM4 : Memref sig .tc .vmem S1x64 .f32 := Memref.whole cc1_scratch4

/-- The scoped buffers the second pipeline neither stages nor uses: the first pipeline's staging buffers, at anything. -/
def others (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f))

/-- The region invariant before point n. -/
def PhiS (c : Dev nD) (n : Nat) : sProp 𝕄 :=
  iprop(∃ (s14 : Vec F S50000x64 .f32) (s15 s16 s17 s18 : Vec F S1x64 .f32), ⌜Inv V c n s14 s15 s16 s17 s18⌝
    ∗ others c
    ∗ owns (c : Thread nD τ) scM0 fullShare s14 ∗ owns (c : Thread nD τ) scM1 fullShare s15 ∗ owns (c : Thread nD τ) scM2 fullShare s16
    ∗ owns (c : Thread nD τ) scM3 fullShare s17 ∗ owns (c : Thread nD τ) scM4 fullShare s18
    ∗ ∃ r, prngReg c r)

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => ob V c (jOf t)
  Φ t := PhiS V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = ob V c (jOf t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

theorem Phi_castSucc (c : Dev nD) (t : Fin cfg1.N) : (dat1 V c).Φ t.castSucc = PhiS V c t.val := by
  dsimp only [dat1]; simp only [Fin.coe_castSucc]
theorem Phi_succ (c : Dev nD) (t : Fin cfg1.N) : (dat1 V c).Φ t.succ = PhiS V c (t.val + 1) := rfl

end Cert.KernelIdeal.Fr

end
-- ==== Proof.Fr.Chain.lean ====
/-
  The contents of the core's unscoped buffers at each boundary of @main (any float instance): at launch; after the
  four transposes; after the first pipeline (its output array at what its write-backs leave); after the gather, the
  two scatter-adds and their index preparation; after the second pipeline.
-/
import proofs.«407117_j28578712387660_3_alg».proof.Proof.Fr.Region0
import proofs.«407117_j28578712387660_3_alg».proof.Proof.Fr.Dat1
import proofs.«407117_j28578712387660_3_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)
/-- After the four transposes (the first pipeline's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first pipeline's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host operations between the pipelines (the second pipeline's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second pipeline's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A host stretch leaves a buffer it does not write as it was. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

end Cert.KernelIdeal.Fr

end
-- ==== Proof.Fr.RunA.lean ====
/-
  The second kernel's body at the first point (phase 0, block 0): the running sum is reset, then the point's conv
  block is stored into slice 0 of the conv cache and its column sums are added to the fresh running sum.
-/
import proofs.«407117_j28578712387660_3_alg».proof.Proof.Fr.RunBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem runA (c : Dev nD) (i : grid1.Coords)
    (a2 : Memref sig .tc .vmem S5000x64 .f32) (h2 : a2.IsWhole) (a3 : Memref sig .tc .vmem S5000x1 .f32) (h3 : a3.IsWhole)
    (a4 : Memref sig .tc .vmem S5000x64 .f32) (h4 : a4.IsWhole) (a5 : Memref sig .tc .vmem S64x64 .f32) (h5 : a5.IsWhole)
    (a6 : Memref sig .tc .vmem S64 .f32) (h6 : a6.IsWhole) (a7 : Memref sig .tc .vmem S64x64 .f32) (h7 : a7.IsWhole)
    (a8 : Memref sig .tc .vmem S64 .f32) (h8 : a8.IsWhole) (a9 : Memref sig .tc .vmem S64 .f32) (h9 : a9.IsWhole)
    (a10 : Memref sig .tc .vmem S64 .f32) (h10 : a10.IsWhole) (a11 : Memref sig .tc .vmem S64x64 .f32) (h11 : a11.IsWhole)
    (a12 : Memref sig .tc .vmem S64 .f32) (h12 : a12.IsWhole) (a13 : Memref sig .tc .vmem S5000x64 .f32) (h13 : a13.IsWhole)
    (a14 : Memref sig .tc .vmem S50000x64 .f32) (h14 : a14.IsWhole) (a15 : Memref sig .tc .vmem S1x64 .f32) (h15 : a15.IsWhole)
    (a16 : Memref sig .tc .vmem S1x64 .f32) (h16 : a16.IsWhole) (a17 : Memref sig .tc .vmem S1x64 .f32) (h17 : a17.IsWhole)
    (a18 : Memref sig .tc .vmem S1x64 .f32) (h18 : a18.IsWhole)
    (hc1 : c1 i) (hc2 : c2 i) (hc3 : ¬c3 i) (hc4 : ¬c4 i) (hc5 : ¬c5 i) (hc6 : ¬c6 i)
    (x2 : Vec F S5000x64 .f32) (x3 : Vec F S5000x1 .f32) (x4 : Vec F S5000x64 .f32) (x5 : Vec F S64x64 .f32) (x6 : Vec F S64 .f32) (x7 : Vec F S64x64 .f32) (s14 : Vec F S50000x64 .f32)
    (E : Set ℕ) (K : PUnit → sProp 𝕄) :
    iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a14 fullShare s14
        ∗ (∃ d, owns (c : Thread nD τ) a15 fullShare d)
        ∗ (iprop(owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ (∃ s14' : Vec F S50000x64 .f32, ⌜View.ld s14' (rect1 i hc2) = k1_pay3 x2 x3 x5 x6 x4 x7 ∧ ∀ y, y ∉ (rect1 i hc2).set → s14' y = s14 y⌝
            ∗ owns (c : Thread nD τ) a14 fullShare s14')
            ∗ owns (c : Thread nD τ) a15 fullShare (k1_pay4 x2 x3 x5 x6 x4 x7 k1_pay1)) -∗ K ⟨⟩))
      ⊢ wp frame (wpE (defs₀ (F := F)) Variants.none c none) E
          (cc1__fused_kernel i a2 h2 a3 h3 a4 h4 a5 h5 a6 h6 a7 h7 a8 h8 a9 h9 a10 h10 a11 h11 a12 h12 a13 h13 a14 h14 a15 h15 a16 h16 a17 h17 a18 h18) K := by
  simp only [cc1__fused_kernel_eq_skeleton]; unfold cc1__fused_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f14, %hf14, H14⟩, ⟨%d15, %f15, -, H15⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h14.eq_unread hf14
  sl_exec (disch := first | exact hc1 | exact hc2 | exact hc3 | exact hc4 | exact hc5 | exact hc6)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H14]
  · iexists _; isplitr
    swap
    · iexists _; isplitr
      swap; · iexact H14
      ipureintro; rfl
    · ipureintro
      simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
      View.ld_unit_zero (S := S5000x64) z2, View.ld_unit_zero (S := S5000x1) z2, View.ld_unit_zero (S := S64x64) z2, View.ld_unit_zero (S := S64) z1, View.ld_unit_zero (S := S1x64) z2]
      exact ⟨ld_read_writes_self _ _ _ _, fun y hy => (read_writes_off _ _ _ _ y hy).trans (congrFun (h14.read_unread s14) y)⟩
  iexists _; isplitr
  swap; · iexact H15
  ipureintro
  (try sl_unfold_words)
  simp only [View.readCov_unit_zero (S := S1x64) _ z2, View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
    View.ld_unit_zero (S := S5000x64) z2, View.ld_unit_zero (S := S5000x1) z2, View.ld_unit_zero (S := S64x64) z2, View.ld_unit_zero (S := S64) z1, View.ld_unit_zero (S := S1x64) z2]
  exact read_writes_whole _ _ z2 _ _ _

end Cert.KernelIdeal.Fr

end
-- ==== Proof.Fr.RunB.lean ====
/-
  The second kernel's body at a later point of phase 0: the point's conv block is stored into its slice of the conv
  cache, every other row kept, and its column sums are added to the running sum.
-/
import proofs.«407117_j28578712387660_3_alg».proof.Proof.Fr.RunBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem runB (c : Dev nD) (i : grid1.Coords)
    (a2 : Memref sig .tc .vmem S5000x64 .f32) (h2 : a2.IsWhole) (a3 : Memref sig .tc .vmem S5000x1 .f32) (h3 : a3.IsWhole)
    (a4 : Memref sig .tc .vmem S5000x64 .f32) (h4 : a4.IsWhole) (a5 : Memref sig .tc .vmem S64x64 .f32) (h5 : a5.IsWhole)
    (a6 : Memref sig .tc .vmem S64 .f32) (h6 : a6.IsWhole) (a7 : Memref sig .tc .vmem S64x64 .f32) (h7 : a7.IsWhole)
    (a8 : Memref sig .tc .vmem S64 .f32) (h8 : a8.IsWhole) (a9 : Memref sig .tc .vmem S64 .f32) (h9 : a9.IsWhole)
    (a10 : Memref sig .tc .vmem S64 .f32) (h10 : a10.IsWhole) (a11 : Memref sig .tc .vmem S64x64 .f32) (h11 : a11.IsWhole)
    (a12 : Memref sig .tc .vmem S64 .f32) (h12 : a12.IsWhole) (a13 : Memref sig .tc .vmem S5000x64 .f32) (h13 : a13.IsWhole)
    (a14 : Memref sig .tc .vmem S50000x64 .f32) (h14 : a14.IsWhole) (a15 : Memref sig .tc .vmem S1x64 .f32) (h15 : a15.IsWhole)
    (a16 : Memref sig .tc .vmem S1x64 .f32) (h16 : a16.IsWhole) (a17 : Memref sig .tc .vmem S1x64 .f32) (h17 : a17.IsWhole)
    (a18 : Memref sig .tc .vmem S1x64 .f32) (h18 : a18.IsWhole)
    (hc1 : ¬c1 i) (hc2 : c2 i) (hc3 : ¬c3 i) (hc4 : ¬c4 i) (hc5 : ¬c5 i) (hc6 : ¬c6 i)
    (x2 : Vec F S5000x64 .f32) (x3 : Vec F S5000x1 .f32) (x4 : Vec F S5000x64 .f32) (x5 : Vec F S64x64 .f32) (x6 : Vec F S64 .f32) (x7 : Vec F S64x64 .f32) (s14 : Vec F S50000x64 .f32) (s15 : Vec F S1x64 .f32)
    (E : Set ℕ) (K : PUnit → sProp 𝕄) :
    iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a14 fullShare s14
        ∗ owns (c : Thread nD τ) a15 fullShare s15
        ∗ (iprop(owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ (∃ s14' : Vec F S50000x64 .f32, ⌜View.ld s14' (rect1 i hc2) = k1_pay3 x2 x3 x5 x6 x4 x7 ∧ ∀ y, y ∉ (rect1 i hc2).set → s14' y = s14 y⌝
            ∗ owns (c : Thread nD τ) a14 fullShare s14')
            ∗ owns (c : Thread nD τ) a15 fullShare (k1_pay4 x2 x3 x5 x6 x4 x7 s15)) -∗ K ⟨⟩))
      ⊢ wp frame (wpE (defs₀ (F := F)) Variants.none c none) E
          (cc1__fused_kernel i a2 h2 a3 h3 a4 h4 a5 h5 a6 h6 a7 h7 a8 h8 a9 h9 a10 h10 a11 h11 a12 h12 a13 h13 a14 h14 a15 h15 a16 h16 a17 h17 a18 h18) K := by
  simp only [cc1__fused_kernel_eq_skeleton]; unfold cc1__fused_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f14, %hf14, H14⟩, ⟨%f15, %hf15, H15⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h14.eq_unread hf14; obtain rfl := h15.eq_unread hf15
  sl_exec (disch := first | exact hc1 | exact hc2 | exact hc3 | exact hc4 | exact hc5 | exact hc6)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H14]
  · iexists _; isplitr
    swap
    · iexists _; isplitr
      swap; · iexact H14
      ipureintro; rfl
    · ipureintro
      simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
      View.ld_unit_zero (S := S5000x64) z2, View.ld_unit_zero (S := S5000x1) z2, View.ld_unit_zero (S := S64x64) z2, View.ld_unit_zero (S := S64) z1, View.ld_unit_zero (S := S1x64) z2]
      exact ⟨ld_read_writes_self _ _ _ _, fun y hy => (read_writes_off _ _ _ _ y hy).trans (congrFun (h14.read_unread s14) y)⟩
  iexists _; isplitr
  swap; · iexact H15
  ipureintro
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
    View.ld_unit_zero (S := S5000x64) z2, View.ld_unit_zero (S := S5000x1) z2, View.ld_unit_zero (S := S64x64) z2, View.ld_unit_zero (S := S64) z1, View.ld_unit_zero (S := S1x64) z2]
  exact read_writes_whole _ _ z2 _ _ _

end Cert.KernelIdeal.Fr

end
-- ==== Proof.Fr.RunC.lean ====
/-
  The second kernel's body at the first point of phase 1: the shift gms · (sum / 50000) is formed from the finished
  running sum, the running sum of squares is reset, and slice 0 of the conv cache, centred, adds its squares' column sums.
-/
import proofs.«407117_j28578712387660_3_alg».proof.Proof.Fr.RunBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem runC (c : Dev nD) (i : grid1.Coords)
    (a2 : Memref sig .tc .vmem S5000x64 .f32) (h2 : a2.IsWhole) (a3 : Memref sig .tc .vmem S5000x1 .f32) (h3 : a3.IsWhole)
    (a4 : Memref sig .tc .vmem S5000x64 .f32) (h4 : a4.IsWhole) (a5 : Memref sig .tc .vmem S64x64 .f32) (h5 : a5.IsWhole)
    (a6 : Memref sig .tc .vmem S64 .f32) (h6 : a6.IsWhole) (a7 : Memref sig .tc .vmem S64x64 .f32) (h7 : a7.IsWhole)
    (a8 : Memref sig .tc .vmem S64 .f32) (h8 : a8.IsWhole) (a9 : Memref sig .tc .vmem S64 .f32) (h9 : a9.IsWhole)
    (a10 : Memref sig .tc .vmem S64 .f32) (h10 : a10.IsWhole) (a11 : Memref sig .tc .vmem S64x64 .f32) (h11 : a11.IsWhole)
    (a12 : Memref sig .tc .vmem S64 .f32) (h12 : a12.IsWhole) (a13 : Memref sig .tc .vmem S5000x64 .f32) (h13 : a13.IsWhole)
    (a14 : Memref sig .tc .vmem S50000x64 .f32) (h14 : a14.IsWhole) (a15 : Memref sig .tc .vmem S1x64 .f32) (h15 : a15.IsWhole)
    (a16 : Memref sig .tc .vmem S1x64 .f32) (h16 : a16.IsWhole) (a17 : Memref sig .tc .vmem S1x64 .f32) (h17 : a17.IsWhole)
    (a18 : Memref sig .tc .vmem S1x64 .f32) (h18 : a18.IsWhole)
    (hc1 : ¬c1 i) (hc2 : ¬c2 i) (hc3 : c3 i) (hc4 : c4 i) (hc5 : ¬c5 i) (hc6 : ¬c6 i)
    (x8 : Vec F S64 .f32) (s14 : Vec F S50000x64 .f32) (s15 : Vec F S1x64 .f32)
    (E : Set ℕ) (K : PUnit → sProp 𝕄) :
    iprop(owns (c : Thread nD τ) a8 fullShare x8
        ∗ owns (c : Thread nD τ) a14 fullShare s14
        ∗ owns (c : Thread nD τ) a15 fullShare s15
        ∗ (∃ d, owns (c : Thread nD τ) a16 fullShare d)
        ∗ (∃ d, owns (c : Thread nD τ) a17 fullShare d)
        ∗ (iprop(owns (c : Thread nD τ) a8 fullShare x8
            ∗ owns (c : Thread nD τ) a14 fullShare s14
            ∗ owns (c : Thread nD τ) a15 fullShare s15
            ∗ owns (c : Thread nD τ) a17 fullShare (k1_pay5 s15 x8)
            ∗ owns (c : Thread nD τ) a16 fullShare (k1_pay7 (View.ld s14 (rect2 i hc4)) (k1_pay5 s15 x8) k1_pay6)) -∗ K ⟨⟩))
      ⊢ wp frame (wpE (defs₀ (F := F)) Variants.none c none) E
          (cc1__fused_kernel i a2 h2 a3 h3 a4 h4 a5 h5 a6 h6 a7 h7 a8 h8 a9 h9 a10 h10 a11 h11 a12 h12 a13 h13 a14 h14 a15 h15 a16 h16 a17 h17 a18 h18) K := by
  simp only [cc1__fused_kernel_eq_skeleton]; unfold cc1__fused_kernel_skel
  unfold owns
  iintro ⟨⟨%f8, %hf8, H8⟩, ⟨%f14, %hf14, H14⟩, ⟨%f15, %hf15, H15⟩, ⟨%d16, %f16, -, H16⟩, ⟨%d17, %f17, -, H17⟩, Hk⟩
  obtain rfl := h8.eq_unread hf8; obtain rfl := h14.eq_unread hf14; obtain rfl := h15.eq_unread hf15
  sl_exec (disch := first | exact hc1 | exact hc2 | exact hc3 | exact hc4 | exact hc5 | exact hc6)
  sl_step
  iapply Hk
  isplitl [H8]
  · iexists _; isplitr; · ipureintro; exact h8.read_unread _
    iexact H8
  isplitl [H14]
  · iexists _; isplitr; · ipureintro; exact h14.read_unread _
    iexact H14
  isplitl [H15]
  · iexists _; isplitr; · ipureintro; exact h15.read_unread _
    iexact H15
  isplitl [H17]
  · iexists _; isplitr
    swap; · iexact H17
    ipureintro
    (try sl_unfold_words)
    simp only [View.readCov_unit_zero (S := S1x64) _ z2, View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
      View.ld_unit_zero (S := S5000x64) z2, View.ld_unit_zero (S := S5000x1) z2, View.ld_unit_zero (S := S64x64) z2, View.ld_unit_zero (S := S64) z1, View.ld_unit_zero (S := S1x64) z2]
    exact read_writes_whole _ _ z2 _ _ _
  iexists _; isplitr
  swap; · iexact H16
  ipureintro
  (try sl_unfold_words)
  simp only [View.readCov_unit_zero (S := S1x64) _ z2, View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
    View.ld_unit_zero (S := S5000x64) z2, View.ld_unit_zero (S := S5000x1) z2, View.ld_unit_zero (S := S64x64) z2, View.ld_unit_zero (S := S64) z1, View.ld_unit_zero (S := S1x64) z2]
  exact read_writes_whole _ _ z2 _ _ _

end Cert.KernelIdeal.Fr

end
-- ==== Proof.Fr.RunD.lean ====
/-
  The second kernel's body at a later point of phase 1: the point's slice of the conv cache, centred by the shift,
  adds its squares' column sums to the running sum of squares.
-/
import proofs.«407117_j28578712387660_3_alg».proof.Proof.Fr.RunBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem runD (c : Dev nD) (i : grid1.Coords)
    (a2 : Memref sig .tc .vmem S5000x64 .f32) (h2 : a2.IsWhole) (a3 : Memref sig .tc .vmem S5000x1 .f32) (h3 : a3.IsWhole)
    (a4 : Memref sig .tc .vmem S5000x64 .f32) (h4 : a4.IsWhole) (a5 : Memref sig .tc .vmem S64x64 .f32) (h5 : a5.IsWhole)
    (a6 : Memref sig .tc .vmem S64 .f32) (h6 : a6.IsWhole) (a7 : Memref sig .tc .vmem S64x64 .f32) (h7 : a7.IsWhole)
    (a8 : Memref sig .tc .vmem S64 .f32) (h8 : a8.IsWhole) (a9 : Memref sig .tc .vmem S64 .f32) (h9 : a9.IsWhole)
    (a10 : Memref sig .tc .vmem S64 .f32) (h10 : a10.IsWhole) (a11 : Memref sig .tc .vmem S64x64 .f32) (h11 : a11.IsWhole)
    (a12 : Memref sig .tc .vmem S64 .f32) (h12 : a12.IsWhole) (a13 : Memref sig .tc .vmem S5000x64 .f32) (h13 : a13.IsWhole)
    (a14 : Memref sig .tc .vmem S50000x64 .f32) (h14 : a14.IsWhole) (a15 : Memref sig .tc .vmem S1x64 .f32) (h15 : a15.IsWhole)
    (a16 : Memref sig .tc .vmem S1x64 .f32) (h16 : a16.IsWhole) (a17 : Memref sig .tc .vmem S1x64 .f32) (h17 : a17.IsWhole)
    (a18 : Memref sig .tc .vmem S1x64 .f32) (h18 : a18.IsWhole)
    (hc1 : ¬c1 i) (hc2 : ¬c2 i) (hc3 : ¬c3 i) (hc4 : c4 i) (hc5 : ¬c5 i) (hc6 : ¬c6 i)
    (s14 : Vec F S50000x64 .f32) (s16 : Vec F S1x64 .f32) (s17 : Vec F S1x64 .f32)
    (E : Set ℕ) (K : PUnit → sProp 𝕄) :
    iprop(owns (c : Thread nD τ) a14 fullShare s14
        ∗ owns (c : Thread nD τ) a16 fullShare s16
        ∗ owns (c : Thread nD τ) a17 fullShare s17
        ∗ (iprop(owns (c : Thread nD τ) a14 fullShare s14
            ∗ owns (c : Thread nD τ) a17 fullShare s17
            ∗ owns (c : Thread nD τ) a16 fullShare (k1_pay7 (View.ld s14 (rect2 i hc4)) s17 s16)) -∗ K ⟨⟩))
      ⊢ wp frame (wpE (defs₀ (F := F)) Variants.none c none) E
          (cc1__fused_kernel i a2 h2 a3 h3 a4 h4 a5 h5 a6 h6 a7 h7 a8 h8 a9 h9 a10 h10 a11 h11 a12 h12 a13 h13 a14 h14 a15 h15 a16 h16 a17 h17 a18 h18) K := by
  simp only [cc1__fused_kernel_eq_skeleton]; unfold cc1__fused_kernel_skel
  unfold owns
  iintro ⟨⟨%f14, %hf14, H14⟩, ⟨%f16, %hf16, H16⟩, ⟨%f17, %hf17, H17⟩, Hk⟩
  obtain rfl := h14.eq_unread hf14; obtain rfl := h16.eq_unread hf16; obtain rfl := h17.eq_unread hf17
  sl_exec (disch := first | exact hc1 | exact hc2 | exact hc3 | exact hc4 | exact hc5 | exact hc6)
  sl_step
  iapply Hk
  isplitl [H14]
  · iexists _; isplitr; · ipureintro; exact h14.read_unread _
    iexact H14
  isplitl [H17]
  · iexists _; isplitr; · ipureintro; exact h17.read_unread _
    iexact H17
  iexists _; isplitr
  swap; · iexact H16
  ipureintro
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
    View.ld_unit_zero (S := S5000x64) z2, View.ld_unit_zero (S := S5000x1) z2, View.ld_unit_zero (S := S64x64) z2, View.ld_unit_zero (S := S64) z1, View.ld_unit_zero (S := S1x64) z2]
  exact read_writes_whole _ _ z2 _ _ _

end Cert.KernelIdeal.Fr

end
-- ==== Proof.Fr.RunE.lean ====
/-
  The second kernel's body at the first point of phase 2: 1 / sqrt(sumsq / 50000 + eps) is formed from the finished
  running sum of squares, and slice 0 of the conv cache is normalised, activated and projected into the output block.
-/
import proofs.«407117_j28578712387660_3_alg».proof.Proof.Fr.RunBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem runE (c : Dev nD) (i : grid1.Coords)
    (a2 : Memref sig .tc .vmem S5000x64 .f32) (h2 : a2.IsWhole) (a3 : Memref sig .tc .vmem S5000x1 .f32) (h3 : a3.IsWhole)
    (a4 : Memref sig .tc .vmem S5000x64 .f32) (h4 : a4.IsWhole) (a5 : Memref sig .tc .vmem S64x64 .f32) (h5 : a5.IsWhole)
    (a6 : Memref sig .tc .vmem S64 .f32) (h6 : a6.IsWhole) (a7 : Memref sig .tc .vmem S64x64 .f32) (h7 : a7.IsWhole)
    (a8 : Memref sig .tc .vmem S64 .f32) (h8 : a8.IsWhole) (a9 : Memref sig .tc .vmem S64 .f32) (h9 : a9.IsWhole)
    (a10 : Memref sig .tc .vmem S64 .f32) (h10 : a10.IsWhole) (a11 : Memref sig .tc .vmem S64x64 .f32) (h11 : a11.IsWhole)
    (a12 : Memref sig .tc .vmem S64 .f32) (h12 : a12.IsWhole) (a13 : Memref sig .tc .vmem S5000x64 .f32) (h13 : a13.IsWhole)
    (a14 : Memref sig .tc .vmem S50000x64 .f32) (h14 : a14.IsWhole) (a15 : Memref sig .tc .vmem S1x64 .f32) (h15 : a15.IsWhole)
    (a16 : Memref sig .tc .vmem S1x64 .f32) (h16 : a16.IsWhole) (a17 : Memref sig .tc .vmem S1x64 .f32) (h17 : a17.IsWhole)
    (a18 : Memref sig .tc .vmem S1x64 .f32) (h18 : a18.IsWhole)
    (hc1 : ¬c1 i) (hc2 : ¬c2 i) (hc3 : ¬c3 i) (hc4 : ¬c4 i) (hc5 : c5 i) (hc6 : c6 i)
    (x9 : Vec F S64 .f32) (x10 : Vec F S64 .f32) (x11 : Vec F S64x64 .f32) (x12 : Vec F S64 .f32) (s14 : Vec F S50000x64 .f32) (s16 : Vec F S1x64 .f32) (s17 : Vec F S1x64 .f32)
    (E : Set ℕ) (K : PUnit → sProp 𝕄) :
    iprop(owns (c : Thread nD τ) a9 fullShare x9
        ∗ owns (c : Thread nD τ) a10 fullShare x10
        ∗ owns (c : Thread nD τ) a11 fullShare x11
        ∗ owns (c : Thread nD τ) a12 fullShare x12
        ∗ owns (c : Thread nD τ) a14 fullShare s14
        ∗ owns (c : Thread nD τ) a16 fullShare s16
        ∗ owns (c : Thread nD τ) a17 fullShare s17
        ∗ (∃ d, owns (c : Thread nD τ) a13 fullShare d)
        ∗ (∃ d, owns (c : Thread nD τ) a18 fullShare d)
        ∗ (iprop(owns (c : Thread nD τ) a9 fullShare x9
            ∗ owns (c : Thread nD τ) a10 fullShare x10
            ∗ owns (c : Thread nD τ) a11 fullShare x11
            ∗ owns (c : Thread nD τ) a12 fullShare x12
            ∗ owns (c : Thread nD τ) a14 fullShare s14
            ∗ owns (c : Thread nD τ) a16 fullShare s16
            ∗ owns (c : Thread nD τ) a17 fullShare s17
            ∗ owns (c : Thread nD τ) a18 fullShare (k1_pay8 s16)
            ∗ owns (c : Thread nD τ) a13 fullShare (k1_pay9 (View.ld s14 (rect3 i hc6)) s17 (k1_pay8 s16) x9 x10 x11 x12)) -∗ K ⟨⟩))
      ⊢ wp frame (wpE (defs₀ (F := F)) Variants.none c none) E
          (cc1__fused_kernel i a2 h2 a3 h3 a4 h4 a5 h5 a6 h6 a7 h7 a8 h8 a9 h9 a10 h10 a11 h11 a12 h12 a13 h13 a14 h14 a15 h15 a16 h16 a17 h17 a18 h18) K := by
  simp only [cc1__fused_kernel_eq_skeleton]; unfold cc1__fused_kernel_skel
  unfold owns
  iintro ⟨⟨%f9, %hf9, H9⟩, ⟨%f10, %hf10, H10⟩, ⟨%f11, %hf11, H11⟩, ⟨%f12, %hf12, H12⟩, ⟨%f14, %hf14, H14⟩, ⟨%f16, %hf16, H16⟩, ⟨%f17, %hf17, H17⟩, ⟨%d13, %f13, -, H13⟩, ⟨%d18, %f18, -, H18⟩, Hk⟩
  obtain rfl := h9.eq_unread hf9; obtain rfl := h10.eq_unread hf10; obtain rfl := h11.eq_unread hf11; obtain rfl := h12.eq_unread hf12; obtain rfl := h14.eq_unread hf14; obtain rfl := h16.eq_unread hf16; obtain rfl := h17.eq_unread hf17
  sl_exec (disch := first | exact hc1 | exact hc2 | exact hc3 | exact hc4 | exact hc5 | exact hc6)
  sl_step
  iapply Hk
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; · ipureintro; exact h12.read_unread _
    iexact H12
  isplitl [H14]
  · iexists _; isplitr; · ipureintro; exact h14.read_unread _
    iexact H14
  isplitl [H16]
  · iexists _; isplitr; · ipureintro; exact h16.read_unread _
    iexact H16
  isplitl [H17]
  · iexists _; isplitr; · ipureintro; exact h17.read_unread _
    iexact H17
  isplitl [H18]
  · iexists _; isplitr
    swap; · iexact H18
    ipureintro
    (try sl_unfold_words)
    simp only [View.readCov_unit_zero (S := S1x64) _ z2, View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
      View.ld_unit_zero (S := S5000x64) z2, View.ld_unit_zero (S := S5000x1) z2, View.ld_unit_zero (S := S64x64) z2, View.ld_unit_zero (S := S64) z1, View.ld_unit_zero (S := S1x64) z2]
    exact read_writes_whole _ _ z2 _ _ _
  iexists _; isplitr
  swap; · iexact H13
  ipureintro
  (try sl_unfold_words)
  simp only [View.readCov_unit_zero (S := S1x64) _ z2, View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
    View.ld_unit_zero (S := S5000x64) z2, View.ld_unit_zero (S := S5000x1) z2, View.ld_unit_zero (S := S64x64) z2, View.ld_unit_zero (S := S64) z1, View.ld_unit_zero (S := S1x64) z2]
  exact read_writes_whole _ _ z2 _ _ _

end Cert.KernelIdeal.Fr

end
-- ==== Proof.Fr.RunF.lean ====
/-
  The second kernel's body at a later point of phase 2: the point's slice of the conv cache is normalised, activated
  and projected into the output block.
-/
import proofs.«407117_j28578712387660_3_alg».proof.Proof.Fr.RunBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
theorem runF (c : Dev nD) (i : grid1.Coords)
    (a2 : Memref sig .tc .vmem S5000x64 .f32) (h2 : a2.IsWhole) (a3 : Memref sig .tc .vmem S5000x1 .f32) (h3 : a3.IsWhole)
    (a4 : Memref sig .tc .vmem S5000x64 .f32) (h4 : a4.IsWhole) (a5 : Memref sig .tc .vmem S64x64 .f32) (h5 : a5.IsWhole)
    (a6 : Memref sig .tc .vmem S64 .f32) (h6 : a6.IsWhole) (a7 : Memref sig .tc .vmem S64x64 .f32) (h7 : a7.IsWhole)
    (a8 : Memref sig .tc .vmem S64 .f32) (h8 : a8.IsWhole) (a9 : Memref sig .tc .vmem S64 .f32) (h9 : a9.IsWhole)
    (a10 : Memref sig .tc .vmem S64 .f32) (h10 : a10.IsWhole) (a11 : Memref sig .tc .vmem S64x64 .f32) (h11 : a11.IsWhole)
    (a12 : Memref sig .tc .vmem S64 .f32) (h12 : a12.IsWhole) (a13 : Memref sig .tc .vmem S5000x64 .f32) (h13 : a13.IsWhole)
    (a14 : Memref sig .tc .vmem S50000x64 .f32) (h14 : a14.IsWhole) (a15 : Memref sig .tc .vmem S1x64 .f32) (h15 : a15.IsWhole)
    (a16 : Memref sig .tc .vmem S1x64 .f32) (h16 : a16.IsWhole) (a17 : Memref sig .tc .vmem S1x64 .f32) (h17 : a17.IsWhole)
    (a18 : Memref sig .tc .vmem S1x64 .f32) (h18 : a18.IsWhole)
    (hc1 : ¬c1 i) (hc2 : ¬c2 i) (hc3 : ¬c3 i) (hc4 : ¬c4 i) (hc5 : ¬c5 i) (hc6 : c6 i)
    (x9 : Vec F S64 .f32) (x10 : Vec F S64 .f32) (x11 : Vec F S64x64 .f32) (x12 : Vec F S64 .f32) (s14 : Vec F S50000x64 .f32) (s17 : Vec F S1x64 .f32) (s18 : Vec F S1x64 .f32)
    (E : Set ℕ) (K : PUnit → sProp 𝕄) :
    iprop(owns (c : Thread nD τ) a9 fullShare x9
        ∗ owns (c : Thread nD τ) a10 fullShare x10
        ∗ owns (c : Thread nD τ) a11 fullShare x11
        ∗ owns (c : Thread nD τ) a12 fullShare x12
        ∗ owns (c : Thread nD τ) a14 fullShare s14
        ∗ owns (c : Thread nD τ) a17 fullShare s17
        ∗ owns (c : Thread nD τ) a18 fullShare s18
        ∗ (∃ d, owns (c : Thread nD τ) a13 fullShare d)
        ∗ (iprop(owns (c : Thread nD τ) a9 fullShare x9
            ∗ owns (c : Thread nD τ) a10 fullShare x10
            ∗ owns (c : Thread nD τ) a11 fullShare x11
            ∗ owns (c : Thread nD τ) a12 fullShare x12
            ∗ owns (c : Thread nD τ) a14 fullShare s14
            ∗ owns (c : Thread nD τ) a17 fullShare s17
            ∗ owns (c : Thread nD τ) a18 fullShare s18
            ∗ owns (c : Thread nD τ) a13 fullShare (k1_pay9 (View.ld s14 (rect3 i hc6)) s17 s18 x9 x10 x11 x12)) -∗ K ⟨⟩))
      ⊢ wp frame (wpE (defs₀ (F := F)) Variants.none c none) E
          (cc1__fused_kernel i a2 h2 a3 h3 a4 h4 a5 h5 a6 h6 a7 h7 a8 h8 a9 h9 a10 h10 a11 h11 a12 h12 a13 h13 a14 h14 a15 h15 a16 h16 a17 h17 a18 h18) K := by
  simp only [cc1__fused_kernel_eq_skeleton]; unfold cc1__fused_kernel_skel
  unfold owns
  iintro ⟨⟨%f9, %hf9, H9⟩, ⟨%f10, %hf10, H10⟩, ⟨%f11, %hf11, H11⟩, ⟨%f12, %hf12, H12⟩, ⟨%f14, %hf14, H14⟩, ⟨%f17, %hf17, H17⟩, ⟨%f18, %hf18, H18⟩, ⟨%d13, %f13, -, H13⟩, Hk⟩
  obtain rfl := h9.eq_unread hf9; obtain rfl := h10.eq_unread hf10; obtain rfl := h11.eq_unread hf11; obtain rfl := h12.eq_unread hf12; obtain rfl := h14.eq_unread hf14; obtain rfl := h17.eq_unread hf17; obtain rfl := h18.eq_unread hf18
  sl_exec (disch := first | exact hc1 | exact hc2 | exact hc3 | exact hc4 | exact hc5 | exact hc6)
  sl_step
  iapply Hk
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; · ipureintro; exact h12.read_unread _
    iexact H12
  isplitl [H14]
  · iexists _; isplitr; · ipureintro; exact h14.read_unread _
    iexact H14
  isplitl [H17]
  · iexists _; isplitr; · ipureintro; exact h17.read_unread _
    iexact H17
  isplitl [H18]
  · iexists _; isplitr; · ipureintro; exact h18.read_unread _
    iexact H18
  iexists _; isplitr
  swap; · iexact H13
  ipureintro
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
    View.ld_unit_zero (S := S5000x64) z2, View.ld_unit_zero (S := S5000x1) z2, View.ld_unit_zero (S := S64x64) z2, View.ld_unit_zero (S := S64) z1, View.ld_unit_zero (S := S1x64) z2]
  exact read_writes_whole _ _ z2 _ _ _

end Cert.KernelIdeal.Fr

end
-- ==== Proof.Fr.Region1.lean ====
/-
  The second pipeline's body obligation (any float instance): at every point of the 3 × 10 grid the body, handed
  the invariant before the point and the windows' buffers at their blocks, runs to the invariant after the point
  and the windows' buffers as the proof data names them — by the six cases of the body's branches.
-/
import proofs.«407117_j28578712387660_3_alg».proof.Proof.Fr.Dat1
import proofs.«407117_j28578712387660_3_alg».proof.Proof.Fr.RunA
import proofs.«407117_j28578712387660_3_alg».proof.Proof.Fr.RunB
import proofs.«407117_j28578712387660_3_alg».proof.Proof.Fr.RunC
import proofs.«407117_j28578712387660_3_alg».proof.Proof.Fr.RunD
import proofs.«407117_j28578712387660_3_alg».proof.Proof.Fr.RunE
import proofs.«407117_j28578712387660_3_alg».proof.Proof.Fr.RunF

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Pure

variable (V : (c : Dev nD) → (b : Ref sig .tc) → Buf (Elt F) ((c : Thread nD τ).loc b))

/-! ## The payloads of the windows' blocks are the named quantities -/

theorem jOf_lt (t : Fin cfg1.N) (ht : t.val < 10) : jOf t = ⟨t.val, ht⟩ := Fin.ext (Nat.mod_eq_of_lt ht)
theorem jOf_sub (t : Fin cfg1.N) (k : Nat) (h1 : k ≤ t.val) (h2 : t.val - k < 10) (hk : k % 10 = 0) : jOf t = ⟨t.val - k, h2⟩ :=
  Fin.ext (by show t.val % 10 = t.val - k; omega)

theorem pay3_eq (c : Dev nD) (t : Fin cfg1.N) (ht : t.val < 10) :
    k1_pay3 (iblk1 V c 0 t) (iblk1 V c 1 t) (iblk1 V c 3 t) (iblk1 V c 4 t) (iblk1 V c 2 t) (iblk1 V c 5 t) = cv V c (jOf t) := by
  rw [iblk1_0 V c t ht, iblk1_1 V c t ht, iblk1_2 V c t ht, iblk1_3 V c t, iblk1_4 V c t, iblk1_5 V c t]; rfl

theorem pay4_eq (c : Dev nD) (t : Fin cfg1.N) (ht : t.val < 10) :
    k1_pay4 (iblk1 V c 0 t) (iblk1 V c 1 t) (iblk1 V c 3 t) (iblk1 V c 4 t) (iblk1 V c 2 t) (iblk1 V c 5 t) (sm V c t.val (Nat.le_of_lt ht))
      = sm V c (t.val + 1) ht := by
  rw [iblk1_0 V c t ht, iblk1_1 V c t ht, iblk1_2 V c t ht, iblk1_3 V c t, iblk1_4 V c t, iblk1_5 V c t, jOf_lt t ht]; rfl

theorem pay5_eq (c : Dev nD) (t : Fin cfg1.N) : k1_pay5 (sm V c 10 (Nat.le_refl _)) (iblk1 V c 6 t) = sh V c := by
  rw [iblk1_6 V c t]; rfl

theorem pay9_eq (c : Dev nD) (t : Fin cfg1.N) (j : Fin 10) :
    k1_pay9 (cv V c j) (sh V c) (iv V c) (iblk1 V c 7 t) (iblk1 V c 8 t) (iblk1 V c 9 t) (iblk1 V c 10 t) = ob V c j := by
  rw [iblk1_7 V c t, iblk1_8 V c t, iblk1_9 V c t, iblk1_10 V c t]; rfl

/-! ## The body's rectangles are the row-block slices -/

theorem ld_unit_congr {S : Shape} {e : EltTy} (X : S.Idx → Elt F e) {off off' size : Fin S.rank → Nat} (h : off = off')
    (inb : ∀ a, off a + size a ≤ S.size a) (inb' : ∀ a, off' a + size a ≤ S.size a) :
    (View.ld X (Rect.unit off size inb) : (⟨S.rank, size⟩ : Shape).Idx → Elt F e) = View.ld X (Rect.unit off' size inb') := by
  subst h; rfl
theorem set_unit_congr {S : Shape} {off off' size : Fin S.rank → Nat} (h : off = off')
    (inb : ∀ a, off a + size a ≤ S.size a) (inb' : ∀ a, off' a + size a ≤ S.size a) :
    (Rect.unit (s := S) off size inb).set = (Rect.unit off' size inb').set := by
  subst h; rfl

theorem ld_rect2 (t : Fin cfg1.N) (h : c4 (grid1.coords t)) (s : Vec F S50000x64 .f32) :
    (View.ld s (rect2 (grid1.coords t) h) : Vec F S5000x64 .f32) = View.ld s (rectJ (jOf t)) :=
  ld_unit_congr s (off2_eq t) _ _
theorem ld_rect3 (t : Fin cfg1.N) (h : c6 (grid1.coords t)) (s : Vec F S50000x64 .f32) :
    (View.ld s (rect3 (grid1.coords t) h) : Vec F S5000x64 .f32) = View.ld s (rectJ (jOf t)) :=
  ld_unit_congr s (off3_eq t) _ _

/-- What a phase-0 store leaves, restated at the row-block slice of the point. -/
theorem store_facts (t : Fin cfg1.N) (k2 : c2 (grid1.coords t)) (ht : t.val < 10) {s14 s14' : Vec F S50000x64 .f32} {P : Vec F S5000x64 .f32}
    (h14 : View.ld s14' (rect1 (grid1.coords t) k2) = P ∧ ∀ y, y ∉ (rect1 (grid1.coords t) k2).set → s14' y = s14 y) :
    View.ld s14' (rectJ ⟨t.val, ht⟩) = P ∧ ∀ y, y ∉ (rectJ ⟨t.val, ht⟩).set → s14' y = s14 y := by
  rw [← jOf_lt t ht]
  have e : (rect1 (grid1.coords t) k2).set = (rectJ (jOf t)).set := set_unit_congr (off1_eq t) _ _
  exact ⟨(ld_unit_congr s14' (off1_eq t) _ _).symm.trans h14.1, fun y hy => h14.2 y (by rw [e]; exact hy)⟩

/-! ## The output window is idle and not written back before phase 2, live in it -/

theorem noflush (t : Fin cfg1.N) (h : t.val < 20) : (cfg1.win 11).flush t = false :=
  Bool.eq_false_iff.mpr fun hf => absurd ((flush1_11 t).mp hf) (by omega)
theorem notidle (t : Fin cfg1.N) (h : 20 ≤ t.val) : cfg1.idle 11 (grid1.coords t) = false :=
  Bool.eq_false_iff.mpr fun hi => absurd ((idle1_11 t).mp hi) (by omega)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl, Phi_succ, Phi_castSucc]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [show (dat1 V c).leavesExact 3 t = owns (c : Thread nD τ) (st1_3 t) fullShare ((dat1 V c).after 3 t) from rfl, after1_3]
  rw [show (dat1 V c).leavesExact 4 t = owns (c : Thread nD τ) (st1_4 t) fullShare ((dat1 V c).after 4 t) from rfl, after1_4]
  rw [show (dat1 V c).leavesExact 5 t = owns (c : Thread nD τ) (st1_5 t) fullShare ((dat1 V c).after 5 t) from rfl, after1_5]
  rw [show (dat1 V c).leavesExact 6 t = owns (c : Thread nD τ) (st1_6 t) fullShare ((dat1 V c).after 6 t) from rfl, after1_6]
  rw [show (dat1 V c).leavesExact 7 t = owns (c : Thread nD τ) (st1_7 t) fullShare ((dat1 V c).after 7 t) from rfl, after1_7]
  rw [show (dat1 V c).leavesExact 8 t = owns (c : Thread nD τ) (st1_8 t) fullShare ((dat1 V c).after 8 t) from rfl, after1_8]
  rw [show (dat1 V c).leavesExact 9 t = owns (c : Thread nD τ) (st1_9 t) fullShare ((dat1 V c).after 9 t) from rfl, after1_9]
  rw [show (dat1 V c).leavesExact 10 t = owns (c : Thread nD τ) (st1_10 t) fullShare ((dat1 V c).after 10 t) from rfl, after1_10]
  have hN : t.val < 30 := lt_of_lt_of_eq t.isLt (show cfg1.N = 30 from N_1)
  unfold PhiS
  by_cases h0 : t.val = 0
  · -- the first point
    have k1 : c1 (grid1.coords t) := (hc1 t).mpr (by omega)
    have k2 : c2 (grid1.coords t) := (hc2 t).mpr (by omega)
    have k3 : ¬c3 (grid1.coords t) := fun h => by have := (hc3 t).mp h; omega
    have k4 : ¬c4 (grid1.coords t) := fun h => by have := (hc4 t).mp h; omega
    have k5 : ¬c5 (grid1.coords t) := fun h => by have := (hc5 t).mp h; omega
    have k6 : ¬c6 (grid1.coords t) := fun h => by have := (hc6 t).mp h; omega
    rw [Dat.leavesExact_idle (dat1 V c) 11 t ((idle1_11 t).mpr (by omega)) (noflush t (by omega))]
    iintro ⟨⟨%s14, %s15, %s16, %s17, %s18, %hI, HO, S0, S1, S2, S3, S4, Hg⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
    iapply (runA c (grid1.coords t) _ _ _ _ _ _ _ _ _ _ _ _ _ _ _ _ _ _ _ _ _ _ _ _ _ _ _ _ _ _ _ _ _ _ k1 k2 k3 k4 k5 k6 (iblk1 V c 0 t) (iblk1 V c 1 t) (iblk1 V c 2 t) (iblk1 V c 3 t) (iblk1 V c 4 t) (iblk1 V c 5 t) s14 Set.univ _)
    isplitl [W0]; · iexact W0
    isplitl [W1]; · iexact W1
    isplitl [W2]; · iexact W2
    isplitl [W3]; · iexact W3
    isplitl [W4]; · iexact W4
    isplitl [W5]; · iexact W5
    isplitl [S0]; · iexact S0
    isplitl [S1]; · iexists _; iexact S1
    iintro ⟨W0, W1, W2, W3, W4, W5, ⟨%s14', %h14, S0⟩, S1⟩
    isplitl [HO S0 S1 S2 S3 S4 Hg]
    · iexists s14', (k1_pay4 (iblk1 V c 0 t) (iblk1 V c 1 t) (iblk1 V c 3 t) (iblk1 V c 4 t) (iblk1 V c 2 t) (iblk1 V c 5 t) k1_pay1), s16, s17, s18; isplitr
      · ipureintro
        have ht : t.val < 10 := by omega
        refine Inv.step0 V c t.val ht hI ?_ ?_
        · have h14' := store_facts t k2 ht h14
          rw [pay3_eq V c t ht, jOf_lt t ht] at h14'; exact h14'
        · have e := pay4_eq V c t ht
          rw [← e]; congr 1
          exact (sm_zero V c).symm.trans (sm_congr V c h0.symm _ _)
      isplitl [HO]; · iexact HO
      isplitl [S0]; · iexact S0
      isplitl [S1]; · iexact S1
      isplitl [S2]; · iexact S2
      isplitl [S3]; · iexact S3
      isplitl [S4]; · iexact S4
      iexact Hg
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexists _; iexact W11
  by_cases h10 : t.val < 10
  · -- a later point of phase 0
    have k1 : ¬c1 (grid1.coords t) := fun h => by have := (hc1 t).mp h; omega
    have k2 : c2 (grid1.coords t) := (hc2 t).mpr (by omega)
    have k3 : ¬c3 (grid1.coords t) := fun h => by have := (hc3 t).mp h; omega
    have k4 : ¬c4 (grid1.coords t) := fun h => by have := (hc4 t).mp h; omega
    have k5 : ¬c5 (grid1.coords t) := fun h => by have := (hc5 t).mp h; omega
    have k6 : ¬c6 (grid1.coords t) := fun h => by have := (hc6 t).mp h; omega
    rw [Dat.leavesExact_idle (dat1 V c) 11 t ((idle1_11 t).mpr (by omega)) (noflush t (by omega))]
    iintro ⟨⟨%s14, %s15, %s16, %s17, %s18, %hI, HO, S0, S1, S2, S3, S4, Hg⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
    iapply (runB c (grid1.coords t) _ _ _ _ _ _ _ _ _ _ _ _ _ _ _ _ _ _ _ _ _ _ _ _ _ _ _ _ _ _ _ _ _ _ k1 k2 k3 k4 k5 k6 (iblk1 V c 0 t) (iblk1 V c 1 t) (iblk1 V c 2 t) (iblk1 V c 3 t) (iblk1 V c 4 t) (iblk1 V c 5 t) s14 s15 Set.univ _)
    isplitl [W0]; · iexact W0
    isplitl [W1]; · iexact W1
    isplitl [W2]; · iexact W2
    isplitl [W3]; · iexact W3
    isplitl [W4]; · iexact W4
    isplitl [W5]; · iexact W5
    isplitl [S0]; · iexact S0
    isplitl [S1]; · iexact S1
    iintro ⟨W0, W1, W2, W3, W4, W5, ⟨%s14', %h14, S0⟩, S1⟩
    isplitl [HO S0 S1 S2 S3 S4 Hg]
    · iexists s14', (k1_pay4 (iblk1 V c 0 t) (iblk1 V c 1 t) (iblk1 V c 3 t) (iblk1 V c 4 t) (iblk1 V c 2 t) (iblk1 V c 5 t) s15), s16, s17, s18; isplitr
      · ipureintro
        refine Inv.step0 V c t.val h10 hI ?_ ?_
        · have h14' := store_facts t k2 h10 h14
          rw [pay3_eq V c t h10, jOf_lt t h10] at h14'; exact h14'
        · have e := pay4_eq V c t h10
          rw [← e]; congr 1
          exact (hI.sum (by omega)).trans (sm_congr V c (by omega) _ _)
      isplitl [HO]; · iexact HO
      isplitl [S0]; · iexact S0
      isplitl [S1]; · iexact S1
      isplitl [S2]; · iexact S2
      isplitl [S3]; · iexact S3
      isplitl [S4]; · iexact S4
      iexact Hg
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexists _; iexact W11
  by_cases h10' : t.val = 10
  · -- the first point of phase 1
    have k1 : ¬c1 (grid1.coords t) := fun h => by have := (hc1 t).mp h; omega
    have k2 : ¬c2 (grid1.coords t) := fun h => by have := (hc2 t).mp h; omega
    have k3 : c3 (grid1.coords t) := (hc3 t).mpr (by omega)
    have k4 : c4 (grid1.coords t) := (hc4 t).mpr (by omega)
    have k5 : ¬c5 (grid1.coords t) := fun h => by have := (hc5 t).mp h; omega
    have k6 : ¬c6 (grid1.coords t) := fun h => by have := (hc6 t).mp h; omega
    rw [Dat.leavesExact_idle (dat1 V c) 11 t ((idle1_11 t).mpr (by omega)) (noflush t (by omega))]
    iintro ⟨⟨%s14, %s15, %s16, %s17, %s18, %hI, HO, S0, S1, S2, S3, S4, Hg⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
    iapply (runC c (grid1.coords t) _ _ _ _ _ _ _ _ _ _ _ _ _ _ _ _ _ _ _ _ _ _ _ _ _ _ _ _ _ _ _ _ _ _ k1 k2 k3 k4 k5 k6 (iblk1 V c 6 t) s14 s15 Set.univ _)
    isplitl [W6]; · iexact W6
    isplitl [S0]; · iexact S0
    isplitl [S1]; · iexact S1
    isplitl [S2]; · iexists _; iexact S2
    isplitl [S3]; · iexists _; iexact S3
    iintro ⟨W6, S0, S1, S3, S2⟩
    isplitl [HO S0 S1 S2 S3 S4 Hg]
    · iexists s14, s15, (k1_pay7 (View.ld s14 (rect2 (grid1.coords t) k4)) (k1_pay5 s15 (iblk1 V c 6 t)) k1_pay6), (k1_pay5 s15 (iblk1 V c 6 t)), s18; isplitr
      · ipureintro
        have e15 : s15 = sm V c 10 (Nat.le_refl _) := (hI.sum (by omega)).trans (sm_congr V c (by omega) _ _)
        have hI' : Inv V c 10 s14 s15 s16 s17 s18 := by rw [← h10']; exact hI
        rw [show t.val + 1 = 11 by omega]
        refine Inv.step10 V c hI' ?_ ?_
        · rw [e15]; exact pay5_eq V c t
        · rw [e15, pay5_eq V c t, ld_rect2 t k4 s14, hI.conv (jOf t) (by show t.val % 10 < t.val; omega)]
          have hj : jOf t = ⟨0, by omega⟩ := Fin.ext (by show t.val % 10 = 0; omega)
          rw [hj]; rfl
      isplitl [HO]; · iexact HO
      isplitl [S0]; · iexact S0
      isplitl [S1]; · iexact S1
      isplitl [S2]; · iexact S2
      isplitl [S3]; · iexact S3
      isplitl [S4]; · iexact S4
      iexact Hg
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexists _; iexact W11
  by_cases h20 : t.val < 20
  · -- a later point of phase 1
    have k1 : ¬c1 (grid1.coords t) := fun h => by have := (hc1 t).mp h; omega
    have k2 : ¬c2 (grid1.coords t) := fun h => by have := (hc2 t).mp h; omega
    have k3 : ¬c3 (grid1.coords t) := fun h => by have := (hc3 t).mp h; omega
    have k4 : c4 (grid1.coords t) := (hc4 t).mpr (by omega)
    have k5 : ¬c5 (grid1.coords t) := fun h => by have := (hc5 t).mp h; omega
    have k6 : ¬c6 (grid1.coords t) := fun h => by have := (hc6 t).mp h; omega
    rw [Dat.leavesExact_idle (dat1 V c) 11 t ((idle1_11 t).mpr (by omega)) (noflush t (by omega))]
    iintro ⟨⟨%s14, %s15, %s16, %s17, %s18, %hI, HO, S0, S1, S2, S3, S4, Hg⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
    iapply (runD c (grid1.coords t) _ _ _ _ _ _ _ _ _ _ _ _ _ _ _ _ _ _ _ _ _ _ _ _ _ _ _ _ _ _ _ _ _ _ k1 k2 k3 k4 k5 k6 s14 s16 s17 Set.univ _)
    isplitl [S0]; · iexact S0
    isplitl [S2]; · iexact S2
    isplitl [S3]; · iexact S3
    iintro ⟨S0, S3, S2⟩
    isplitl [HO S0 S1 S2 S3 S4 Hg]
    · iexists s14, s15, (k1_pay7 (View.ld s14 (rect2 (grid1.coords t) k4)) s17 s16), s17, s18; isplitr
      · ipureintro
        refine Inv.step1 V c t.val (by omega) h20 hI ?_
        rw [ld_rect2 t k4 s14, hI.conv (jOf t) (by show t.val % 10 < t.val; omega), hI.shift (by omega), hI.sqs (by omega),
          sq_succ V c (t.val - 10) (by omega), jOf_sub t 10 (by omega) (by omega) rfl,
          sq_congr V c (show min (t.val - 10) 10 = t.val - 10 by omega) _ (by omega)]
      isplitl [HO]; · iexact HO
      isplitl [S0]; · iexact S0
      isplitl [S1]; · iexact S1
      isplitl [S2]; · iexact S2
      isplitl [S3]; · iexact S3
      isplitl [S4]; · iexact S4
      iexact Hg
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexists _; iexact W11
  by_cases h20' : t.val = 20
  · -- the first point of phase 2
    have k1 : ¬c1 (grid1.coords t) := fun h => by have := (hc1 t).mp h; omega
    have k2 : ¬c2 (grid1.coords t) := fun h => by have := (hc2 t).mp h; omega
    have k3 : ¬c3 (grid1.coords t) := fun h => by have := (hc3 t).mp h; omega
    have k4 : ¬c4 (grid1.coords t) := fun h => by have := (hc4 t).mp h; omega
    have k5 : c5 (grid1.coords t) := (hc5 t).mpr (by omega)
    have k6 : c6 (grid1.coords t) := (hc6 t).mpr (by omega)
    rw [show (dat1 V c).leavesExact 11 t = owns (c : Thread nD τ) (st1_11 t) fullShare ((dat1 V c).after 11 t) from by
      unfold Dat.leavesExact; rw [notidle t (by omega)], after1_11]
    iintro ⟨⟨%s14, %s15, %s16, %s17, %s18, %hI, HO, S0, S1, S2, S3, S4, Hg⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
    iapply (runE c (grid1.coords t) _ _ _ _ _ _ _ _ _ _ _ _ _ _ _ _ _ _ _ _ _ _ _ _ _ _ _ _ _ _ _ _ _ _ k1 k2 k3 k4 k5 k6 (iblk1 V c 7 t) (iblk1 V c 8 t) (iblk1 V c 9 t) (iblk1 V c 10 t) s14 s16 s17 Set.univ _)
    isplitl [W7]; · iexact W7
    isplitl [W8]; · iexact W8
    isplitl [W9]; · iexact W9
    isplitl [W10]; · iexact W10
    isplitl [S0]; · iexact S0
    isplitl [S2]; · iexact S2
    isplitl [S3]; · iexact S3
    isplitl [W11]; · iexists _; iexact W11
    isplitl [S4]; · iexists _; iexact S4
    iintro ⟨W7, W8, W9, W10, S0, S2, S3, S4, W11⟩
    have e18 : k1_pay8 s16 = iv V c := by
      rw [hI.sqs (by omega), iv_def V c, sq_congr V c (show min (t.val - 10) 10 = 10 by omega) _ (Nat.le_refl _)]
    have e13 : k1_pay9 (View.ld s14 (rect3 (grid1.coords t) k6)) s17 (k1_pay8 s16) (iblk1 V c 7 t) (iblk1 V c 8 t) (iblk1 V c 9 t) (iblk1 V c 10 t) = ob V c (jOf t) := by
      rw [e18, ld_rect3 t k6 s14, hI.conv (jOf t) (by show t.val % 10 < t.val; omega), hI.shift (by omega)]; exact pay9_eq V c t (jOf t)
    rw [e13]
    isplitl [HO S0 S1 S2 S3 S4 Hg]
    · iexists s14, s15, s16, s17, (k1_pay8 s16); isplitr
      · ipureintro
        have hI' : Inv V c 20 s14 s15 s16 s17 s18 := by rw [← h20']; exact hI
        rw [show t.val + 1 = 21 by omega]
        exact Inv.step20 V c hI' e18
      isplitl [HO]; · iexact HO
      isplitl [S0]; · iexact S0
      isplitl [S1]; · iexact S1
      isplitl [S2]; · iexact S2
      isplitl [S3]; · iexact S3
      isplitl [S4]; · iexact S4
      iexact Hg
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexact W11
  · -- a later point of phase 2
    have k1 : ¬c1 (grid1.coords t) := fun h => by have := (hc1 t).mp h; omega
    have k2 : ¬c2 (grid1.coords t) := fun h => by have := (hc2 t).mp h; omega
    have k3 : ¬c3 (grid1.coords t) := fun h => by have := (hc3 t).mp h; omega
    have k4 : ¬c4 (grid1.coords t) := fun h => by have := (hc4 t).mp h; omega
    have k5 : ¬c5 (grid1.coords t) := fun h => by have := (hc5 t).mp h; omega
    have k6 : c6 (grid1.coords t) := (hc6 t).mpr (by omega)
    rw [show (dat1 V c).leavesExact 11 t = owns (c : Thread nD τ) (st1_11 t) fullShare ((dat1 V c).after 11 t) from by
      unfold Dat.leavesExact; rw [notidle t (by omega)], after1_11]
    iintro ⟨⟨%s14, %s15, %s16, %s17, %s18, %hI, HO, S0, S1, S2, S3, S4, Hg⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
    iapply (runF c (grid1.coords t) _ _ _ _ _ _ _ _ _ _ _ _ _ _ _ _ _ _ _ _ _ _ _ _ _ _ _ _ _ _ _ _ _ _ k1 k2 k3 k4 k5 k6 (iblk1 V c 7 t) (iblk1 V c 8 t) (iblk1 V c 9 t) (iblk1 V c 10 t) s14 s17 s18 Set.univ _)
    isplitl [W7]; · iexact W7
    isplitl [W8]; · iexact W8
    isplitl [W9]; · iexact W9
    isplitl [W10]; · iexact W10
    isplitl [S0]; · iexact S0
    isplitl [S3]; · iexact S3
    isplitl [S4]; · iexact S4
    isplitl [W11]; · iexists _; iexact W11
    iintro ⟨W7, W8, W9, W10, S0, S3, S4, W11⟩
    have e13 : k1_pay9 (View.ld s14 (rect3 (grid1.coords t) k6)) s17 s18 (iblk1 V c 7 t) (iblk1 V c 8 t) (iblk1 V c 9 t) (iblk1 V c 10 t) = ob V c (jOf t) := by
      rw [ld_rect3 t k6 s14, hI.conv (jOf t) (by show t.val % 10 < t.val; omega), hI.shift (by omega), hI.inv (by omega)]; exact pay9_eq V c t (jOf t)
    rw [e13]
    isplitl [HO S0 S1 S2 S3 S4 Hg]
    · iexists s14, s15, s16, s17, s18; isplitr
      · ipureintro
        exact Inv.step2 V c t.val (by omega) hI
      isplitl [HO]; · iexact HO
      isplitl [S0]; · iexact S0
      isplitl [S1]; · iexact S1
      isplitl [S2]; · iexact S2
      isplitl [S3]; · iexact S3
      isplitl [S4]; · iexact S4
      iexact Hg
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexact W11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the two ends -/

/-- What the region is handed — the generator register and the scoped buffers it does not stage, at anything — is the
    invariant before the first point. -/
theorem PhiS_intro (c : Dev nD) :
    iprop((∃ r, prngReg c r) ∗ Pipeline.scopedRest (Ix := Unit) (Name := ℕ) (U := UR sig nD τ) (Lvl := ℕ) (Val := Elt F) spec1 c) ⊢ (PhiS V c 0 : sProp 𝕄) := by
  unfold PhiS others; rw [scopedRest1_eq]
  simp only [scM0, scM1, scM2, scM3, scM4, owns_whole]
  iintro ⟨Hp, A1, A2, A3, A4, A5, A6, ⟨%f0, S0⟩, ⟨%f1, S1⟩, ⟨%f2, S2⟩, ⟨%f3, S3⟩, ⟨%f4, S4⟩⟩
  iexists f0, f1, f2, f3, f4
  isplitr; · ipureintro; exact Inv.zero V c _ _ _ _ _
  isplitl [A1 A2 A3 A4 A5 A6]
  · isplitl [A1]; · iexact A1
    isplitl [A2]; · iexact A2
    isplitl [A3]; · iexact A3
    isplitl [A4]; · iexact A4
    isplitl [A5]; · iexact A5
    iexact A6
  isplitl [S0]; · iexact S0
  isplitl [S1]; · iexact S1
  isplitl [S2]; · iexact S2
  isplitl [S3]; · iexact S3
  isplitl [S4]; · iexact S4
  iexact Hp

/-- The invariant after any point gives them back, the scratch contents forgotten. -/
theorem PhiS_elim (c : Dev nD) (n : Nat) :
    (PhiS V c n : sProp 𝕄) ⊢ iprop((∃ r, prngReg c r) ∗ Pipeline.scopedRest (Ix := Unit) (Name := ℕ) (U := UR sig nD τ) (Lvl := ℕ) (Val := Elt F) spec1 c) := by
  unfold PhiS others; rw [scopedRest1_eq]
  simp only [scM0, scM1, scM2, scM3, scM4, owns_whole]
  iintro ⟨%s14, %s15, %s16, %s17, %s18, -, ⟨A1, A2, A3, A4, A5, A6⟩, S0, S1, S2, S3, S4, Hp⟩
  isplitl [Hp]; · iexact Hp
  isplitl [A1]; · iexact A1
  isplitl [A2]; · iexact A2
  isplitl [A3]; · iexact A3
  isplitl [A4]; · iexact A4
  isplitl [A5]; · iexact A5
  isplitl [A6]; · iexact A6
  isplitl [S0]; · iexists _; iexact S0
  isplitl [S1]; · iexists _; iexact S1
  isplitl [S2]; · iexists _; iexact S2
  isplitl [S3]; · iexists _; iexact S3
  iexists _; iexact S4

end Cert.KernelIdeal.Fr

end
-- ==== Proof.Fr.Run.lean ====
/-
  The launch (any float instance): @main as its four segments — the transposes, the first pipeline, the host
  operations between, the second pipeline — over the thread state "every unscoped buffer at the boundary's
  contents, the generator register at some state, nothing owed". Every weakly fair execution terminates, and the
  final memory holds every unscoped buffer at the last boundary's contents.
-/
import proofs.«407117_j28578712387660_3_alg».proof.Proof.Fr.Chain
import proofs.«407117_j28578712387660_3_alg».proof.Proof.Fr.Region1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W4 m c) ∗ ∃ r, prngReg c r)

set_option backward.isDefEq.respectTransparency.types false in
/-- The first pipeline over the thread state: entered from every unscoped buffer at the boundary's contents,
    left at the next boundary's. Its arrays are split out of the unscoped buffers and put back at the exit
    contents; the generator register goes into the invariant and comes out; nothing is owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pipeline over the thread state: entered from every unscoped buffer at the boundary's contents,
    left at the next boundary's. Its arrays are split out of the unscoped buffers and put back at the exit
    contents; the generator register goes into the invariant and comes out; nothing is owed; no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS (V3 m) c 0 from rfl]
    iintro ⟨Hp, -, Hr⟩
    iapply (PhiS_intro (V3 m) c)
    isplitl [Hp]; · iexact Hp
    iexact Hr
  hout c := by
    rw [Pipeline.ownSems0_none, show (pdats m 1 c).Φ (Fin.last _) = PhiS (V3 m) c (Fin.last cfg1.N).val from rfl]
    iintro H
    ihave H' := (PhiS_elim (V3 m) c _) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    the final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Fr

end
-- ==== Proof.Fr.ArgsKept.lean ====
/-
  No boundary of @main changes an argument array (any float instance): no host operation writes one, and each
  pipeline only reads the ones it stages.
-/
import proofs.«407117_j28578712387660_3_alg».proof.Proof.Fr.Chain

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) :=
        (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) :=
        (W2_arr m c 2).trans (((dat0 (V1 m) c).arrAt_in 2 rfl _).trans (A_eq0 (V1 m) c 2))
    _ = W0 m c (Proc.devRef .tc main_arg3) := W1_of m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) :=
        (W4_arr m c 4).trans (((dat1 (V3 m) c).arrAt_in 4 rfl _).trans (A_eq1 (V3 m) c 4))
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) :=
        (W4_arr m c 7).trans (((dat1 (V3 m) c).arrAt_in 7 rfl _).trans (A_eq1 (V3 m) c 7))
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) :=
        (W4_arr m c 8).trans (((dat1 (V3 m) c).arrAt_in 8 rfl _).trans (A_eq1 (V3 m) c 8))
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) :=
        (W4_arr m c 6).trans (((dat1 (V3 m) c).arrAt_in 6 rfl _).trans (A_eq1 (V3 m) c 6))
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl
theorem W4_main_arg10 (c : Dev nD) : W4 m c (Proc.devRef .tc main_arg10) = m ((c : Thread nD τ).loc main_arg10) :=
  calc W4 m c (Proc.devRef .tc main_arg10)
    _ = W3 m c (Proc.devRef .tc main_arg10) := W4_of_ne m c main_arg10 (by decide)
    _ = W2 m c (Proc.devRef .tc main_arg10) := W3_of m c main_arg10 (by decide)
    _ = W1 m c (Proc.devRef .tc main_arg10) := W2_of_ne m c main_arg10 (by decide)
    _ = W0 m c (Proc.devRef .tc main_arg10) := W1_of m c main_arg10 (by decide)
    _ = m ((c : Thread nD τ).loc main_arg10) := rfl
theorem W4_main_arg11 (c : Dev nD) : W4 m c (Proc.devRef .tc main_arg11) = m ((c : Thread nD τ).loc main_arg11) :=
  calc W4 m c (Proc.devRef .tc main_arg11)
    _ = W3 m c (Proc.devRef .tc main_arg11) :=
        (W4_arr m c 10).trans (((dat1 (V3 m) c).arrAt_in 10 rfl _).trans (A_eq1 (V3 m) c 10))
    _ = W2 m c (Proc.devRef .tc main_arg11) := W3_of m c main_arg11 (by decide)
    _ = W1 m c (Proc.devRef .tc main_arg11) := W2_of_ne m c main_arg11 (by decide)
    _ = W0 m c (Proc.devRef .tc main_arg11) := W1_of m c main_arg11 (by decide)
    _ = m ((c : Thread nD τ).loc main_arg11) := rfl

end Cert.KernelIdeal.Fr

end
-- ==== Proof.Fr.Arrays.lean ====
/-
  What the two pipelines leave in their output arrays (any float instance): every row block is written back by
  exactly the points that computed it, so the first array ends as the assembly of the ten blocks x_t · W + b, and the
  second as the assembly of the ten output blocks of phase 2.
-/
import proofs.«407117_j28578712387660_3_alg».proof.Proof.Fr.Region0
import proofs.«407117_j28578712387660_3_alg».proof.Proof.Fr.Dat1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Pure

variable (V : (c : Dev nD) → (b : Ref sig .tc) → Buf (Elt F) ((c : Thread nD τ).loc b))

/-- The first pipeline's output array after its ten points. -/
theorem arrAt0_3 (c : Dev nD) :
    ((dat0 V c).arrAt 3 cfg0.N : Vec F S50000x64 .f32)
      = hArr (V c main_arg0 : Vec F S50000x128 .f32) (V c main_v0 : Vec F S128x64 .f32) (V c main_arg3 : Vec F S64 .f32) := by
  unfold hArr
  refine (dat0 V c).arrAt_eq_of_cover 3
    (asm fun j => k0_pay1 (blk (V c main_arg0 : Vec F S50000x128 .f32) j) (V c main_v0 : Vec F S128x64 .f32) (V c main_arg3 : Vec F S64 .f32))
    (fun t _ => ?_) (cover0_3 c)
  show (dat0 V c).after 3 t = _
  rw [after0_3, iblk0_0, iblk0_1, iblk0_2]
  exact (read_blk0_3 (F := F) c t
    (fun j => k0_pay1 (blk (V c main_arg0 : Vec F S50000x128 .f32) j) (V c main_v0 : Vec F S128x64 .f32) (V c main_arg3 : Vec F S64 .f32))).symm

/-- The second pipeline's output array after its thirty points. -/
theorem arrAt1_11 (c : Dev nD) :
    ((dat1 V c).arrAt 11 cfg1.N : Vec F S50000x64 .f32)
      = outArr (AGG V c) (CNT V c) (HH V c) (WL V c) (BL V c) (WR V c) (GMS V c) (GW V c) (GB V c) (WO V c) (BO V c) := by
  unfold outArr
  refine (dat1 V c).arrAt_eq_of_cover 11
    (asm fun j => outBlk (AGG V c) (CNT V c) (HH V c) (WL V c) (BL V c) (WR V c) (GMS V c) (GW V c) (GB V c) (WO V c) (BO V c) j)
    (fun t hf => ?_) (cover1_11 c)
  have ht : 20 ≤ t.val := (flush1_11 t).mp hf
  show (dat1 V c).after 11 t = _
  rw [after1_11]
  exact (read_blk1_11 (F := F) c t ht
    (fun j => outBlk (AGG V c) (CNT V c) (HH V c) (WL V c) (BL V c) (WR V c) (GMS V c) (GW V c) (GB V c) (WO V c) (BO V c) j)).symm

end Cert.KernelIdeal.Fr

end
-- ==== Proof.Fr.HostVals.lean ====
/-
  What the host operations leave in the buffers the pipelines read (any float instance): the four transposed
  weights; the neighbour sums and counts of the first pipeline's result along the edge list; and every argument and
  earlier result a pipeline reads, unchanged by the stretch before it.
-/
import proofs.«407117_j28578712387660_3_alg».proof.Proof.Fr.Chain

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Pure

variable (m : (ℓ : Loc nD τ sig) → Buf (Elt F) ℓ)

/-! ## At the first pipeline's entry -/

theorem V1_main_arg0 (c : Dev nD) : V1 m c main_arg0 = m ((c : Thread nD τ).loc main_arg0) := by
  exact W1_of m c main_arg0 (by decide)
theorem V1_main_arg3 (c : Dev nD) : V1 m c main_arg3 = m ((c : Thread nD τ).loc main_arg3) := by
  exact W1_of m c main_arg3 (by decide)
theorem V1_main_v0 (c : Dev nD) :
    (V1 m c main_v0 : Vec F S128x64 .f32) = transpose S128x64 [1, 0] (m ((c : Thread nD τ).loc main_arg2) : Vec F S64x128 .f32) transposes_S64x128_S128x64_1_0 := by
  show StableHlo.after hostOps0 (W0 m c) (Proc.devRef .tc main_v0) = _
  after_results

/-! ## At the second pipeline's entry -/

theorem V3_main_v4 (c : Dev nD) : V3 m c main_v4 = V2 m c main_v4 := by
  exact W3_of m c main_v4 (by decide)
theorem V3_main_v18 (c : Dev nD) :
    (V3 m c main_v18 : Vec F S50000x64 .f32) = aggOf (V2 m c main_v4 : Vec F S50000x64 .f32) (m ((c : Thread nD τ).loc main_arg1) : Vec F S2x1000000 .i32) := by
  show StableHlo.after hostOps1 (W2 m c) (Proc.devRef .tc main_v18) = _
  after_results
  rw [W2_of_ne m c main_arg1 (by decide), W1_of m c main_arg1 (by decide)]
  rfl
theorem V3_main_v23 (c : Dev nD) :
    (V3 m c main_v23 : Vec F S50000x1 .f32) = cntOf (m ((c : Thread nD τ).loc main_arg1) : Vec F S2x1000000 .i32) := by
  show StableHlo.after hostOps1 (W2 m c) (Proc.devRef .tc main_v23) = _
  after_results
  rw [W2_of_ne m c main_arg1 (by decide), W1_of m c main_arg1 (by decide)]
  rfl
theorem V3_main_v1 (c : Dev nD) :
    (V3 m c main_v1 : Vec F S64x64 .f32) = transpose S64x64 [1, 0] (m ((c : Thread nD τ).loc main_arg4) : Vec F S64x64 .f32) transposes_S64x64_S64x64_1_0 := by
  show W3 m c (Proc.devRef .tc main_v1) = _
  rw [W3_of m c main_v1 (by decide), W2_of_ne m c main_v1 (by decide)]
  show StableHlo.after hostOps0 (W0 m c) (Proc.devRef .tc main_v1) = _
  after_results
theorem V3_main_v2 (c : Dev nD) :
    (V3 m c main_v2 : Vec F S64x64 .f32) = transpose S64x64 [1, 0] (m ((c : Thread nD τ).loc main_arg6) : Vec F S64x64 .f32) transposes_S64x64_S64x64_1_0 := by
  show W3 m c (Proc.devRef .tc main_v2) = _
  rw [W3_of m c main_v2 (by decide), W2_of_ne m c main_v2 (by decide)]
  show StableHlo.after hostOps0 (W0 m c) (Proc.devRef .tc main_v2) = _
  after_results
theorem V3_main_v3 (c : Dev nD) :
    (V3 m c main_v3 : Vec F S64x64 .f32) = transpose S64x64 [1, 0] (m ((c : Thread nD τ).loc main_arg10) : Vec F S64x64 .f32) transposes_S64x64_S64x64_1_0 := by
  show W3 m c (Proc.devRef .tc main_v3) = _
  rw [W3_of m c main_v3 (by decide), W2_of_ne m c main_v3 (by decide)]
  show StableHlo.after hostOps0 (W0 m c) (Proc.devRef .tc main_v3) = _
  after_results
theorem V3_main_arg5 (c : Dev nD) : V3 m c main_arg5 = m ((c : Thread nD τ).loc main_arg5) := by
  show W3 m c (Proc.devRef .tc main_arg5) = _
  rw [W3_of m c main_arg5 (by decide), W2_of_ne m c main_arg5 (by decide)]
  exact W1_of m c main_arg5 (by decide)
theorem V3_main_arg9 (c : Dev nD) : V3 m c main_arg9 = m ((c : Thread nD τ).loc main_arg9) := by
  show W3 m c (Proc.devRef .tc main_arg9) = _
  rw [W3_of m c main_arg9 (by decide), W2_of_ne m c main_arg9 (by decide)]
  exact W1_of m c main_arg9 (by decide)
theorem V3_main_arg7 (c : Dev nD) : V3 m c main_arg7 = m ((c : Thread nD τ).loc main_arg7) := by
  show W3 m c (Proc.devRef .tc main_arg7) = _
  rw [W3_of m c main_arg7 (by decide), W2_of_ne m c main_arg7 (by decide)]
  exact W1_of m c main_arg7 (by decide)
theorem V3_main_arg8 (c : Dev nD) : V3 m c main_arg8 = m ((c : Thread nD τ).loc main_arg8) := by
  show W3 m c (Proc.devRef .tc main_arg8) = _
  rw [W3_of m c main_arg8 (by decide), W2_of_ne m c main_arg8 (by decide)]
  exact W1_of m c main_arg8 (by decide)
theorem V3_main_arg11 (c : Dev nD) : V3 m c main_arg11 = m ((c : Thread nD τ).loc main_arg11) := by
  show W3 m c (Proc.devRef .tc main_arg11) = _
  rw [W3_of m c main_arg11 (by decide), W2_of_ne m c main_arg11 (by decide)]
  exact W1_of m c main_arg11 (by decide)

end Cert.KernelIdeal.Fr

end
-- ==== Proof.Fr.Result.lean ====
/-
  The program's result buffer at the end of the run is the pure function of the twelve argument arrays (any float
  instance): the second pipeline's output array, over the neighbour sums and counts of the first pipeline's output
  array and the transposed weights.
-/
import proofs.«407117_j28578712387660_3_alg».proof.Proof.Fr.Arrays
import proofs.«407117_j28578712387660_3_alg».proof.Proof.Fr.HostVals

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Pure

variable (m : (ℓ : Loc nD τ sig) → Buf (Elt F) ℓ)

/-- The first pipeline's result array as the second pipeline finds it. -/
theorem V2_main_v4 (c : Dev nD) :
    (V2 m c main_v4 : Vec F S50000x64 .f32)
      = hArr (m ((c : Thread nD τ).loc main_arg0) : Vec F S50000x128 .f32) (transpose S128x64 [1, 0] (m ((c : Thread nD τ).loc main_arg2) : Vec F S64x128 .f32) transposes_S64x128_S128x64_1_0) (m ((c : Thread nD τ).loc main_arg3) : Vec F S64 .f32) := by
  have e : (V2 m c main_v4 : Vec F S50000x64 .f32) = ((dat0 (V1 m) c).arrAt 3 cfg0.N : Vec F S50000x64 .f32) := W2_arr m c 3
  rw [e, arrAt0_3 (V1 m) c, V1_main_arg0 m c, V1_main_v0 m c, V1_main_arg3 m c]

/-- The result buffer after the run. -/
theorem W4_main_v24 (c : Dev nD) :
    (W4 m c (Proc.devRef .tc main_v24) : Vec F S50000x64 .f32)
      = result (m ((c : Thread nD τ).loc main_arg0) : Vec F S50000x128 .f32) (m ((c : Thread nD τ).loc main_arg1) : Vec F S2x1000000 .i32) (m ((c : Thread nD τ).loc main_arg2) : Vec F S64x128 .f32) (m ((c : Thread nD τ).loc main_arg3) : Vec F S64 .f32) (m ((c : Thread nD τ).loc main_arg4) : Vec F S64x64 .f32) (m ((c : Thread nD τ).loc main_arg5) : Vec F S64 .f32) (m ((c : Thread nD τ).loc main_arg6) : Vec F S64x64 .f32) (m ((c : Thread nD τ).loc main_arg7) : Vec F S64 .f32) (m ((c : Thread nD τ).loc main_arg8) : Vec F S64 .f32) (m ((c : Thread nD τ).loc main_arg9) : Vec F S64 .f32) (m ((c : Thread nD τ).loc main_arg10) : Vec F S64x64 .f32) (m ((c : Thread nD τ).loc main_arg11) : Vec F S64 .f32) := by
  have e : (W4 m c (Proc.devRef .tc main_v24) : Vec F S50000x64 .f32) = ((dat1 (V3 m) c).arrAt 11 cfg1.N : Vec F S50000x64 .f32) := W4_arr m c 11
  rw [e, arrAt1_11 (V3 m) c]
  unfold AGG CNT HH WL BL WR GMS GW GB WO BO
  rw [V3_main_v18 m c, V3_main_v23 m c, V3_main_v4 m c, V3_main_v1 m c, V3_main_arg5 m c, V3_main_v2 m c, V3_main_arg9 m c,
    V3_main_arg7 m c, V3_main_arg8 m c, V3_main_v3 m c, V3_main_arg11 m c, V2_main_v4 m c]
  rfl

end Cert.KernelIdeal.Fr

end
-- ==== Proof.PureK.lean ====
/-
  The two kernel bodies as pure functions of whole arrays (any float instance).

  The first kernel maps row block j (5000 rows) of x to x_j · W + b.  The second walks a 3 × 10 grid over
  the same row blocks: phase 0 forms conv_j = (agg_j / max(cnt_j, 1)) · Wl + bl + h_j · Wr, keeps it and adds its
  column sums to a running sum; phase 1 turns the sum into the shift gms · (sum / 50000) and accumulates the
  column sums of (conv_j - shift)²; phase 2 turns those into 1 / sqrt(var + eps) and writes
  leaky((conv_j - shift) · inv · gw + gb) · Wo + bo as row block j of the result.
  Everything is stated through the payload terms of the kernels' skeletons, so that the same text reads at the
  word-level instance and at the extended reals.
-/
import proofs.«407117_j28578712387660_3_alg».proof.Proof.Gen.Kernel.Skeleton
import Idealize.ShloMosaic.Lib.ValueIdx

noncomputable section

namespace Cert.Kernel.Pure

open Idealize.ShloMosaic Idealize.ShloMosaic.ValueIdx Cert.Kernel Cert.Kernel.Gen

variable {F : FTy → Type} [FloatOps F]

/-- Row r of row block j, as a row of the 50000-row array. -/
def rowOf (j : Fin 10) (r : Fin 5000) : Fin 50000 := ⟨5000 * j.val + r.val, by have := j.isLt; have := r.isLt; omega⟩

/-- Row block j (rows 5000 j … 5000 j + 4999) of an array of 50000 rows and n columns. -/
def blk {n : Nat} {e : EltTy} (A : Vec F ⟨2, ![50000, n]⟩ e) (j : Fin 10) : Vec F ⟨2, ![5000, n]⟩ e :=
  fun y => A (ix2 (rowOf j (y 0)) (y 1))

/-- The array of 50000 rows whose row block j is B j. -/
def asm {n : Nat} {e : EltTy} (B : Fin 10 → Vec F ⟨2, ![5000, n]⟩ e) : Vec F ⟨2, ![50000, n]⟩ e :=
  fun i => B ⟨(i 0).val / 5000, by have := (i 0).isLt; exact Nat.div_lt_of_lt_mul (by simpa using this)⟩
    (ix2 ⟨(i 0).val % 5000, Nat.mod_lt _ (by decide)⟩ (i 1))

/-- The first kernel's result: row block j is x_j · W + b. -/
def hArr (x : Vec F S50000x128 .f32) (w : Vec F S128x64 .f32) (b : Vec F S64 .f32) : Vec F S50000x64 .f32 :=
  asm fun j => k0_pay1 (blk x j) w b

section Second

variable (agg : Vec F S50000x64 .f32) (cnt : Vec F S50000x1 .f32) (h : Vec F S50000x64 .f32)
  (wl : Vec F S64x64 .f32) (bl : Vec F S64 .f32) (wr : Vec F S64x64 .f32) (gms gw gb : Vec F S64 .f32)
  (wo : Vec F S64x64 .f32) (bo : Vec F S64 .f32)

/-- conv_j: what phase 0 keeps of row block j. -/
def convBlk (j : Fin 10) : Vec F S5000x64 .f32 := k1_pay3 (blk agg j) (blk cnt j) wl bl (blk h j) wr

/-- The running column sums after the first n row blocks of phase 0. -/
def sumAt : (n : Nat) → n ≤ 10 → Vec F S1x64 .f32
  | 0, _ => k1_pay1
  | n + 1, hn => k1_pay4 (blk agg ⟨n, hn⟩) (blk cnt ⟨n, hn⟩) wl bl (blk h ⟨n, hn⟩) wr (sumAt n (Nat.le_of_succ_le hn))

/-- gms · mean. -/
def shift : Vec F S1x64 .f32 := k1_pay5 (sumAt agg cnt h wl bl wr 10 (Nat.le_refl _)) gms

/-- The running column sums of the squared centred rows after the first n row blocks of phase 1. -/
def sqAt : (n : Nat) → n ≤ 10 → Vec F S1x64 .f32
  | 0, _ => k1_pay6
  | n + 1, hn => k1_pay7 (convBlk agg cnt h wl bl wr ⟨n, hn⟩) (shift agg cnt h wl bl wr gms) (sqAt n (Nat.le_of_succ_le hn))

/-- 1 / sqrt(var + eps). -/
def invStd : Vec F S1x64 .f32 := k1_pay8 (sqAt agg cnt h wl bl wr gms 10 (Nat.le_refl _))

/-- Row block j of the result. -/
def outBlk (j : Fin 10) : Vec F S5000x64 .f32 :=
  k1_pay9 (convBlk agg cnt h wl bl wr j) (shift agg cnt h wl bl wr gms) (invStd agg cnt h wl bl wr gms) gw gb wo bo

/-- The second kernel's result as one array. -/
def outArr : Vec F S50000x64 .f32 := asm fun j => outBlk agg cnt h wl bl wr gms gw gb wo bo j

end Second

/-! ## The host operations between the two kernels, and the whole program -/

/-- The source indices (row 0 of the edge list), a negative one wrapped once by 50000. -/
def srcIdx (e : Vec F S2x1000000 .i32) : Vec F S1000000x1 .i32 :=
  broadcastInDim S1000000x1 ![0] bcast_S1000000_S1000000x1_0
    (select (cmpi .slt (shapeCast S1000000 (extractStridedSlice S1x1000000 ![0, 0] e slices_S2x1000000_S1x1000000_0_0) shapeCasts_S1x1000000_S1000000)
        (broadcastInDim S1000000 ![] bcast_S_S1000000 (constantI S_ 32 0#32)))
      (addi (shapeCast S1000000 (extractStridedSlice S1x1000000 ![0, 0] e slices_S2x1000000_S1x1000000_0_0) shapeCasts_S1x1000000_S1000000)
        (broadcastInDim S1000000 ![] bcast_S_S1000000 (constantI S_ 32 50000#32)))
      (shapeCast S1000000 (extractStridedSlice S1x1000000 ![0, 0] e slices_S2x1000000_S1x1000000_0_0) shapeCasts_S1x1000000_S1000000))

/-- The destination indices (row 1 of the edge list). -/
def dstIdx (e : Vec F S2x1000000 .i32) : Vec F S1000000x1 .i32 :=
  broadcastInDim S1000000x1 ![0] bcast_S1000000_S1000000x1_0
    (shapeCast S1000000 (extractStridedSlice S1x1000000 ![1, 0] e slices_S2x1000000_S1x1000000_1_0) shapeCasts_S1x1000000_S1000000)

/-- The rows of h gathered along the edges' sources and summed into the edges' destinations. -/
def aggOf (h : Vec F S50000x64 .f32) (e : Vec F S2x1000000 .i32) : Vec F S50000x64 .f32 :=
  Host.scatterAdd scatter_S50000x64_S1000000x1_S1000000x64_1_0_0_1
    (broadcastInDim S50000x64 ![] bcast_S_S50000x64 (constant S_ .f32 0x00000000#32))
    (dstIdx e)
    (Host.gather gather_S50000x64_S1000000x1_S1000000x64_1_0_n_n_0_1_164 h (srcIdx e))

/-- The number of edges into each node, as a column. -/
def cntOf (e : Vec F S2x1000000 .i32) : Vec F S50000x1 .f32 :=
  shapeCast S50000x1
    (Host.scatterAdd scatter_S50000_S1000000x1_S1000000_n_0_0_1
      (broadcastInDim S50000 ![] bcast_S_S50000 (constant S_ .f32 0x00000000#32))
      (dstIdx e)
      (broadcastInDim S1000000 ![] bcast_S_S1000000 (constant S_ .f32 0x3F800000#32)))
    shapeCasts_S50000_S50000x1

/-- The whole program's result from its twelve arguments. -/
def result (x : Vec F S50000x128 .f32) (e : Vec F S2x1000000 .i32) (win : Vec F S64x128 .f32) (bin : Vec F S64 .f32)
    (wl : Vec F S64x64 .f32) (bl : Vec F S64 .f32) (wr : Vec F S64x64 .f32) (gw gb gms : Vec F S64 .f32)
    (wo : Vec F S64x64 .f32) (bo : Vec F S64 .f32) : Vec F S50000x64 .f32 :=
  outArr (aggOf (hArr x (transpose S128x64 [1, 0] win transposes_S64x128_S128x64_1_0) bin) e) (cntOf e)
    (hArr x (transpose S128x64 [1, 0] win transposes_S64x128_S128x64_1_0) bin)
    (transpose S64x64 [1, 0] wl transposes_S64x64_S64x64_1_0) bl
    (transpose S64x64 [1, 0] wr transposes_S64x64_S64x64_1_0) gms gw gb
    (transpose S64x64 [1, 0] wo transposes_S64x64_S64x64_1_0) bo

end Cert.Kernel.Pure

end
-- ==== Proof.FrK.Base.lean ====
/-
  What the two pipelines' schedules decide, once, over their grids (10 points; 3 × 10 points), and the windows'
  blocks as the pipelines read them.
  The second kernel's six branches hold exactly at: point 0; points 0-9 (phase 0); point 10; points 10-19
  (phase 1); point 20; points 20-29 (phase 2). Its three row-block slices of the conv cache start at row
  5000 · (t mod 10). Its output window is stored into, and written back, exactly at the points of phase 2.
-/
import proofs.«407117_j28578712387660_3_alg».proof.Proof.Gen.Kernel.Launch
import proofs.«407117_j28578712387660_3_alg».proof.Proof.Gen.Kernel.Skeleton
import proofs.«407117_j28578712387660_3_alg».proof.Proof.Gen.Kernel.Points
import proofs.«407117_j28578712387660_3_alg».proof.Proof.PureK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t of the first pipeline, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window w's block at point t of the second pipeline. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The second kernel's branch conditions over the grid -/

abbrev c1 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev c2 (i : grid1.Coords) : Prop := k1_cond2 i = 1#1
abbrev c3 (i : grid1.Coords) : Prop := (Scalar.cmpi .ne (Scalar.extui (Scalar.andi (Scalar.cmpi .eq (BitVec.ofNat 32 (i 0).val) 1#32) (Scalar.cmpi .eq (BitVec.ofNat 32 (i 1).val) 0#32))) 0#32) = 1#1
abbrev c4 (i : grid1.Coords) : Prop := k1_cond4 i = 1#1
abbrev c5 (i : grid1.Coords) : Prop := (Scalar.cmpi .ne (Scalar.extui (Scalar.andi (Scalar.cmpi .eq (BitVec.ofNat 32 (i 0).val) 2#32) (Scalar.cmpi .eq (BitVec.ofNat 32 (i 1).val) 0#32))) 0#32) = 1#1
abbrev c6 (i : grid1.Coords) : Prop := k1_cond6 i = 1#1

theorem hc1 : ∀ t : Fin cfg1.N, c1 (grid1.coords t) ↔ t.val = 0 :=
  (by decide +kernel : ∀ t : Fin grid1.N, c1 (grid1.coords t) ↔ t.val = 0)
theorem hc2 : ∀ t : Fin cfg1.N, c2 (grid1.coords t) ↔ t.val < 10 :=
  (by decide +kernel : ∀ t : Fin grid1.N, c2 (grid1.coords t) ↔ t.val < 10)
theorem hc3 : ∀ t : Fin cfg1.N, c3 (grid1.coords t) ↔ t.val = 10 :=
  (by decide +kernel : ∀ t : Fin grid1.N, c3 (grid1.coords t) ↔ t.val = 10)
theorem hc4 : ∀ t : Fin cfg1.N, c4 (grid1.coords t) ↔ (10 ≤ t.val ∧ t.val < 20) :=
  (by decide +kernel : ∀ t : Fin grid1.N, c4 (grid1.coords t) ↔ (10 ≤ t.val ∧ t.val < 20))
theorem hc5 : ∀ t : Fin cfg1.N, c5 (grid1.coords t) ↔ t.val = 20 :=
  (by decide +kernel : ∀ t : Fin grid1.N, c5 (grid1.coords t) ↔ t.val = 20)
theorem hc6 : ∀ t : Fin cfg1.N, c6 (grid1.coords t) ↔ 20 ≤ t.val :=
  (by decide +kernel : ∀ t : Fin grid1.N, c6 (grid1.coords t) ↔ 20 ≤ t.val)

/-! ## The conv cache's row-block slices -/

theorem off1_eq : ∀ t : Fin cfg1.N, k1_off1 (grid1.coords t) = ![5000 * (t.val % 10), 0] :=
  (by decide +kernel : ∀ t : Fin grid1.N, k1_off1 (grid1.coords t) = ![5000 * (t.val % 10), 0])
theorem off2_eq : ∀ t : Fin cfg1.N, k1_off2 (grid1.coords t) = ![5000 * (t.val % 10), 0] :=
  (by decide +kernel : ∀ t : Fin grid1.N, k1_off2 (grid1.coords t) = ![5000 * (t.val % 10), 0])
theorem off3_eq : ∀ t : Fin cfg1.N, k1_off3 (grid1.coords t) = ![5000 * (t.val % 10), 0] :=
  (by decide +kernel : ∀ t : Fin grid1.N, k1_off3 (grid1.coords t) = ![5000 * (t.val % 10), 0])

/-! ## The output window of the second pipeline: idle and not written back before phase 2 -/

theorem idle1_11 : ∀ t : Fin cfg1.N, cfg1.idle 11 (grid1.coords t) = true ↔ t.val < 20 :=
  (by decide +kernel : ∀ t : Fin grid1.N, cfg1.idle 11 (grid1.coords t) = true ↔ t.val < 20)
theorem flush1_11 : ∀ t : Fin cfg1.N, (cfg1.win 11).flush t = true ↔ 20 ≤ t.val :=
  (by decide +kernel : ∀ t : Fin grid1.N, win1_11.flush t = true ↔ 20 ≤ t.val)

/-! ## The streamed windows' block indices -/

theorem index1_0 : ∀ t : Fin cfg1.N, win1_0.index t = ![if t.val < 10 then t.val else 9, 0] :=
  (by decide +kernel : ∀ t : Fin grid1.N, win1_0.index t = ![if t.val < 10 then t.val else 9, 0])
theorem index1_1 : ∀ t : Fin cfg1.N, win1_1.index t = ![if t.val < 10 then t.val else 9, 0] :=
  (by decide +kernel : ∀ t : Fin grid1.N, win1_1.index t = ![if t.val < 10 then t.val else 9, 0])
theorem index1_2 : ∀ t : Fin cfg1.N, win1_2.index t = ![if t.val < 10 then t.val else 9, 0] :=
  (by decide +kernel : ∀ t : Fin grid1.N, win1_2.index t = ![if t.val < 10 then t.val else 9, 0])
theorem index1_11 : ∀ t : Fin cfg1.N, win1_11.index t = ![if 20 ≤ t.val then t.val - 20 else 0, 0] :=
  (by decide +kernel : ∀ t : Fin grid1.N, win1_11.index t = ![if 20 ≤ t.val then t.val - 20 else 0, 0])
theorem index0_0 : ∀ t : Fin cfg0.N, win0_0.index t = ![t.val, 0] :=
  (by decide +kernel : ∀ t : Fin grid0.N, win0_0.index t = ![t.val, 0])
theorem index0_3 : ∀ t : Fin cfg0.N, win0_3.index t = ![t.val, 0] :=
  (by decide +kernel : ∀ t : Fin grid0.N, win0_3.index t = ![t.val, 0])

end Cert.Kernel.Fr

end
-- ==== Proof.FrK.RunBase.lean ====
/-
  Stores read back (any float instance): one store over the whole shape leaves its payload; one store through a
  rectangle leaves its payload on the rectangle and keeps the contents off it. And the row-block slices of the
  conv cache that the second kernel's three phases address.
-/
import proofs.«407117_j28578712387660_3_alg».proof.Proof.FrK.Base
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem z2 : (![0, 0] : Fin 2 → Nat) = fun _ => 0 := by funext a; match a with | ⟨0, _⟩ => rfl | ⟨1, _⟩ => rfl
theorem z1 : (![0] : Fin 1 → Nat) = fun _ => 0 := by funext a; match a with | ⟨0, _⟩ => rfl

/-- One whole-shape store leaves its payload, whatever was there and whatever was stored before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self, View.mem_set_unit_zero h inb y⟩), View.canon_cons_unit_zero h]

/-- One store through a rectangle, read back through the rectangle, is its payload; -/
theorem ld_read_writes_self {κ : Kind} {sp : Space} {S : Shape} {e : EltTy} (v : View sig κ sp S e) (f : v.ty.Contents (Elt F))
    (r : Rect S) (w : r.shape.Idx → Elt F e) :
    View.ld (v.read (Elt F) (v.writes (Elt F) f [⟨r, w⟩])) r = w := by
  funext x
  exact View.read_writes_cons_emb v f r w [] x

/-- off the rectangle the contents are kept. -/
theorem read_writes_off {κ : Kind} {sp : Space} {S : Shape} {e : EltTy} (v : View sig κ sp S e) (f : v.ty.Contents (Elt F))
    (r : Rect S) (w : r.shape.Idx → Elt F e) (y : S.Idx) (hy : y ∉ r.set) :
    v.read (Elt F) (v.writes (Elt F) f [⟨r, w⟩]) y = v.read (Elt F) f y :=
  View.read_writes_apply_of_forall_not_mem v f y [⟨r, w⟩] (fun p hp => by
    rw [List.mem_singleton] at hp; subst hp; exact hy)

/-- The conv cache's row-block slice the body stores into at grid coordinates i in phase 0, -/
abbrev rect1 (i : grid1.Coords) (h : c2 i) : Rect S50000x64 := Rect.unit (s := S50000x64) (k1_off1 i) S5000x64.size (k1_off1_inb i h)
/-- loads in phase 1, -/
abbrev rect2 (i : grid1.Coords) (h : c4 i) : Rect S50000x64 := Rect.unit (s := S50000x64) (k1_off2 i) S5000x64.size (k1_off2_inb i h)
/-- and loads in phase 2. -/
abbrev rect3 (i : grid1.Coords) (h : c6 i) : Rect S50000x64 := Rect.unit (s := S50000x64) (k1_off3 i) S5000x64.size (k1_off3_inb i h)

end Cert.Kernel.Fr

end
-- ==== Proof.FrK.Region0.lean ====
/-
  The first pipeline (ten points, one per row block) at any contents V of the core's buffers at its entry:
  at every point the three input windows hold their blocks (the row block of x; the whole weight; the whole
  bias), and the body leaves in the output window's buffer the payload x_t · W + b of those blocks.
-/
import proofs.«407117_j28578712387660_3_alg».proof.Proof.FrK.RunBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Each input window's current buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

abbrev r0_out : Rect S5000x64 := Rect.unit (s := S5000x64) ![0, 0] S5000x64.size inb_S5000x64_S5000x64_0_0

set_option maxHeartbeats 1000000 in
/-- On whole staging memrefs, the inputs' at contents x0 x1 x2 and the output's at anything, the body runs to the
    continuation holding the inputs' as they were and the output's at the payload of the inputs. -/
theorem sound_kernel0 (c : Dev nD) (E : Set ℕ) (i : grid0.Coords)
    (arg1 : Memref sig .tc .vmem S5000x128 .f32) (harg1 : arg1.IsWhole) (arg2 : Memref sig .tc .vmem S128x64 .f32) (harg2 : arg2.IsWhole)
    (arg3 : Memref sig .tc .vmem S64 .f32) (harg3 : arg3.IsWhole) (arg4 : Memref sig .tc .vmem S5000x64 .f32) (harg4 : arg4.IsWhole)
    (x0 : Vec F S5000x128 .f32) (x1 : Vec F S128x64 .f32) (x2 : Vec F S64 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__fc_in_kernel i arg1 harg1 arg2 harg2 arg3 harg3 arg4 harg4) K := by
  simp only [cc0__fc_in_kernel_eq_skeleton]; unfold cc0__fc_in_kernel_skel
  unfold owns
  iintro ⟨⟨%f0, %hf0, H0⟩, ⟨%f1, %hf1, H1⟩, ⟨%f2, %hf2, H2⟩, ⟨%d3, %f3, -, H3⟩, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _; isplitr
  swap; · iexact H3
  ipureintro
  simp only [View.readAt_eq_ld, harg1.read_unread, harg2.read_unread, harg3.read_unread,
    View.ld_unit_zero (S := S5000x128) z2, View.ld_unit_zero (S := S128x64) z2, View.ld_unit_zero (S := S64) z1]
  exact read_writes_whole _ _ z2 _ _ _

/-! ## The pipeline's proof data -/

/-- The proof data of the first pipeline on core c: the arrays as the region finds them; after the body at point t
    each input's buffer at its block and the output's at the payload of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay1 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrK.Bridge.lean ====
/-
  The windows' blocks as row blocks of the arrays (any float instance): a streamed window's block at a point is
  the row block of its array that the point's block index names; a window whose block is its whole array reads
  the whole array at every point.
-/
import proofs.«407117_j28578712387660_3_alg».proof.Proof.FrK.Base
import Idealize.ShloMosaic.Lib.Pipeline.Value

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Pure

variable (V : (c : Dev nD) → (b : Ref sig .tc) → Buf (Elt F) ((c : Thread nD τ).loc b))

/-- The row block a point of the second grid works on. -/
def jOf (t : Fin cfg1.N) : Fin 10 := ⟨t.val % 10, Nat.mod_lt _ (by decide)⟩
/-- The row block a point of the first grid works on. -/
def jOf0 (t : Fin cfg0.N) : Fin 10 := ⟨t.val % 10, Nat.mod_lt _ (by decide)⟩

/-- An element of the assembled array is the element of its row block (any float instance). -/
theorem asm_rowOf {n : Nat} {e : EltTy} (B : Fin 10 → Vec F ⟨2, ![5000, n]⟩ e) (j : Fin 10) (r : Fin 5000) (k : Fin n) :
    asm B (ValueIdx.ix2 (rowOf j r) k) = B j (ValueIdx.ix2 r k) := by
  have e1 : ∀ h, (⟨(rowOf j r).val / 5000, h⟩ : Fin 10) = j := fun h => Fin.ext (by
    show (5000 * j.val + r.val) / 5000 = j.val
    have := r.isLt; omega)
  have e2 : ∀ h, (⟨(rowOf j r).val % 5000, h⟩ : Fin 5000) = r := fun h => Fin.ext (by
    show (5000 * j.val + r.val) % 5000 = r.val
    have := r.isLt; omega)
  exact congr (congrArg B (e1 _)) (congrArg (fun t : Fin 5000 => (ValueIdx.ix2 t k : (⟨2, ![5000, n]⟩ : Shape).Idx)) (e2 _))

/-! ## The block indices of the windows whose block is the whole array -/

theorem index0_1 : ∀ t : Fin cfg0.N, win0_1.index t = ![0, 0] :=
  (by decide +kernel : ∀ t : Fin grid0.N, win0_1.index t = ![0, 0])
theorem index0_2 : ∀ t : Fin cfg0.N, win0_2.index t = ![0] :=
  (by decide +kernel : ∀ t : Fin grid0.N, win0_2.index t = ![0])

theorem index1_3 : ∀ t : Fin cfg1.N, win1_3.index t = ![0, 0] :=
  (by decide +kernel : ∀ t : Fin grid1.N, win1_3.index t = ![0, 0])
theorem index1_4 : ∀ t : Fin cfg1.N, win1_4.index t = ![0] :=
  (by decide +kernel : ∀ t : Fin grid1.N, win1_4.index t = ![0])
theorem index1_5 : ∀ t : Fin cfg1.N, win1_5.index t = ![0, 0] :=
  (by decide +kernel : ∀ t : Fin grid1.N, win1_5.index t = ![0, 0])
theorem index1_6 : ∀ t : Fin cfg1.N, win1_6.index t = ![0] :=
  (by decide +kernel : ∀ t : Fin grid1.N, win1_6.index t = ![0])
theorem index1_7 : ∀ t : Fin cfg1.N, win1_7.index t = ![0] :=
  (by decide +kernel : ∀ t : Fin grid1.N, win1_7.index t = ![0])
theorem index1_8 : ∀ t : Fin cfg1.N, win1_8.index t = ![0] :=
  (by decide +kernel : ∀ t : Fin grid1.N, win1_8.index t = ![0])
theorem index1_9 : ∀ t : Fin cfg1.N, win1_9.index t = ![0, 0] :=
  (by decide +kernel : ∀ t : Fin grid1.N, win1_9.index t = ![0, 0])
theorem index1_10 : ∀ t : Fin cfg1.N, win1_10.index t = ![0] :=
  (by decide +kernel : ∀ t : Fin grid1.N, win1_10.index t = ![0])

/-- A point of the first grid is below 10. -/
theorem lt0 (t : Fin cfg0.N) : t.val < 10 := lt_of_lt_of_eq t.isLt N_0
/-- A point of the second grid is below 30. -/
theorem lt1 (t : Fin cfg1.N) : t.val < 30 := lt_of_lt_of_eq t.isLt N_1

/-! ## The first pipeline -/

theorem iblk0_0 (c : Dev nD) (t : Fin cfg0.N) :
    (iblk0 V c 0 t : Vec F S5000x128 .f32) = blk (V c main_arg0 : Vec F S50000x128 .f32) (jOf0 t) := by
  refine funext fun (y : S5000x128.Idx) => ?_
  have h0 : win0_0.index t (0 : Fin 2) = t.val := congrFun (index0_0 t) 0
  have h1 : win0_0.index t (1 : Fin 2) = 0 := congrFun (index0_0 t) 1
  have ht := lt0 t
  unfold iblk0
  rw [View.read_apply]
  show (V c main_arg0 : Vec F S50000x128 .f32) _ = (V c main_arg0 : Vec F S50000x128 .f32) (ValueIdx.ix2 (rowOf (jOf0 t) (y 0)) (y 1))
  refine congrArg _ (funext fun a => Fin.ext ?_)
  match a with
  | ⟨0, _⟩ => show win0_0.index t (0 : Fin 2) * 5000 + 1 * (y 0).val = 5000 * (t.val % 10) + (y 0).val; rw [h0]; omega
  | ⟨1, _⟩ => show win0_0.index t (1 : Fin 2) * 128 + 1 * (y 1).val = (y 1).val; rw [h1]; omega
theorem iblk0_1 (c : Dev nD) (t : Fin cfg0.N) : (iblk0 V c 1 t : Vec F S128x64 .f32) = (V c main_v0 : Vec F S128x64 .f32) := by
  refine funext fun (y : S128x64.Idx) => ?_
  have h0 : win0_1.index t (0 : Fin 2) = 0 := congrFun (index0_1 t) 0
  have h1 : win0_1.index t (1 : Fin 2) = 0 := congrFun (index0_1 t) 1
  unfold iblk0
  rw [View.read_apply]
  show (V c main_v0 : Vec F S128x64 .f32) _ = (V c main_v0 : Vec F S128x64 .f32) y
  refine congrArg _ (funext fun a => Fin.ext ?_)
  match a with
  | ⟨0, _⟩ => show win0_1.index t (0 : Fin 2) * 128 + 1 * (y 0).val = (y 0).val; rw [h0]; omega
  | ⟨1, _⟩ => show win0_1.index t (1 : Fin 2) * 64 + 1 * (y 1).val = (y 1).val; rw [h1]; omega
theorem iblk0_2 (c : Dev nD) (t : Fin cfg0.N) : (iblk0 V c 2 t : Vec F S64 .f32) = (V c main_arg3 : Vec F S64 .f32) := by
  refine funext fun (y : S64.Idx) => ?_
  have h0 : win0_2.index t (0 : Fin 1) = 0 := congrFun (index0_2 t) 0
  unfold iblk0
  rw [View.read_apply]
  show (V c main_arg3 : Vec F S64 .f32) _ = (V c main_arg3 : Vec F S64 .f32) y
  refine congrArg _ (funext fun a => Fin.ext ?_)
  match a with
  | ⟨0, _⟩ => show win0_2.index t (0 : Fin 1) * 64 + 1 * (y 0).val = (y 0).val; rw [h0]; omega

/-! ## The second pipeline: the three streamed windows during phase 0, the eight whole ones always -/

theorem iblk1_0 (c : Dev nD) (t : Fin cfg1.N) (ht : t.val < 10) :
    (iblk1 V c 0 t : Vec F S5000x64 .f32) = blk (V c main_v18 : Vec F S50000x64 .f32) (jOf t) := by
  refine funext fun (y : S5000x64.Idx) => ?_
  have h0 : win1_0.index t (0 : Fin 2) = t.val := (congrFun (index1_0 t) 0).trans (if_pos ht)
  have h1 : win1_0.index t (1 : Fin 2) = 0 := congrFun (index1_0 t) 1
  unfold iblk1
  rw [View.read_apply]
  show (V c main_v18 : Vec F S50000x64 .f32) _ = (V c main_v18 : Vec F S50000x64 .f32) (ValueIdx.ix2 (rowOf (jOf t) (y 0)) (y 1))
  refine congrArg _ (funext fun a => Fin.ext ?_)
  match a with
  | ⟨0, _⟩ => show win1_0.index t (0 : Fin 2) * 5000 + 1 * (y 0).val = 5000 * (t.val % 10) + (y 0).val; rw [h0]; omega
  | ⟨1, _⟩ => show win1_0.index t (1 : Fin 2) * 64 + 1 * (y 1).val = (y 1).val; rw [h1]; omega
theorem iblk1_1 (c : Dev nD) (t : Fin cfg1.N) (ht : t.val < 10) :
    (iblk1 V c 1 t : Vec F S5000x1 .f32) = blk (V c main_v23 : Vec F S50000x1 .f32) (jOf t) := by
  refine funext fun (y : S5000x1.Idx) => ?_
  have h0 : win1_1.index t (0 : Fin 2) = t.val := (congrFun (index1_1 t) 0).trans (if_pos ht)
  have h1 : win1_1.index t (1 : Fin 2) = 0 := congrFun (index1_1 t) 1
  unfold iblk1
  rw [View.read_apply]
  show (V c main_v23 : Vec F S50000x1 .f32) _ = (V c main_v23 : Vec F S50000x1 .f32) (ValueIdx.ix2 (rowOf (jOf t) (y 0)) (y 1))
  refine congrArg _ (funext fun a => Fin.ext ?_)
  match a with
  | ⟨0, _⟩ => show win1_1.index t (0 : Fin 2) * 5000 + 1 * (y 0).val = 5000 * (t.val % 10) + (y 0).val; rw [h0]; omega
  | ⟨1, _⟩ => show win1_1.index t (1 : Fin 2) * 1 + 1 * (y 1).val = (y 1).val; rw [h1]; omega
theorem iblk1_2 (c : Dev nD) (t : Fin cfg1.N) (ht : t.val < 10) :
    (iblk1 V c 2 t : Vec F S5000x64 .f32) = blk (V c main_v4 : Vec F S50000x64 .f32) (jOf t) := by
  refine funext fun (y : S5000x64.Idx) => ?_
  have h0 : win1_2.index t (0 : Fin 2) = t.val := (congrFun (index1_2 t) 0).trans (if_pos ht)
  have h1 : win1_2.index t (1 : Fin 2) = 0 := congrFun (index1_2 t) 1
  unfold iblk1
  rw [View.read_apply]
  show (V c main_v4 : Vec F S50000x64 .f32) _ = (V c main_v4 : Vec F S50000x64 .f32) (ValueIdx.ix2 (rowOf (jOf t) (y 0)) (y 1))
  refine congrArg _ (funext fun a => Fin.ext ?_)
  match a with
  | ⟨0, _⟩ => show win1_2.index t (0 : Fin 2) * 5000 + 1 * (y 0).val = 5000 * (t.val % 10) + (y 0).val; rw [h0]; omega
  | ⟨1, _⟩ => show win1_2.index t (1 : Fin 2) * 64 + 1 * (y 1).val = (y 1).val; rw [h1]; omega
theorem iblk1_3 (c : Dev nD) (t : Fin cfg1.N) : (iblk1 V c 3 t : Vec F S64x64 .f32) = (V c main_v1 : Vec F S64x64 .f32) := by
  refine funext fun (y : S64x64.Idx) => ?_
  have h0 : win1_3.index t (0 : Fin 2) = 0 := congrFun (index1_3 t) 0
  have h1 : win1_3.index t (1 : Fin 2) = 0 := congrFun (index1_3 t) 1
  unfold iblk1
  rw [View.read_apply]
  show (V c main_v1 : Vec F S64x64 .f32) _ = (V c main_v1 : Vec F S64x64 .f32) y
  refine congrArg _ (funext fun a => Fin.ext ?_)
  match a with
  | ⟨0, _⟩ => show win1_3.index t (0 : Fin 2) * 64 + 1 * (y 0).val = (y 0).val; rw [h0]; omega
  | ⟨1, _⟩ => show win1_3.index t (1 : Fin 2) * 64 + 1 * (y 1).val = (y 1).val; rw [h1]; omega
theorem iblk1_4 (c : Dev nD) (t : Fin cfg1.N) : (iblk1 V c 4 t : Vec F S64 .f32) = (V c main_arg5 : Vec F S64 .f32) := by
  refine funext fun (y : S64.Idx) => ?_
  have h0 : win1_4.index t (0 : Fin 1) = 0 := congrFun (index1_4 t) 0
  unfold iblk1
  rw [View.read_apply]
  show (V c main_arg5 : Vec F S64 .f32) _ = (V c main_arg5 : Vec F S64 .f32) y
  refine congrArg _ (funext fun a => Fin.ext ?_)
  match a with
  | ⟨0, _⟩ => show win1_4.index t (0 : Fin 1) * 64 + 1 * (y 0).val = (y 0).val; rw [h0]; omega
theorem iblk1_5 (c : Dev nD) (t : Fin cfg1.N) : (iblk1 V c 5 t : Vec F S64x64 .f32) = (V c main_v2 : Vec F S64x64 .f32) := by
  refine funext fun (y : S64x64.Idx) => ?_
  have h0 : win1_5.index t (0 : Fin 2) = 0 := congrFun (index1_5 t) 0
  have h1 : win1_5.index t (1 : Fin 2) = 0 := congrFun (index1_5 t) 1
  unfold iblk1
  rw [View.read_apply]
  show (V c main_v2 : Vec F S64x64 .f32) _ = (V c main_v2 : Vec F S64x64 .f32) y
  refine congrArg _ (funext fun a => Fin.ext ?_)
  match a with
  | ⟨0, _⟩ => show win1_5.index t (0 : Fin 2) * 64 + 1 * (y 0).val = (y 0).val; rw [h0]; omega
  | ⟨1, _⟩ => show win1_5.index t (1 : Fin 2) * 64 + 1 * (y 1).val = (y 1).val; rw [h1]; omega
theorem iblk1_6 (c : Dev nD) (t : Fin cfg1.N) : (iblk1 V c 6 t : Vec F S64 .f32) = (V c main_arg9 : Vec F S64 .f32) := by
  refine funext fun (y : S64.Idx) => ?_
  have h0 : win1_6.index t (0 : Fin 1) = 0 := congrFun (index1_6 t) 0
  unfold iblk1
  rw [View.read_apply]
  show (V c main_arg9 : Vec F S64 .f32) _ = (V c main_arg9 : Vec F S64 .f32) y
  refine congrArg _ (funext fun a => Fin.ext ?_)
  match a with
  | ⟨0, _⟩ => show win1_6.index t (0 : Fin 1) * 64 + 1 * (y 0).val = (y 0).val; rw [h0]; omega
theorem iblk1_7 (c : Dev nD) (t : Fin cfg1.N) : (iblk1 V c 7 t : Vec F S64 .f32) = (V c main_arg7 : Vec F S64 .f32) := by
  refine funext fun (y : S64.Idx) => ?_
  have h0 : win1_7.index t (0 : Fin 1) = 0 := congrFun (index1_7 t) 0
  unfold iblk1
  rw [View.read_apply]
  show (V c main_arg7 : Vec F S64 .f32) _ = (V c main_arg7 : Vec F S64 .f32) y
  refine congrArg _ (funext fun a => Fin.ext ?_)
  match a with
  | ⟨0, _⟩ => show win1_7.index t (0 : Fin 1) * 64 + 1 * (y 0).val = (y 0).val; rw [h0]; omega
theorem iblk1_8 (c : Dev nD) (t : Fin cfg1.N) : (iblk1 V c 8 t : Vec F S64 .f32) = (V c main_arg8 : Vec F S64 .f32) := by
  refine funext fun (y : S64.Idx) => ?_
  have h0 : win1_8.index t (0 : Fin 1) = 0 := congrFun (index1_8 t) 0
  unfold iblk1
  rw [View.read_apply]
  show (V c main_arg8 : Vec F S64 .f32) _ = (V c main_arg8 : Vec F S64 .f32) y
  refine congrArg _ (funext fun a => Fin.ext ?_)
  match a with
  | ⟨0, _⟩ => show win1_8.index t (0 : Fin 1) * 64 + 1 * (y 0).val = (y 0).val; rw [h0]; omega
theorem iblk1_9 (c : Dev nD) (t : Fin cfg1.N) : (iblk1 V c 9 t : Vec F S64x64 .f32) = (V c main_v3 : Vec F S64x64 .f32) := by
  refine funext fun (y : S64x64.Idx) => ?_
  have h0 : win1_9.index t (0 : Fin 2) = 0 := congrFun (index1_9 t) 0
  have h1 : win1_9.index t (1 : Fin 2) = 0 := congrFun (index1_9 t) 1
  unfold iblk1
  rw [View.read_apply]
  show (V c main_v3 : Vec F S64x64 .f32) _ = (V c main_v3 : Vec F S64x64 .f32) y
  refine congrArg _ (funext fun a => Fin.ext ?_)
  match a with
  | ⟨0, _⟩ => show win1_9.index t (0 : Fin 2) * 64 + 1 * (y 0).val = (y 0).val; rw [h0]; omega
  | ⟨1, _⟩ => show win1_9.index t (1 : Fin 2) * 64 + 1 * (y 1).val = (y 1).val; rw [h1]; omega
theorem iblk1_10 (c : Dev nD) (t : Fin cfg1.N) : (iblk1 V c 10 t : Vec F S64 .f32) = (V c main_arg11 : Vec F S64 .f32) := by
  refine funext fun (y : S64.Idx) => ?_
  have h0 : win1_10.index t (0 : Fin 1) = 0 := congrFun (index1_10 t) 0
  unfold iblk1
  rw [View.read_apply]
  show (V c main_arg11 : Vec F S64 .f32) _ = (V c main_arg11 : Vec F S64 .f32) y
  refine congrArg _ (funext fun a => Fin.ext ?_)
  match a with
  | ⟨0, _⟩ => show win1_10.index t (0 : Fin 1) * 64 + 1 * (y 0).val = (y 0).val; rw [h0]; omega

/-! ## A row block of an array read through an output window's block -/

/-- The block the first pipeline's output window names at point t, read off an assembled array, is row block t. -/
theorem read_blk0_3 (c : Dev nD) (t : Fin cfg0.N) (B : Fin 10 → Vec F S5000x64 .f32) :
    (((cfg0.win 3).blk t).view.read (Elt F) (asm B : Vec F S50000x64 .f32) : Vec F S5000x64 .f32) = B (jOf0 t) := by
  refine funext fun (y : S5000x64.Idx) => ?_
  have h0 : win0_3.index t (0 : Fin 2) = t.val := congrFun (index0_3 t) 0
  have h1 : win0_3.index t (1 : Fin 2) = 0 := congrFun (index0_3 t) 1
  have ht := lt0 t
  have e : (((cfg0.win 3).blk t).view.emb y : S50000x64.Idx) = ValueIdx.ix2 (rowOf (jOf0 t) (y 0)) (y 1) := by
    refine funext fun a => Fin.ext ?_
    match a with
    | ⟨0, _⟩ => show win0_3.index t (0 : Fin 2) * 5000 + 1 * (y 0).val = 5000 * (t.val % 10) + (y 0).val; rw [h0]; omega
    | ⟨1, _⟩ => show win0_3.index t (1 : Fin 2) * 64 + 1 * (y 1).val = (y 1).val; rw [h1]; omega
  rw [View.read_apply]
  show (asm B : Vec F S50000x64 .f32) (((cfg0.win 3).blk t).view.emb y) = B (jOf0 t) y
  rw [e]
  exact (asm_rowOf B (jOf0 t) (y 0) (y 1)).trans (congrArg (B (jOf0 t)) (ValueIdx.eq_ix2 y).symm)

/-- The block the second pipeline's output window names at a point t of phase 2, read off an assembled array, is
    row block t - 20. -/
theorem read_blk1_11 (c : Dev nD) (t : Fin cfg1.N) (ht : 20 ≤ t.val) (B : Fin 10 → Vec F S5000x64 .f32) :
    (((cfg1.win 11).blk t).view.read (Elt F) (asm B : Vec F S50000x64 .f32) : Vec F S5000x64 .f32) = B (jOf t) := by
  refine funext fun (y : S5000x64.Idx) => ?_
  have h0 : win1_11.index t (0 : Fin 2) = t.val - 20 := (congrFun (index1_11 t) 0).trans (if_pos ht)
  have h1 : win1_11.index t (1 : Fin 2) = 0 := congrFun (index1_11 t) 1
  have hlt := lt1 t
  have e : (((cfg1.win 11).blk t).view.emb y : S50000x64.Idx) = ValueIdx.ix2 (rowOf (jOf t) (y 0)) (y 1) := by
    refine funext fun a => Fin.ext ?_
    match a with
    | ⟨0, _⟩ => show win1_11.index t (0 : Fin 2) * 5000 + 1 * (y 0).val = 5000 * (t.val % 10) + (y 0).val; rw [h0]; omega
    | ⟨1, _⟩ => show win1_11.index t (1 : Fin 2) * 64 + 1 * (y 1).val = (y 1).val; rw [h1]; omega
  rw [View.read_apply]
  show (asm B : Vec F S50000x64 .f32) (((cfg1.win 11).blk t).view.emb y) = B (jOf t) y
  rw [e]
  exact (asm_rowOf B (jOf t) (y 0) (y 1)).trans (congrArg (B (jOf t)) (ValueIdx.eq_ix2 y).symm)

/-- An index of the first pipeline's output array is in point t's block iff each coordinate is in the block's
    range on its axis. -/
theorem mem_blk0_3 (t : Fin cfg0.N) (i : S50000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v4).slice (win0_3.rect t)).set ↔ _
  rw [View.set_slice_whole, Rect.mem_set_unit]
  exact Iff.rfl

/-- Row i of the first pipeline's output array lies in the block of point i / 5000. -/
theorem cover0_3_at (i : S50000x64.Idx) :
    ∃ t : Fin cfg0.N, (cfg0.win 3).flush t = true ∧ i ∈ ((cfg0.win 3).blk t).view.set := by
  have hi0 : (i 0).val < 50000 := ValueIdx.idx2_lt0 i
  have hi1 : (i 1).val < 64 := ValueIdx.idx2_lt1 i
  let t : Fin cfg0.N := ⟨(i 0).val / 5000, by rw [show cfg0.N = 10 from N_0]; omega⟩
  have h0 : win0_3.index t (0 : Fin 2) = (i 0).val / 5000 := congrFun (index0_3 t) 0
  have h1 : win0_3.index t (1 : Fin 2) = 0 := congrFun (index0_3 t) 1
  refine ⟨t, flush0_3 t, ?_⟩
  rw [mem_blk0_3]
  intro a
  match a with
  | ⟨0, _⟩ =>
    show win0_3.index t (0 : Fin 2) * 5000 ≤ (i 0).val ∧ (i 0).val < win0_3.index t (0 : Fin 2) * 5000 + 5000
    rw [h0]; omega
  | ⟨1, _⟩ =>
    show win0_3.index t (1 : Fin 2) * 64 ≤ (i 1).val ∧ (i 1).val < win0_3.index t (1 : Fin 2) * 64 + 64
    rw [h1]; omega

/-- Every element of the first pipeline's output array lies in the block of some point (all ten write back). -/
theorem cover0_3 (c : Dev nD) (i : ((cfg0.win 3).arr.view.loc (c.tc : Thread nD τ)).2.ty.Idx) :
    ∃ t : Fin cfg0.N, (cfg0.win 3).flush t = true ∧ i ∈ ((cfg0.win 3).blk t).view.set :=
  cover0_3_at i

/-- An index of the second pipeline's output array is in point t's block iff each coordinate is in the block's
    range on its axis. -/
theorem mem_blk1_11 (t : Fin cfg1.N) (i : S50000x64.Idx) :
    i ∈ ((cfg1.win 11).blk t).view.set ↔ ∀ a : Fin 2, win1_11.index t a * S5000x64.size a ≤ (i a).val
      ∧ (i a).val < win1_11.index t a * S5000x64.size a + S5000x64.size a := by
  show i ∈ ((View.whole main_v24).slice (win1_11.rect t)).set ↔ _
  rw [View.set_slice_whole, Rect.mem_set_unit]
  exact Iff.rfl

/-- Row i of the second pipeline's output array lies in the block of point 20 + i / 5000. -/
theorem cover1_11_at (i : S50000x64.Idx) :
    ∃ t : Fin cfg1.N, (cfg1.win 11).flush t = true ∧ i ∈ ((cfg1.win 11).blk t).view.set := by
  have hi0 : (i 0).val < 50000 := ValueIdx.idx2_lt0 i
  have hi1 : (i 1).val < 64 := ValueIdx.idx2_lt1 i
  let t : Fin cfg1.N := ⟨20 + (i 0).val / 5000, by rw [show cfg1.N = 30 from N_1]; omega⟩
  have h20 : 20 ≤ t.val := Nat.le_add_right _ _
  have h0 : win1_11.index t (0 : Fin 2) = t.val - 20 := (congrFun (index1_11 t) 0).trans (if_pos h20)
  have h1 : win1_11.index t (1 : Fin 2) = 0 := congrFun (index1_11 t) 1
  have htv : t.val - 20 = (i 0).val / 5000 := Nat.add_sub_cancel_left 20 ((i 0).val / 5000)
  refine ⟨t, (flush1_11 t).mpr h20, ?_⟩
  rw [mem_blk1_11]
  intro a
  match a with
  | ⟨0, _⟩ =>
    show win1_11.index t (0 : Fin 2) * 5000 ≤ (i 0).val ∧ (i 0).val < win1_11.index t (0 : Fin 2) * 5000 + 5000
    rw [h0, htv]; omega
  | ⟨1, _⟩ =>
    show win1_11.index t (1 : Fin 2) * 64 ≤ (i 1).val ∧ (i 1).val < win1_11.index t (1 : Fin 2) * 64 + 64
    rw [h1]; omega

/-- Every element of the second pipeline's output array lies in the block of some point of phase 2. -/
theorem cover1_11 (c : Dev nD) (i : ((cfg1.win 11).arr.view.loc (c.tc : Thread nD τ)).2.ty.Idx) :
    ∃ t : Fin cfg1.N, (cfg1.win 11).flush t = true ∧ i ∈ ((cfg1.win 11).blk t).view.set :=
  cover1_11_at i

end Cert.Kernel.Fr

end
-- ==== Proof.FrK.Inv1.lean ====
/-
  The second pipeline's proof data (any float instance). Between points the five scratch buffers hold: the conv
  cache, whose first min(n, 10) row-block slices are the conv blocks; from point 1 on the running sum after
  min(n, 10) blocks; from point 11 on the shift and the running sum of squares after min(n - 10, 10) blocks; from
  point 21 on the inverse deviation. After the body the eleven input windows hold their blocks, and at the points
  of phase 2 the output window holds the output block of the point's row block.
-/
import proofs.«407117_j28578712387660_3_alg».proof.Proof.FrK.Bridge
import proofs.«407117_j28578712387660_3_alg».proof.Proof.FrK.RunBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Pure

variable (V : (c : Dev nD) → (b : Ref sig .tc) → Buf (Elt F) ((c : Thread nD τ).loc b))

/-! ## The arrays the region finds, and the kernel's quantities of them -/

abbrev AGG (c : Dev nD) : Vec F S50000x64 .f32 := V c main_v18
abbrev CNT (c : Dev nD) : Vec F S50000x1 .f32 := V c main_v23
abbrev HH (c : Dev nD) : Vec F S50000x64 .f32 := V c main_v4
abbrev WL (c : Dev nD) : Vec F S64x64 .f32 := V c main_v1
abbrev BL (c : Dev nD) : Vec F S64 .f32 := V c main_arg5
abbrev WR (c : Dev nD) : Vec F S64x64 .f32 := V c main_v2
abbrev GMS (c : Dev nD) : Vec F S64 .f32 := V c main_arg9
abbrev GW (c : Dev nD) : Vec F S64 .f32 := V c main_arg7
abbrev GB (c : Dev nD) : Vec F S64 .f32 := V c main_arg8
abbrev WO (c : Dev nD) : Vec F S64x64 .f32 := V c main_v3
abbrev BO (c : Dev nD) : Vec F S64 .f32 := V c main_arg11

def cv (c : Dev nD) (j : Fin 10) : Vec F S5000x64 .f32 := convBlk (AGG V c) (CNT V c) (HH V c) (WL V c) (BL V c) (WR V c) j
def sm (c : Dev nD) (n : Nat) (hn : n ≤ 10) : Vec F S1x64 .f32 := sumAt (AGG V c) (CNT V c) (HH V c) (WL V c) (BL V c) (WR V c) n hn
def sh (c : Dev nD) : Vec F S1x64 .f32 := shift (AGG V c) (CNT V c) (HH V c) (WL V c) (BL V c) (WR V c) (GMS V c)
def sq (c : Dev nD) (n : Nat) (hn : n ≤ 10) : Vec F S1x64 .f32 := sqAt (AGG V c) (CNT V c) (HH V c) (WL V c) (BL V c) (WR V c) (GMS V c) n hn
def iv (c : Dev nD) : Vec F S1x64 .f32 := invStd (AGG V c) (CNT V c) (HH V c) (WL V c) (BL V c) (WR V c) (GMS V c)
def ob (c : Dev nD) (j : Fin 10) : Vec F S5000x64 .f32 :=
  outBlk (AGG V c) (CNT V c) (HH V c) (WL V c) (BL V c) (WR V c) (GMS V c) (GW V c) (GB V c) (WO V c) (BO V c) j

theorem sm_succ (c : Dev nD) (n : Nat) (hn : n + 1 ≤ 10) :
    sm V c (n + 1) hn = k1_pay4 (blk (AGG V c) ⟨n, hn⟩) (blk (CNT V c) ⟨n, hn⟩) (WL V c) (BL V c) (blk (HH V c) ⟨n, hn⟩) (WR V c) (sm V c n (Nat.le_of_succ_le hn)) := rfl
theorem sm_zero (c : Dev nD) : sm V c 0 (Nat.zero_le _) = k1_pay1 := rfl
theorem sq_succ (c : Dev nD) (n : Nat) (hn : n + 1 ≤ 10) :
    sq V c (n + 1) hn = k1_pay7 (cv V c ⟨n, hn⟩) (sh V c) (sq V c n (Nat.le_of_succ_le hn)) := rfl
theorem sq_zero (c : Dev nD) : sq V c 0 (Nat.zero_le _) = k1_pay6 := rfl
theorem cv_def (c : Dev nD) (j : Fin 10) :
    cv V c j = k1_pay3 (blk (AGG V c) j) (blk (CNT V c) j) (WL V c) (BL V c) (blk (HH V c) j) (WR V c) := rfl
theorem sh_def (c : Dev nD) : sh V c = k1_pay5 (sm V c 10 (Nat.le_refl _)) (GMS V c) := rfl
theorem iv_def (c : Dev nD) : iv V c = k1_pay8 (sq V c 10 (Nat.le_refl _)) := rfl
theorem ob_def (c : Dev nD) (j : Fin 10) :
    ob V c j = k1_pay9 (cv V c j) (sh V c) (iv V c) (GW V c) (GB V c) (WO V c) (BO V c) := rfl

/-! ## The conv cache's row-block slices -/

/-- Row-block slice j of the conv cache. -/
abbrev rectJ (j : Fin 10) : Rect S50000x64 :=
  Rect.unit (s := S50000x64) ![5000 * j.val, 0] S5000x64.size (fun a => by
    match a with
    | ⟨0, _⟩ => show 5000 * j.val + 5000 ≤ 50000; have := j.isLt; omega
    | ⟨1, _⟩ => show 0 + 64 ≤ 64; omega)

theorem unit_congr {S : Shape} {off off' size : Fin S.rank → Nat} (h : off = off') (inb : ∀ a, off a + size a ≤ S.size a)
    (inb' : ∀ a, off' a + size a ≤ S.size a) : Rect.unit off size inb = Rect.unit off' size inb' := by
  subst h; rfl

theorem rect1_eq (t : Fin cfg1.N) (h : c2 (grid1.coords t)) : rect1 (grid1.coords t) h = rectJ (jOf t) :=
  unit_congr (off1_eq t) _ _
theorem rect2_eq (t : Fin cfg1.N) (h : c4 (grid1.coords t)) : rect2 (grid1.coords t) h = rectJ (jOf t) :=
  unit_congr (off2_eq t) _ _
theorem rect3_eq (t : Fin cfg1.N) (h : c6 (grid1.coords t)) : rect3 (grid1.coords t) h = rectJ (jOf t) :=
  unit_congr (off3_eq t) _ _

/-! ## What the scratch buffers hold before point n -/

/-- The running sums at equal step counts are equal, whatever the proofs of the bound. -/
theorem sm_congr (c : Dev nD) {a b : Nat} (h : a = b) (ha : a ≤ 10) (hb : b ≤ 10) : sm V c a ha = sm V c b hb := by
  subst h; rfl
theorem sq_congr (c : Dev nD) {a b : Nat} (h : a = b) (ha : a ≤ 10) (hb : b ≤ 10) : sq V c a ha = sq V c b hb := by
  subst h; rfl

/-- Row-block slice j lies wholly above slice n when j < n: rows 5000 j … 5000 j + 4999 are below row 5000 n. -/
theorem rectJ_idx_not_mem {j n : Fin 10} (hlt : j.val < n.val) (x : (rectJ j).shape.Idx) : (rectJ j).idx x ∉ (rectJ n).set := by
  intro hmem
  have hb := (Rect.mem_set_unit.mp hmem) ⟨0, Nat.zero_lt_two⟩
  have hx : (x ⟨0, Nat.zero_lt_two⟩).val < 5000 := (x ⟨0, Nat.zero_lt_two⟩).isLt
  have h1 : 5000 * n.val ≤ 5000 * j.val + 1 * (x ⟨0, Nat.zero_lt_two⟩).val := hb.1
  omega

structure Inv (c : Dev nD) (n : Nat) (s14 : Vec F S50000x64 .f32) (s15 s16 s17 s18 : Vec F S1x64 .f32) : Prop where
  conv : ∀ j : Fin 10, j.val < n → View.ld s14 (rectJ j) = cv V c j
  sum : 1 ≤ n → s15 = sm V c (min n 10) (Nat.min_le_right _ _)
  shift : 11 ≤ n → s17 = sh V c
  sqs : 11 ≤ n → s16 = sq V c (min (n - 10) 10) (Nat.min_le_right _ _)
  inv : 21 ≤ n → s18 = iv V c

theorem Inv.zero (c : Dev nD) (s14 : Vec F S50000x64 .f32) (s15 s16 s17 s18 : Vec F S1x64 .f32) : Inv V c 0 s14 s15 s16 s17 s18 :=
  ⟨fun j h => absurd h (Nat.not_lt_zero _), fun h => absurd h (by omega), fun h => absurd h (by omega), fun h => absurd h (by omega), fun h => absurd h (by omega)⟩

/-- A point of phase 0 (n < 10): slice n of the conv cache now holds conv block n, every other row is kept, and the
    running sum has taken block n in. -/
theorem Inv.step0 (c : Dev nD) (n : Nat) (hn : n < 10) {s14 s14' : Vec F S50000x64 .f32} {s15 s15' s16 s17 s18 : Vec F S1x64 .f32}
    (h : Inv V c n s14 s15 s16 s17 s18)
    (h14 : View.ld s14' (rectJ ⟨n, hn⟩) = cv V c ⟨n, hn⟩ ∧ ∀ y, y ∉ (rectJ ⟨n, hn⟩).set → s14' y = s14 y)
    (h15 : s15' = sm V c (n + 1) hn) : Inv V c (n + 1) s14' s15' s16 s17 s18 := by
  refine ⟨fun j hj => ?_, fun _ => ?_, fun h11 => absurd h11 (by omega), fun h11 => absurd h11 (by omega),
    fun h21 => absurd h21 (by omega)⟩
  · rcases Nat.lt_succ_iff_lt_or_eq.mp hj with hlt | heq
    · refine Eq.trans ?_ (h.conv j hlt)
      funext x
      exact h14.2 _ (rectJ_idx_not_mem (n := ⟨n, hn⟩) hlt x)
    · have hj' : j = ⟨n, hn⟩ := Fin.ext heq
      subst hj'
      exact h14.1
  · rw [h15]
    exact sm_congr V c (by omega) _ _

/-- Point 10: the shift is formed and the running sum of squares has taken block 0 in. -/
theorem Inv.step10 (c : Dev nD) {s14 : Vec F S50000x64 .f32} {s15 s16 s16' s17 s17' s18 : Vec F S1x64 .f32}
    (h : Inv V c 10 s14 s15 s16 s17 s18) (h17 : s17' = sh V c) (h16 : s16' = sq V c 1 (by omega)) :
    Inv V c 11 s14 s15 s16' s17' s18 := by
  refine ⟨fun j _ => h.conv j j.isLt, fun _ => ?_, fun _ => h17, fun _ => ?_, fun h21 => absurd h21 (by omega)⟩
  · rw [h.sum (by omega)]
    exact sm_congr V c (by omega) _ _
  · rw [h16]
    exact sq_congr V c (by omega) _ _

/-- A later point of phase 1 (10 < n < 20): the running sum of squares has taken block n - 10 in. -/
theorem Inv.step1 (c : Dev nD) (n : Nat) (h10 : 10 < n) (h20 : n < 20) {s14 : Vec F S50000x64 .f32} {s15 s16 s16' s17 s18 : Vec F S1x64 .f32}
    (h : Inv V c n s14 s15 s16 s17 s18) (h16 : s16' = sq V c (n - 10 + 1) (by omega)) :
    Inv V c (n + 1) s14 s15 s16' s17 s18 := by
  refine ⟨fun j _ => h.conv j (by have := j.isLt; omega), fun _ => ?_, fun _ => h.shift (by omega), fun _ => ?_,
    fun h21 => absurd h21 (by omega)⟩
  · rw [h.sum (by omega)]
    exact sm_congr V c (by omega) _ _
  · rw [h16]
    exact sq_congr V c (by omega) _ _

/-- Point 20: the inverse deviation is formed. -/
theorem Inv.step20 (c : Dev nD) {s14 : Vec F S50000x64 .f32} {s15 s16 s17 s18 s18' : Vec F S1x64 .f32}
    (h : Inv V c 20 s14 s15 s16 s17 s18) (h18 : s18' = iv V c) : Inv V c 21 s14 s15 s16 s17 s18' := by
  refine ⟨fun j _ => h.conv j (by have := j.isLt; omega), fun _ => ?_, fun _ => h.shift (by omega), fun _ => ?_, fun _ => h18⟩
  · rw [h.sum (by omega)]
    exact sm_congr V c (by omega) _ _
  · rw [h.sqs (by omega)]
    exact sq_congr V c (by omega) _ _

/-- A later point of phase 2: nothing of the scratch changes. -/
theorem Inv.step2 (c : Dev nD) (n : Nat) (h20 : 20 < n) {s14 : Vec F S50000x64 .f32} {s15 s16 s17 s18 : Vec F S1x64 .f32}
    (h : Inv V c n s14 s15 s16 s17 s18) : Inv V c (n + 1) s14 s15 s16 s17 s18 := by
  refine ⟨fun j _ => h.conv j (by have := j.isLt; omega), fun _ => ?_, fun _ => h.shift (by omega), fun _ => ?_,
    fun _ => h.inv (by omega)⟩
  · rw [h.sum (by omega)]
    exact sm_congr V c (by omega) _ _
  · rw [h.sqs (by omega)]
    exact sq_congr V c (by omega) _ _

end Cert.Kernel.Fr

end
-- ==== Proof.FrK.Dat1.lean ====
/-
  The second pipeline's invariant and proof data (any float instance): between points the scratch buffers at
  contents that satisfy the point's invariant, the first pipeline's staging buffers at anything, the generator
  register at some state; after the body each input window at its block and, in phase 2, the output window at the
  output block of the point's row block.
-/
import proofs.«407117_j28578712387660_3_alg».proof.Proof.FrK.Inv1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Pure

variable (V : (c : Dev nD) → (b : Ref sig .tc) → Buf (Elt F) ((c : Thread nD τ).loc b))

/-! ## Each input window's current buffer holds its block at every point, fetched there or not -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! ## The scratch operands -/

abbrev scM0 : Memref sig .tc .vmem S50000x64 .f32 := Memref.whole cc1_scratch0
abbrev scM1 : Memref sig .tc .vmem S1x64 .f32 := Memref.whole cc1_scratch1
abbrev scM2 : Memref sig .tc .vmem S1x64 .f32 := Memref.whole cc1_scratch2
abbrev scM3 : Memref sig .tc .vmem S1x64 .f32 := Memref.whole cc1_scratch3
abbrev scM4 : Memref sig .tc .vmem S1x64 .f32 := Memref.whole cc1_scratch4

/-- The scoped buffers the second pipeline neither stages nor uses: the first pipeline's staging buffers, at anything. -/
def others (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f))

/-- The region invariant before point n. -/
def PhiS (c : Dev nD) (n : Nat) : sProp 𝕄 :=
  iprop(∃ (s14 : Vec F S50000x64 .f32) (s15 s16 s17 s18 : Vec F S1x64 .f32), ⌜Inv V c n s14 s15 s16 s17 s18⌝
    ∗ others c
    ∗ owns (c : Thread nD τ) scM0 fullShare s14 ∗ owns (c : Thread nD τ) scM1 fullShare s15 ∗ owns (c : Thread nD τ) scM2 fullShare s16
    ∗ owns (c : Thread nD τ) scM3 fullShare s17 ∗ owns (c : Thread nD τ) scM4 fullShare s18
    ∗ ∃ r, prngReg c r)

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => ob V c (jOf t)
  Φ t := PhiS V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = ob V c (jOf t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

theorem Phi_castSucc (c : Dev nD) (t : Fin cfg1.N) : (dat1 V c).Φ t.castSucc = PhiS V c t.val := by
  dsimp only [dat1]; simp only [Fin.coe_castSucc]
theorem Phi_succ (c : Dev nD) (t : Fin cfg1.N) : (dat1 V c).Φ t.succ = PhiS V c (t.val + 1) := rfl

end Cert.Kernel.Fr

end
-- ==== Proof.FrK.Chain.lean ====
/-
  The contents of the core's unscoped buffers at each boundary of @main (any float instance): at launch; after the
  four transposes; after the first pipeline (its output array at what its write-backs leave); after the gather, the
  two scatter-adds and their index preparation; after the second pipeline.
-/
import proofs.«407117_j28578712387660_3_alg».proof.Proof.FrK.Region0
import proofs.«407117_j28578712387660_3_alg».proof.Proof.FrK.Dat1
import proofs.«407117_j28578712387660_3_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev W0 : Dev nD → Valuation τ sig (Elt F) := fun c b => m (c, b)
/-- After the four transposes (the first pipeline's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first pipeline's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host operations between the pipelines (the second pipeline's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second pipeline's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A host stretch leaves a buffer it does not write as it was. -/
theorem W1_of (c : Dev nD) (r : Ref sig .tc) (h : r ∉ hostOps0_W) : W1 m c (Proc.devRef .tc r) = W0 m c (Proc.devRef .tc r) :=
  StableHlo.after_of_writes_sub hostOps0 _ hostOps0_writes h
theorem W3_of (c : Dev nD) (r : Ref sig .tc) (h : r ∉ hostOps1_W) : W3 m c (Proc.devRef .tc r) = W2 m c (Proc.devRef .tc r) :=
  StableHlo.after_of_writes_sub hostOps1 _ hostOps1_writes h

end Cert.Kernel.Fr

end
-- ==== Proof.FrK.RunA.lean ====
/-
  The second kernel's body at the first point (phase 0, block 0): the running sum is reset, then the point's conv
  block is stored into slice 0 of the conv cache and its column sums are added to the fresh running sum.
-/
import proofs.«407117_j28578712387660_3_alg».proof.Proof.FrK.RunBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runA (c : Dev nD) (i : grid1.Coords)
    (a2 : Memref sig .tc .vmem S5000x64 .f32) (h2 : a2.IsWhole) (a3 : Memref sig .tc .vmem S5000x1 .f32) (h3 : a3.IsWhole)
    (a4 : Memref sig .tc .vmem S5000x64 .f32) (h4 : a4.IsWhole) (a5 : Memref sig .tc .vmem S64x64 .f32) (h5 : a5.IsWhole)
    (a6 : Memref sig .tc .vmem S64 .f32) (h6 : a6.IsWhole) (a7 : Memref sig .tc .vmem S64x64 .f32) (h7 : a7.IsWhole)
    (a8 : Memref sig .tc .vmem S64 .f32) (h8 : a8.IsWhole) (a9 : Memref sig .tc .vmem S64 .f32) (h9 : a9.IsWhole)
    (a10 : Memref sig .tc .vmem S64 .f32) (h10 : a10.IsWhole) (a11 : Memref sig .tc .vmem S64x64 .f32) (h11 : a11.IsWhole)
    (a12 : Memref sig .tc .vmem S64 .f32) (h12 : a12.IsWhole) (a13 : Memref sig .tc .vmem S5000x64 .f32) (h13 : a13.IsWhole)
    (a14 : Memref sig .tc .vmem S50000x64 .f32) (h14 : a14.IsWhole) (a15 : Memref sig .tc .vmem S1x64 .f32) (h15 : a15.IsWhole)
    (a16 : Memref sig .tc .vmem S1x64 .f32) (h16 : a16.IsWhole) (a17 : Memref sig .tc .vmem S1x64 .f32) (h17 : a17.IsWhole)
    (a18 : Memref sig .tc .vmem S1x64 .f32) (h18 : a18.IsWhole)
    (hc1 : c1 i) (hc2 : c2 i) (hc3 : ¬c3 i) (hc4 : ¬c4 i) (hc5 : ¬c5 i) (hc6 : ¬c6 i)
    (x2 : Vec F S5000x64 .f32) (x3 : Vec F S5000x1 .f32) (x4 : Vec F S5000x64 .f32) (x5 : Vec F S64x64 .f32) (x6 : Vec F S64 .f32) (x7 : Vec F S64x64 .f32) (s14 : Vec F S50000x64 .f32)
    (E : Set ℕ) (K : PUnit → sProp 𝕄) :
    iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a14 fullShare s14
        ∗ (∃ d, owns (c : Thread nD τ) a15 fullShare d)
        ∗ (iprop(owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ (∃ s14' : Vec F S50000x64 .f32, ⌜View.ld s14' (rect1 i hc2) = k1_pay3 x2 x3 x5 x6 x4 x7 ∧ ∀ y, y ∉ (rect1 i hc2).set → s14' y = s14 y⌝
            ∗ owns (c : Thread nD τ) a14 fullShare s14')
            ∗ owns (c : Thread nD τ) a15 fullShare (k1_pay4 x2 x3 x5 x6 x4 x7 k1_pay1)) -∗ K ⟨⟩))
      ⊢ wp frame (wpE (defs₀ (F := F)) Variants.none c none) E
          (cc1__fused_kernel i a2 h2 a3 h3 a4 h4 a5 h5 a6 h6 a7 h7 a8 h8 a9 h9 a10 h10 a11 h11 a12 h12 a13 h13 a14 h14 a15 h15 a16 h16 a17 h17 a18 h18) K := by
  simp only [cc1__fused_kernel_eq_skeleton]; unfold cc1__fused_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f14, %hf14, H14⟩, ⟨%d15, %f15, -, H15⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h14.eq_unread hf14
  sl_exec (disch := first | exact hc1 | exact hc2 | exact hc3 | exact hc4 | exact hc5 | exact hc6)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H14]
  · iexists _; isplitr
    swap
    · iexists _; isplitr
      swap; · iexact H14
      ipureintro; rfl
    · ipureintro
      simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
      View.ld_unit_zero (S := S5000x64) z2, View.ld_unit_zero (S := S5000x1) z2, View.ld_unit_zero (S := S64x64) z2, View.ld_unit_zero (S := S64) z1, View.ld_unit_zero (S := S1x64) z2]
      exact ⟨ld_read_writes_self _ _ _ _, fun y hy => (read_writes_off _ _ _ _ y hy).trans (congrFun (h14.read_unread s14) y)⟩
  iexists _; isplitr
  swap; · iexact H15
  ipureintro
  (try sl_unfold_words)
  simp only [View.readCov_unit_zero (S := S1x64) _ z2, View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
    View.ld_unit_zero (S := S5000x64) z2, View.ld_unit_zero (S := S5000x1) z2, View.ld_unit_zero (S := S64x64) z2, View.ld_unit_zero (S := S64) z1, View.ld_unit_zero (S := S1x64) z2]
  exact read_writes_whole _ _ z2 _ _ _

end Cert.Kernel.Fr

end
-- ==== Proof.FrK.RunB.lean ====
/-
  The second kernel's body at a later point of phase 0: the point's conv block is stored into its slice of the conv
  cache, every other row kept, and its column sums are added to the running sum.
-/
import proofs.«407117_j28578712387660_3_alg».proof.Proof.FrK.RunBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runB (c : Dev nD) (i : grid1.Coords)
    (a2 : Memref sig .tc .vmem S5000x64 .f32) (h2 : a2.IsWhole) (a3 : Memref sig .tc .vmem S5000x1 .f32) (h3 : a3.IsWhole)
    (a4 : Memref sig .tc .vmem S5000x64 .f32) (h4 : a4.IsWhole) (a5 : Memref sig .tc .vmem S64x64 .f32) (h5 : a5.IsWhole)
    (a6 : Memref sig .tc .vmem S64 .f32) (h6 : a6.IsWhole) (a7 : Memref sig .tc .vmem S64x64 .f32) (h7 : a7.IsWhole)
    (a8 : Memref sig .tc .vmem S64 .f32) (h8 : a8.IsWhole) (a9 : Memref sig .tc .vmem S64 .f32) (h9 : a9.IsWhole)
    (a10 : Memref sig .tc .vmem S64 .f32) (h10 : a10.IsWhole) (a11 : Memref sig .tc .vmem S64x64 .f32) (h11 : a11.IsWhole)
    (a12 : Memref sig .tc .vmem S64 .f32) (h12 : a12.IsWhole) (a13 : Memref sig .tc .vmem S5000x64 .f32) (h13 : a13.IsWhole)
    (a14 : Memref sig .tc .vmem S50000x64 .f32) (h14 : a14.IsWhole) (a15 : Memref sig .tc .vmem S1x64 .f32) (h15 : a15.IsWhole)
    (a16 : Memref sig .tc .vmem S1x64 .f32) (h16 : a16.IsWhole) (a17 : Memref sig .tc .vmem S1x64 .f32) (h17 : a17.IsWhole)
    (a18 : Memref sig .tc .vmem S1x64 .f32) (h18 : a18.IsWhole)
    (hc1 : ¬c1 i) (hc2 : c2 i) (hc3 : ¬c3 i) (hc4 : ¬c4 i) (hc5 : ¬c5 i) (hc6 : ¬c6 i)
    (x2 : Vec F S5000x64 .f32) (x3 : Vec F S5000x1 .f32) (x4 : Vec F S5000x64 .f32) (x5 : Vec F S64x64 .f32) (x6 : Vec F S64 .f32) (x7 : Vec F S64x64 .f32) (s14 : Vec F S50000x64 .f32) (s15 : Vec F S1x64 .f32)
    (E : Set ℕ) (K : PUnit → sProp 𝕄) :
    iprop(owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a14 fullShare s14
        ∗ owns (c : Thread nD τ) a15 fullShare s15
        ∗ (iprop(owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ (∃ s14' : Vec F S50000x64 .f32, ⌜View.ld s14' (rect1 i hc2) = k1_pay3 x2 x3 x5 x6 x4 x7 ∧ ∀ y, y ∉ (rect1 i hc2).set → s14' y = s14 y⌝
            ∗ owns (c : Thread nD τ) a14 fullShare s14')
            ∗ owns (c : Thread nD τ) a15 fullShare (k1_pay4 x2 x3 x5 x6 x4 x7 s15)) -∗ K ⟨⟩))
      ⊢ wp frame (wpE (defs₀ (F := F)) Variants.none c none) E
          (cc1__fused_kernel i a2 h2 a3 h3 a4 h4 a5 h5 a6 h6 a7 h7 a8 h8 a9 h9 a10 h10 a11 h11 a12 h12 a13 h13 a14 h14 a15 h15 a16 h16 a17 h17 a18 h18) K := by
  simp only [cc1__fused_kernel_eq_skeleton]; unfold cc1__fused_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f14, %hf14, H14⟩, ⟨%f15, %hf15, H15⟩, Hk⟩
  obtain rfl := h2.eq_unread hf2; obtain rfl := h3.eq_unread hf3; obtain rfl := h4.eq_unread hf4; obtain rfl := h5.eq_unread hf5; obtain rfl := h6.eq_unread hf6; obtain rfl := h7.eq_unread hf7; obtain rfl := h14.eq_unread hf14; obtain rfl := h15.eq_unread hf15
  sl_exec (disch := first | exact hc1 | exact hc2 | exact hc3 | exact hc4 | exact hc5 | exact hc6)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H14]
  · iexists _; isplitr
    swap
    · iexists _; isplitr
      swap; · iexact H14
      ipureintro; rfl
    · ipureintro
      simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
      View.ld_unit_zero (S := S5000x64) z2, View.ld_unit_zero (S := S5000x1) z2, View.ld_unit_zero (S := S64x64) z2, View.ld_unit_zero (S := S64) z1, View.ld_unit_zero (S := S1x64) z2]
      exact ⟨ld_read_writes_self _ _ _ _, fun y hy => (read_writes_off _ _ _ _ y hy).trans (congrFun (h14.read_unread s14) y)⟩
  iexists _; isplitr
  swap; · iexact H15
  ipureintro
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
    View.ld_unit_zero (S := S5000x64) z2, View.ld_unit_zero (S := S5000x1) z2, View.ld_unit_zero (S := S64x64) z2, View.ld_unit_zero (S := S64) z1, View.ld_unit_zero (S := S1x64) z2]
  exact read_writes_whole _ _ z2 _ _ _

end Cert.Kernel.Fr

end
-- ==== Proof.FrK.RunC.lean ====
/-
  The second kernel's body at the first point of phase 1: the shift gms · (sum / 50000) is formed from the finished
  running sum, the running sum of squares is reset, and slice 0 of the conv cache, centred, adds its squares' column sums.
-/
import proofs.«407117_j28578712387660_3_alg».proof.Proof.FrK.RunBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runC (c : Dev nD) (i : grid1.Coords)
    (a2 : Memref sig .tc .vmem S5000x64 .f32) (h2 : a2.IsWhole) (a3 : Memref sig .tc .vmem S5000x1 .f32) (h3 : a3.IsWhole)
    (a4 : Memref sig .tc .vmem S5000x64 .f32) (h4 : a4.IsWhole) (a5 : Memref sig .tc .vmem S64x64 .f32) (h5 : a5.IsWhole)
    (a6 : Memref sig .tc .vmem S64 .f32) (h6 : a6.IsWhole) (a7 : Memref sig .tc .vmem S64x64 .f32) (h7 : a7.IsWhole)
    (a8 : Memref sig .tc .vmem S64 .f32) (h8 : a8.IsWhole) (a9 : Memref sig .tc .vmem S64 .f32) (h9 : a9.IsWhole)
    (a10 : Memref sig .tc .vmem S64 .f32) (h10 : a10.IsWhole) (a11 : Memref sig .tc .vmem S64x64 .f32) (h11 : a11.IsWhole)
    (a12 : Memref sig .tc .vmem S64 .f32) (h12 : a12.IsWhole) (a13 : Memref sig .tc .vmem S5000x64 .f32) (h13 : a13.IsWhole)
    (a14 : Memref sig .tc .vmem S50000x64 .f32) (h14 : a14.IsWhole) (a15 : Memref sig .tc .vmem S1x64 .f32) (h15 : a15.IsWhole)
    (a16 : Memref sig .tc .vmem S1x64 .f32) (h16 : a16.IsWhole) (a17 : Memref sig .tc .vmem S1x64 .f32) (h17 : a17.IsWhole)
    (a18 : Memref sig .tc .vmem S1x64 .f32) (h18 : a18.IsWhole)
    (hc1 : ¬c1 i) (hc2 : ¬c2 i) (hc3 : c3 i) (hc4 : c4 i) (hc5 : ¬c5 i) (hc6 : ¬c6 i)
    (x8 : Vec F S64 .f32) (s14 : Vec F S50000x64 .f32) (s15 : Vec F S1x64 .f32)
    (E : Set ℕ) (K : PUnit → sProp 𝕄) :
    iprop(owns (c : Thread nD τ) a8 fullShare x8
        ∗ owns (c : Thread nD τ) a14 fullShare s14
        ∗ owns (c : Thread nD τ) a15 fullShare s15
        ∗ (∃ d, owns (c : Thread nD τ) a16 fullShare d)
        ∗ (∃ d, owns (c : Thread nD τ) a17 fullShare d)
        ∗ (iprop(owns (c : Thread nD τ) a8 fullShare x8
            ∗ owns (c : Thread nD τ) a14 fullShare s14
            ∗ owns (c : Thread nD τ) a15 fullShare s15
            ∗ owns (c : Thread nD τ) a17 fullShare (k1_pay5 s15 x8)
            ∗ owns (c : Thread nD τ) a16 fullShare (k1_pay7 (View.ld s14 (rect2 i hc4)) (k1_pay5 s15 x8) k1_pay6)) -∗ K ⟨⟩))
      ⊢ wp frame (wpE (defs₀ (F := F)) Variants.none c none) E
          (cc1__fused_kernel i a2 h2 a3 h3 a4 h4 a5 h5 a6 h6 a7 h7 a8 h8 a9 h9 a10 h10 a11 h11 a12 h12 a13 h13 a14 h14 a15 h15 a16 h16 a17 h17 a18 h18) K := by
  simp only [cc1__fused_kernel_eq_skeleton]; unfold cc1__fused_kernel_skel
  unfold owns
  iintro ⟨⟨%f8, %hf8, H8⟩, ⟨%f14, %hf14, H14⟩, ⟨%f15, %hf15, H15⟩, ⟨%d16, %f16, -, H16⟩, ⟨%d17, %f17, -, H17⟩, Hk⟩
  obtain rfl := h8.eq_unread hf8; obtain rfl := h14.eq_unread hf14; obtain rfl := h15.eq_unread hf15
  sl_exec (disch := first | exact hc1 | exact hc2 | exact hc3 | exact hc4 | exact hc5 | exact hc6)
  sl_step
  iapply Hk
  isplitl [H8]
  · iexists _; isplitr; · ipureintro; exact h8.read_unread _
    iexact H8
  isplitl [H14]
  · iexists _; isplitr; · ipureintro; exact h14.read_unread _
    iexact H14
  isplitl [H15]
  · iexists _; isplitr; · ipureintro; exact h15.read_unread _
    iexact H15
  isplitl [H17]
  · iexists _; isplitr
    swap; · iexact H17
    ipureintro
    (try sl_unfold_words)
    simp only [View.readCov_unit_zero (S := S1x64) _ z2, View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
      View.ld_unit_zero (S := S5000x64) z2, View.ld_unit_zero (S := S5000x1) z2, View.ld_unit_zero (S := S64x64) z2, View.ld_unit_zero (S := S64) z1, View.ld_unit_zero (S := S1x64) z2]
    exact read_writes_whole _ _ z2 _ _ _
  iexists _; isplitr
  swap; · iexact H16
  ipureintro
  (try sl_unfold_words)
  simp only [View.readCov_unit_zero (S := S1x64) _ z2, View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
    View.ld_unit_zero (S := S5000x64) z2, View.ld_unit_zero (S := S5000x1) z2, View.ld_unit_zero (S := S64x64) z2, View.ld_unit_zero (S := S64) z1, View.ld_unit_zero (S := S1x64) z2]
  exact read_writes_whole _ _ z2 _ _ _

end Cert.Kernel.Fr

end
-- ==== Proof.FrK.RunD.lean ====
/-
  The second kernel's body at a later point of phase 1: the point's slice of the conv cache, centred by the shift,
  adds its squares' column sums to the running sum of squares.
-/
import proofs.«407117_j28578712387660_3_alg».proof.Proof.FrK.RunBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runD (c : Dev nD) (i : grid1.Coords)
    (a2 : Memref sig .tc .vmem S5000x64 .f32) (h2 : a2.IsWhole) (a3 : Memref sig .tc .vmem S5000x1 .f32) (h3 : a3.IsWhole)
    (a4 : Memref sig .tc .vmem S5000x64 .f32) (h4 : a4.IsWhole) (a5 : Memref sig .tc .vmem S64x64 .f32) (h5 : a5.IsWhole)
    (a6 : Memref sig .tc .vmem S64 .f32) (h6 : a6.IsWhole) (a7 : Memref sig .tc .vmem S64x64 .f32) (h7 : a7.IsWhole)
    (a8 : Memref sig .tc .vmem S64 .f32) (h8 : a8.IsWhole) (a9 : Memref sig .tc .vmem S64 .f32) (h9 : a9.IsWhole)
    (a10 : Memref sig .tc .vmem S64 .f32) (h10 : a10.IsWhole) (a11 : Memref sig .tc .vmem S64x64 .f32) (h11 : a11.IsWhole)
    (a12 : Memref sig .tc .vmem S64 .f32) (h12 : a12.IsWhole) (a13 : Memref sig .tc .vmem S5000x64 .f32) (h13 : a13.IsWhole)
    (a14 : Memref sig .tc .vmem S50000x64 .f32) (h14 : a14.IsWhole) (a15 : Memref sig .tc .vmem S1x64 .f32) (h15 : a15.IsWhole)
    (a16 : Memref sig .tc .vmem S1x64 .f32) (h16 : a16.IsWhole) (a17 : Memref sig .tc .vmem S1x64 .f32) (h17 : a17.IsWhole)
    (a18 : Memref sig .tc .vmem S1x64 .f32) (h18 : a18.IsWhole)
    (hc1 : ¬c1 i) (hc2 : ¬c2 i) (hc3 : ¬c3 i) (hc4 : c4 i) (hc5 : ¬c5 i) (hc6 : ¬c6 i)
    (s14 : Vec F S50000x64 .f32) (s16 : Vec F S1x64 .f32) (s17 : Vec F S1x64 .f32)
    (E : Set ℕ) (K : PUnit → sProp 𝕄) :
    iprop(owns (c : Thread nD τ) a14 fullShare s14
        ∗ owns (c : Thread nD τ) a16 fullShare s16
        ∗ owns (c : Thread nD τ) a17 fullShare s17
        ∗ (iprop(owns (c : Thread nD τ) a14 fullShare s14
            ∗ owns (c : Thread nD τ) a17 fullShare s17
            ∗ owns (c : Thread nD τ) a16 fullShare (k1_pay7 (View.ld s14 (rect2 i hc4)) s17 s16)) -∗ K ⟨⟩))
      ⊢ wp frame (wpE (defs₀ (F := F)) Variants.none c none) E
          (cc1__fused_kernel i a2 h2 a3 h3 a4 h4 a5 h5 a6 h6 a7 h7 a8 h8 a9 h9 a10 h10 a11 h11 a12 h12 a13 h13 a14 h14 a15 h15 a16 h16 a17 h17 a18 h18) K := by
  simp only [cc1__fused_kernel_eq_skeleton]; unfold cc1__fused_kernel_skel
  unfold owns
  iintro ⟨⟨%f14, %hf14, H14⟩, ⟨%f16, %hf16, H16⟩, ⟨%f17, %hf17, H17⟩, Hk⟩
  obtain rfl := h14.eq_unread hf14; obtain rfl := h16.eq_unread hf16; obtain rfl := h17.eq_unread hf17
  sl_exec (disch := first | exact hc1 | exact hc2 | exact hc3 | exact hc4 | exact hc5 | exact hc6)
  sl_step
  iapply Hk
  isplitl [H14]
  · iexists _; isplitr; · ipureintro; exact h14.read_unread _
    iexact H14
  isplitl [H17]
  · iexists _; isplitr; · ipureintro; exact h17.read_unread _
    iexact H17
  iexists _; isplitr
  swap; · iexact H16
  ipureintro
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
    View.ld_unit_zero (S := S5000x64) z2, View.ld_unit_zero (S := S5000x1) z2, View.ld_unit_zero (S := S64x64) z2, View.ld_unit_zero (S := S64) z1, View.ld_unit_zero (S := S1x64) z2]
  exact read_writes_whole _ _ z2 _ _ _

end Cert.Kernel.Fr

end
-- ==== Proof.FrK.RunE.lean ====
/-
  The second kernel's body at the first point of phase 2: 1 / sqrt(sumsq / 50000 + eps) is formed from the finished
  running sum of squares, and slice 0 of the conv cache is normalised, activated and projected into the output block.
-/
import proofs.«407117_j28578712387660_3_alg».proof.Proof.FrK.RunBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runE (c : Dev nD) (i : grid1.Coords)
    (a2 : Memref sig .tc .vmem S5000x64 .f32) (h2 : a2.IsWhole) (a3 : Memref sig .tc .vmem S5000x1 .f32) (h3 : a3.IsWhole)
    (a4 : Memref sig .tc .vmem S5000x64 .f32) (h4 : a4.IsWhole) (a5 : Memref sig .tc .vmem S64x64 .f32) (h5 : a5.IsWhole)
    (a6 : Memref sig .tc .vmem S64 .f32) (h6 : a6.IsWhole) (a7 : Memref sig .tc .vmem S64x64 .f32) (h7 : a7.IsWhole)
    (a8 : Memref sig .tc .vmem S64 .f32) (h8 : a8.IsWhole) (a9 : Memref sig .tc .vmem S64 .f32) (h9 : a9.IsWhole)
    (a10 : Memref sig .tc .vmem S64 .f32) (h10 : a10.IsWhole) (a11 : Memref sig .tc .vmem S64x64 .f32) (h11 : a11.IsWhole)
    (a12 : Memref sig .tc .vmem S64 .f32) (h12 : a12.IsWhole) (a13 : Memref sig .tc .vmem S5000x64 .f32) (h13 : a13.IsWhole)
    (a14 : Memref sig .tc .vmem S50000x64 .f32) (h14 : a14.IsWhole) (a15 : Memref sig .tc .vmem S1x64 .f32) (h15 : a15.IsWhole)
    (a16 : Memref sig .tc .vmem S1x64 .f32) (h16 : a16.IsWhole) (a17 : Memref sig .tc .vmem S1x64 .f32) (h17 : a17.IsWhole)
    (a18 : Memref sig .tc .vmem S1x64 .f32) (h18 : a18.IsWhole)
    (hc1 : ¬c1 i) (hc2 : ¬c2 i) (hc3 : ¬c3 i) (hc4 : ¬c4 i) (hc5 : c5 i) (hc6 : c6 i)
    (x9 : Vec F S64 .f32) (x10 : Vec F S64 .f32) (x11 : Vec F S64x64 .f32) (x12 : Vec F S64 .f32) (s14 : Vec F S50000x64 .f32) (s16 : Vec F S1x64 .f32) (s17 : Vec F S1x64 .f32)
    (E : Set ℕ) (K : PUnit → sProp 𝕄) :
    iprop(owns (c : Thread nD τ) a9 fullShare x9
        ∗ owns (c : Thread nD τ) a10 fullShare x10
        ∗ owns (c : Thread nD τ) a11 fullShare x11
        ∗ owns (c : Thread nD τ) a12 fullShare x12
        ∗ owns (c : Thread nD τ) a14 fullShare s14
        ∗ owns (c : Thread nD τ) a16 fullShare s16
        ∗ owns (c : Thread nD τ) a17 fullShare s17
        ∗ (∃ d, owns (c : Thread nD τ) a13 fullShare d)
        ∗ (∃ d, owns (c : Thread nD τ) a18 fullShare d)
        ∗ (iprop(owns (c : Thread nD τ) a9 fullShare x9
            ∗ owns (c : Thread nD τ) a10 fullShare x10
            ∗ owns (c : Thread nD τ) a11 fullShare x11
            ∗ owns (c : Thread nD τ) a12 fullShare x12
            ∗ owns (c : Thread nD τ) a14 fullShare s14
            ∗ owns (c : Thread nD τ) a16 fullShare s16
            ∗ owns (c : Thread nD τ) a17 fullShare s17
            ∗ owns (c : Thread nD τ) a18 fullShare (k1_pay8 s16)
            ∗ owns (c : Thread nD τ) a13 fullShare (k1_pay9 (View.ld s14 (rect3 i hc6)) s17 (k1_pay8 s16) x9 x10 x11 x12)) -∗ K ⟨⟩))
      ⊢ wp frame (wpE (defs₀ (F := F)) Variants.none c none) E
          (cc1__fused_kernel i a2 h2 a3 h3 a4 h4 a5 h5 a6 h6 a7 h7 a8 h8 a9 h9 a10 h10 a11 h11 a12 h12 a13 h13 a14 h14 a15 h15 a16 h16 a17 h17 a18 h18) K := by
  simp only [cc1__fused_kernel_eq_skeleton]; unfold cc1__fused_kernel_skel
  unfold owns
  iintro ⟨⟨%f9, %hf9, H9⟩, ⟨%f10, %hf10, H10⟩, ⟨%f11, %hf11, H11⟩, ⟨%f12, %hf12, H12⟩, ⟨%f14, %hf14, H14⟩, ⟨%f16, %hf16, H16⟩, ⟨%f17, %hf17, H17⟩, ⟨%d13, %f13, -, H13⟩, ⟨%d18, %f18, -, H18⟩, Hk⟩
  obtain rfl := h9.eq_unread hf9; obtain rfl := h10.eq_unread hf10; obtain rfl := h11.eq_unread hf11; obtain rfl := h12.eq_unread hf12; obtain rfl := h14.eq_unread hf14; obtain rfl := h16.eq_unread hf16; obtain rfl := h17.eq_unread hf17
  sl_exec (disch := first | exact hc1 | exact hc2 | exact hc3 | exact hc4 | exact hc5 | exact hc6)
  sl_step
  iapply Hk
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; · ipureintro; exact h12.read_unread _
    iexact H12
  isplitl [H14]
  · iexists _; isplitr; · ipureintro; exact h14.read_unread _
    iexact H14
  isplitl [H16]
  · iexists _; isplitr; · ipureintro; exact h16.read_unread _
    iexact H16
  isplitl [H17]
  · iexists _; isplitr; · ipureintro; exact h17.read_unread _
    iexact H17
  isplitl [H18]
  · iexists _; isplitr
    swap; · iexact H18
    ipureintro
    (try sl_unfold_words)
    simp only [View.readCov_unit_zero (S := S1x64) _ z2, View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
      View.ld_unit_zero (S := S5000x64) z2, View.ld_unit_zero (S := S5000x1) z2, View.ld_unit_zero (S := S64x64) z2, View.ld_unit_zero (S := S64) z1, View.ld_unit_zero (S := S1x64) z2]
    exact read_writes_whole _ _ z2 _ _ _
  iexists _; isplitr
  swap; · iexact H13
  ipureintro
  (try sl_unfold_words)
  simp only [View.readCov_unit_zero (S := S1x64) _ z2, View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
    View.ld_unit_zero (S := S5000x64) z2, View.ld_unit_zero (S := S5000x1) z2, View.ld_unit_zero (S := S64x64) z2, View.ld_unit_zero (S := S64) z1, View.ld_unit_zero (S := S1x64) z2]
  exact read_writes_whole _ _ z2 _ _ _

end Cert.Kernel.Fr

end
-- ==== Proof.FrK.RunF.lean ====
/-
  The second kernel's body at a later point of phase 2: the point's slice of the conv cache is normalised, activated
  and projected into the output block.
-/
import proofs.«407117_j28578712387660_3_alg».proof.Proof.FrK.RunBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
theorem runF (c : Dev nD) (i : grid1.Coords)
    (a2 : Memref sig .tc .vmem S5000x64 .f32) (h2 : a2.IsWhole) (a3 : Memref sig .tc .vmem S5000x1 .f32) (h3 : a3.IsWhole)
    (a4 : Memref sig .tc .vmem S5000x64 .f32) (h4 : a4.IsWhole) (a5 : Memref sig .tc .vmem S64x64 .f32) (h5 : a5.IsWhole)
    (a6 : Memref sig .tc .vmem S64 .f32) (h6 : a6.IsWhole) (a7 : Memref sig .tc .vmem S64x64 .f32) (h7 : a7.IsWhole)
    (a8 : Memref sig .tc .vmem S64 .f32) (h8 : a8.IsWhole) (a9 : Memref sig .tc .vmem S64 .f32) (h9 : a9.IsWhole)
    (a10 : Memref sig .tc .vmem S64 .f32) (h10 : a10.IsWhole) (a11 : Memref sig .tc .vmem S64x64 .f32) (h11 : a11.IsWhole)
    (a12 : Memref sig .tc .vmem S64 .f32) (h12 : a12.IsWhole) (a13 : Memref sig .tc .vmem S5000x64 .f32) (h13 : a13.IsWhole)
    (a14 : Memref sig .tc .vmem S50000x64 .f32) (h14 : a14.IsWhole) (a15 : Memref sig .tc .vmem S1x64 .f32) (h15 : a15.IsWhole)
    (a16 : Memref sig .tc .vmem S1x64 .f32) (h16 : a16.IsWhole) (a17 : Memref sig .tc .vmem S1x64 .f32) (h17 : a17.IsWhole)
    (a18 : Memref sig .tc .vmem S1x64 .f32) (h18 : a18.IsWhole)
    (hc1 : ¬c1 i) (hc2 : ¬c2 i) (hc3 : ¬c3 i) (hc4 : ¬c4 i) (hc5 : ¬c5 i) (hc6 : c6 i)
    (x9 : Vec F S64 .f32) (x10 : Vec F S64 .f32) (x11 : Vec F S64x64 .f32) (x12 : Vec F S64 .f32) (s14 : Vec F S50000x64 .f32) (s17 : Vec F S1x64 .f32) (s18 : Vec F S1x64 .f32)
    (E : Set ℕ) (K : PUnit → sProp 𝕄) :
    iprop(owns (c : Thread nD τ) a9 fullShare x9
        ∗ owns (c : Thread nD τ) a10 fullShare x10
        ∗ owns (c : Thread nD τ) a11 fullShare x11
        ∗ owns (c : Thread nD τ) a12 fullShare x12
        ∗ owns (c : Thread nD τ) a14 fullShare s14
        ∗ owns (c : Thread nD τ) a17 fullShare s17
        ∗ owns (c : Thread nD τ) a18 fullShare s18
        ∗ (∃ d, owns (c : Thread nD τ) a13 fullShare d)
        ∗ (iprop(owns (c : Thread nD τ) a9 fullShare x9
            ∗ owns (c : Thread nD τ) a10 fullShare x10
            ∗ owns (c : Thread nD τ) a11 fullShare x11
            ∗ owns (c : Thread nD τ) a12 fullShare x12
            ∗ owns (c : Thread nD τ) a14 fullShare s14
            ∗ owns (c : Thread nD τ) a17 fullShare s17
            ∗ owns (c : Thread nD τ) a18 fullShare s18
            ∗ owns (c : Thread nD τ) a13 fullShare (k1_pay9 (View.ld s14 (rect3 i hc6)) s17 s18 x9 x10 x11 x12)) -∗ K ⟨⟩))
      ⊢ wp frame (wpE (defs₀ (F := F)) Variants.none c none) E
          (cc1__fused_kernel i a2 h2 a3 h3 a4 h4 a5 h5 a6 h6 a7 h7 a8 h8 a9 h9 a10 h10 a11 h11 a12 h12 a13 h13 a14 h14 a15 h15 a16 h16 a17 h17 a18 h18) K := by
  simp only [cc1__fused_kernel_eq_skeleton]; unfold cc1__fused_kernel_skel
  unfold owns
  iintro ⟨⟨%f9, %hf9, H9⟩, ⟨%f10, %hf10, H10⟩, ⟨%f11, %hf11, H11⟩, ⟨%f12, %hf12, H12⟩, ⟨%f14, %hf14, H14⟩, ⟨%f17, %hf17, H17⟩, ⟨%f18, %hf18, H18⟩, ⟨%d13, %f13, -, H13⟩, Hk⟩
  obtain rfl := h9.eq_unread hf9; obtain rfl := h10.eq_unread hf10; obtain rfl := h11.eq_unread hf11; obtain rfl := h12.eq_unread hf12; obtain rfl := h14.eq_unread hf14; obtain rfl := h17.eq_unread hf17; obtain rfl := h18.eq_unread hf18
  sl_exec (disch := first | exact hc1 | exact hc2 | exact hc3 | exact hc4 | exact hc5 | exact hc6)
  sl_step
  iapply Hk
  isplitl [H9]
  · iexists _; isplitr; · ipureintro; exact h9.read_unread _
    iexact H9
  isplitl [H10]
  · iexists _; isplitr; · ipureintro; exact h10.read_unread _
    iexact H10
  isplitl [H11]
  · iexists _; isplitr; · ipureintro; exact h11.read_unread _
    iexact H11
  isplitl [H12]
  · iexists _; isplitr; · ipureintro; exact h12.read_unread _
    iexact H12
  isplitl [H14]
  · iexists _; isplitr; · ipureintro; exact h14.read_unread _
    iexact H14
  isplitl [H17]
  · iexists _; isplitr; · ipureintro; exact h17.read_unread _
    iexact H17
  isplitl [H18]
  · iexists _; isplitr; · ipureintro; exact h18.read_unread _
    iexact H18
  iexists _; isplitr
  swap; · iexact H13
  ipureintro
  simp only [View.readAt_eq_ld, h2.read_unread, h3.read_unread, h4.read_unread, h5.read_unread, h6.read_unread, h7.read_unread, h8.read_unread, h9.read_unread, h10.read_unread, h11.read_unread, h12.read_unread, h14.read_unread, h15.read_unread, h16.read_unread, h17.read_unread, h18.read_unread,
    View.ld_unit_zero (S := S5000x64) z2, View.ld_unit_zero (S := S5000x1) z2, View.ld_unit_zero (S := S64x64) z2, View.ld_unit_zero (S := S64) z1, View.ld_unit_zero (S := S1x64) z2]
  exact read_writes_whole _ _ z2 _ _ _

end Cert.Kernel.Fr

end
-- ==== Proof.FrK.Region1.lean ====
/-
  The second pipeline's body obligation (any float instance): at every point of the 3 × 10 grid the body, handed
  the invariant before the point and the windows' buffers at their blocks, runs to the invariant after the point
  and the windows' buffers as the proof data names them — by the six cases of the body's branches.
-/
import proofs.«407117_j28578712387660_3_alg».proof.Proof.FrK.Dat1
import proofs.«407117_j28578712387660_3_alg».proof.Proof.FrK.RunA
import proofs.«407117_j28578712387660_3_alg».proof.Proof.FrK.RunB
import proofs.«407117_j28578712387660_3_alg».proof.Proof.FrK.RunC
import proofs.«407117_j28578712387660_3_alg».proof.Proof.FrK.RunD
import proofs.«407117_j28578712387660_3_alg».proof.Proof.FrK.RunE
import proofs.«407117_j28578712387660_3_alg».proof.Proof.FrK.RunF

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Cert.Kernel.Pure

variable (V : (c : Dev nD) → (b : Ref sig .tc) → Buf (Elt F) ((c : Thread nD τ).loc b))

/-! ## The payloads of the windows' blocks are the named quantities -/

theorem jOf_lt (t : Fin cfg1.N) (ht : t.val < 10) : jOf t = ⟨t.val, ht⟩ := Fin.ext (Nat.mod_eq_of_lt ht)
theorem jOf_sub (t : Fin cfg1.N) (k : Nat) (h1 : k ≤ t.val) (h2 : t.val - k < 10) (hk : k % 10 = 0) : jOf t = ⟨t.val - k, h2⟩ :=
  Fin.ext (by show t.val % 10 = t.val - k; omega)

theorem pay3_eq (c : Dev nD) (t : Fin cfg1.N) (ht : t.val < 10) :
    k1_pay3 (iblk1 V c 0 t) (iblk1 V c 1 t) (iblk1 V c 3 t) (iblk1 V c 4 t) (iblk1 V c 2 t) (iblk1 V c 5 t) = cv V c (jOf t) := by
  rw [iblk1_0 V c t ht, iblk1_1 V c t ht, iblk1_2 V c t ht, iblk1_3 V c t, iblk1_4 V c t, iblk1_5 V c t]; rfl

theorem pay4_eq (c : Dev nD) (t : Fin cfg1.N) (ht : t.val < 10) :
    k1_pay4 (iblk1 V c 0 t) (iblk1 V c 1 t) (iblk1 V c 3 t) (iblk1 V c 4 t) (iblk1 V c 2 t) (iblk1 V c 5 t) (sm V c t.val (Nat.le_of_lt ht))
      = sm V c (t.val + 1) ht := by
  rw [iblk1_0 V c t ht, iblk1_1 V c t ht, iblk1_2 V c t ht, iblk1_3 V c t, iblk1_4 V c t, iblk1_5 V c t, jOf_lt t ht]; rfl

theorem pay5_eq (c : Dev nD) (t : Fin cfg1.N) : k1_pay5 (sm V c 10 (Nat.le_refl _)) (iblk1 V c 6 t) = sh V c := by
  rw [iblk1_6 V c t]; rfl

theorem pay9_eq (c : Dev nD) (t : Fin cfg1.N) (j : Fin 10) :
    k1_pay9 (cv V c j) (sh V c) (iv V c) (iblk1 V c 7 t) (iblk1 V c 8 t) (iblk1 V c 9 t) (iblk1 V c 10 t) = ob V c j := by
  rw [iblk1_7 V c t, iblk1_8 V c t, iblk1_9 V c t, iblk1_10 V c t]; rfl

/-! ## The body's rectangles are the row-block slices -/

theorem ld_unit_congr {S : Shape} {e : EltTy} (X : S.Idx → Elt F e) {off off' size : Fin S.rank → Nat} (h : off = off')
    (inb : ∀ a, off a + size a ≤ S.size a) (inb' : ∀ a, off' a + size a ≤ S.size a) :
    (View.ld X (Rect.unit off size inb) : (⟨S.rank, size⟩ : Shape).Idx → Elt F e) = View.ld X (Rect.unit off' size inb') := by
  subst h; rfl
theorem set_unit_congr {S : Shape} {off off' size : Fin S.rank → Nat} (h : off = off')
    (inb : ∀ a, off a + size a ≤ S.size a) (inb' : ∀ a, off' a + size a ≤ S.size a) :
    (Rect.unit (s := S) off size inb).set = (Rect.unit off' size inb').set := by
  subst h; rfl

theorem ld_rect2 (t : Fin cfg1.N) (h : c4 (grid1.coords t)) (s : Vec F S50000x64 .f32) :
    (View.ld s (rect2 (grid1.coords t) h) : Vec F S5000x64 .f32) = View.ld s (rectJ (jOf t)) :=
  ld_unit_congr s (off2_eq t) _ _
theorem ld_rect3 (t : Fin cfg1.N) (h : c6 (grid1.coords t)) (s : Vec F S50000x64 .f32) :
    (View.ld s (rect3 (grid1.coords t) h) : Vec F S5000x64 .f32) = View.ld s (rectJ (jOf t)) :=
  ld_unit_congr s (off3_eq t) _ _

/-- What a phase-0 store leaves, restated at the row-block slice of the point. -/
theorem store_facts (t : Fin cfg1.N) (k2 : c2 (grid1.coords t)) (ht : t.val < 10) {s14 s14' : Vec F S50000x64 .f32} {P : Vec F S5000x64 .f32}
    (h14 : View.ld s14' (rect1 (grid1.coords t) k2) = P ∧ ∀ y, y ∉ (rect1 (grid1.coords t) k2).set → s14' y = s14 y) :
    View.ld s14' (rectJ ⟨t.val, ht⟩) = P ∧ ∀ y, y ∉ (rectJ ⟨t.val, ht⟩).set → s14' y = s14 y := by
  rw [← jOf_lt t ht]
  have e : (rect1 (grid1.coords t) k2).set = (rectJ (jOf t)).set := set_unit_congr (off1_eq t) _ _
  exact ⟨(ld_unit_congr s14' (off1_eq t) _ _).symm.trans h14.1, fun y hy => h14.2 y (by rw [e]; exact hy)⟩

/-! ## The output window is idle and not written back before phase 2, live in it -/

theorem noflush (t : Fin cfg1.N) (h : t.val < 20) : (cfg1.win 11).flush t = false :=
  Bool.eq_false_iff.mpr fun hf => absurd ((flush1_11 t).mp hf) (by omega)
theorem notidle (t : Fin cfg1.N) (h : 20 ≤ t.val) : cfg1.idle 11 (grid1.coords t) = false :=
  Bool.eq_false_iff.mpr fun hi => absurd ((idle1_11 t).mp hi) (by omega)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t
    ∗ (dat1 V c).leavesExact 9 t
    ∗ (dat1 V c).leavesExact 10 t
    ∗ (dat1 V c).leavesExact 11 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).owesAt () t.succ = (dat1 V c).owesAt () t.castSucc from rfl, Phi_succ, Phi_castSucc]
  rw [show (dat1 V c).leavesExact 0 t = owns (c : Thread nD τ) (st1_0 t) fullShare ((dat1 V c).after 0 t) from rfl, after1_0]
  rw [show (dat1 V c).leavesExact 1 t = owns (c : Thread nD τ) (st1_1 t) fullShare ((dat1 V c).after 1 t) from rfl, after1_1]
  rw [show (dat1 V c).leavesExact 2 t = owns (c : Thread nD τ) (st1_2 t) fullShare ((dat1 V c).after 2 t) from rfl, after1_2]
  rw [show (dat1 V c).leavesExact 3 t = owns (c : Thread nD τ) (st1_3 t) fullShare ((dat1 V c).after 3 t) from rfl, after1_3]
  rw [show (dat1 V c).leavesExact 4 t = owns (c : Thread nD τ) (st1_4 t) fullShare ((dat1 V c).after 4 t) from rfl, after1_4]
  rw [show (dat1 V c).leavesExact 5 t = owns (c : Thread nD τ) (st1_5 t) fullShare ((dat1 V c).after 5 t) from rfl, after1_5]
  rw [show (dat1 V c).leavesExact 6 t = owns (c : Thread nD τ) (st1_6 t) fullShare ((dat1 V c).after 6 t) from rfl, after1_6]
  rw [show (dat1 V c).leavesExact 7 t = owns (c : Thread nD τ) (st1_7 t) fullShare ((dat1 V c).after 7 t) from rfl, after1_7]
  rw [show (dat1 V c).leavesExact 8 t = owns (c : Thread nD τ) (st1_8 t) fullShare ((dat1 V c).after 8 t) from rfl, after1_8]
  rw [show (dat1 V c).leavesExact 9 t = owns (c : Thread nD τ) (st1_9 t) fullShare ((dat1 V c).after 9 t) from rfl, after1_9]
  rw [show (dat1 V c).leavesExact 10 t = owns (c : Thread nD τ) (st1_10 t) fullShare ((dat1 V c).after 10 t) from rfl, after1_10]
  have hN : t.val < 30 := lt_of_lt_of_eq t.isLt (show cfg1.N = 30 from N_1)
  unfold PhiS
  by_cases h0 : t.val = 0
  · -- the first point
    have k1 : c1 (grid1.coords t) := (hc1 t).mpr (by omega)
    have k2 : c2 (grid1.coords t) := (hc2 t).mpr (by omega)
    have k3 : ¬c3 (grid1.coords t) := fun h => by have := (hc3 t).mp h; omega
    have k4 : ¬c4 (grid1.coords t) := fun h => by have := (hc4 t).mp h; omega
    have k5 : ¬c5 (grid1.coords t) := fun h => by have := (hc5 t).mp h; omega
    have k6 : ¬c6 (grid1.coords t) := fun h => by have := (hc6 t).mp h; omega
    rw [Dat.leavesExact_idle (dat1 V c) 11 t ((idle1_11 t).mpr (by omega)) (noflush t (by omega))]
    iintro ⟨⟨%s14, %s15, %s16, %s17, %s18, %hI, HO, S0, S1, S2, S3, S4, Hg⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
    iapply (runA c (grid1.coords t) _ _ _ _ _ _ _ _ _ _ _ _ _ _ _ _ _ _ _ _ _ _ _ _ _ _ _ _ _ _ _ _ _ _ k1 k2 k3 k4 k5 k6 (iblk1 V c 0 t) (iblk1 V c 1 t) (iblk1 V c 2 t) (iblk1 V c 3 t) (iblk1 V c 4 t) (iblk1 V c 5 t) s14 Set.univ _)
    isplitl [W0]; · iexact W0
    isplitl [W1]; · iexact W1
    isplitl [W2]; · iexact W2
    isplitl [W3]; · iexact W3
    isplitl [W4]; · iexact W4
    isplitl [W5]; · iexact W5
    isplitl [S0]; · iexact S0
    isplitl [S1]; · iexists _; iexact S1
    iintro ⟨W0, W1, W2, W3, W4, W5, ⟨%s14', %h14, S0⟩, S1⟩
    isplitl [HO S0 S1 S2 S3 S4 Hg]
    · iexists s14', (k1_pay4 (iblk1 V c 0 t) (iblk1 V c 1 t) (iblk1 V c 3 t) (iblk1 V c 4 t) (iblk1 V c 2 t) (iblk1 V c 5 t) k1_pay1), s16, s17, s18; isplitr
      · ipureintro
        have ht : t.val < 10 := by omega
        refine Inv.step0 V c t.val ht hI ?_ ?_
        · have h14' := store_facts t k2 ht h14
          rw [pay3_eq V c t ht, jOf_lt t ht] at h14'; exact h14'
        · have e := pay4_eq V c t ht
          rw [← e]; congr 1
          exact (sm_zero V c).symm.trans (sm_congr V c h0.symm _ _)
      isplitl [HO]; · iexact HO
      isplitl [S0]; · iexact S0
      isplitl [S1]; · iexact S1
      isplitl [S2]; · iexact S2
      isplitl [S3]; · iexact S3
      isplitl [S4]; · iexact S4
      iexact Hg
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexists _; iexact W11
  by_cases h10 : t.val < 10
  · -- a later point of phase 0
    have k1 : ¬c1 (grid1.coords t) := fun h => by have := (hc1 t).mp h; omega
    have k2 : c2 (grid1.coords t) := (hc2 t).mpr (by omega)
    have k3 : ¬c3 (grid1.coords t) := fun h => by have := (hc3 t).mp h; omega
    have k4 : ¬c4 (grid1.coords t) := fun h => by have := (hc4 t).mp h; omega
    have k5 : ¬c5 (grid1.coords t) := fun h => by have := (hc5 t).mp h; omega
    have k6 : ¬c6 (grid1.coords t) := fun h => by have := (hc6 t).mp h; omega
    rw [Dat.leavesExact_idle (dat1 V c) 11 t ((idle1_11 t).mpr (by omega)) (noflush t (by omega))]
    iintro ⟨⟨%s14, %s15, %s16, %s17, %s18, %hI, HO, S0, S1, S2, S3, S4, Hg⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
    iapply (runB c (grid1.coords t) _ _ _ _ _ _ _ _ _ _ _ _ _ _ _ _ _ _ _ _ _ _ _ _ _ _ _ _ _ _ _ _ _ _ k1 k2 k3 k4 k5 k6 (iblk1 V c 0 t) (iblk1 V c 1 t) (iblk1 V c 2 t) (iblk1 V c 3 t) (iblk1 V c 4 t) (iblk1 V c 5 t) s14 s15 Set.univ _)
    isplitl [W0]; · iexact W0
    isplitl [W1]; · iexact W1
    isplitl [W2]; · iexact W2
    isplitl [W3]; · iexact W3
    isplitl [W4]; · iexact W4
    isplitl [W5]; · iexact W5
    isplitl [S0]; · iexact S0
    isplitl [S1]; · iexact S1
    iintro ⟨W0, W1, W2, W3, W4, W5, ⟨%s14', %h14, S0⟩, S1⟩
    isplitl [HO S0 S1 S2 S3 S4 Hg]
    · iexists s14', (k1_pay4 (iblk1 V c 0 t) (iblk1 V c 1 t) (iblk1 V c 3 t) (iblk1 V c 4 t) (iblk1 V c 2 t) (iblk1 V c 5 t) s15), s16, s17, s18; isplitr
      · ipureintro
        refine Inv.step0 V c t.val h10 hI ?_ ?_
        · have h14' := store_facts t k2 h10 h14
          rw [pay3_eq V c t h10, jOf_lt t h10] at h14'; exact h14'
        · have e := pay4_eq V c t h10
          rw [← e]; congr 1
          exact (hI.sum (by omega)).trans (sm_congr V c (by omega) _ _)
      isplitl [HO]; · iexact HO
      isplitl [S0]; · iexact S0
      isplitl [S1]; · iexact S1
      isplitl [S2]; · iexact S2
      isplitl [S3]; · iexact S3
      isplitl [S4]; · iexact S4
      iexact Hg
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexists _; iexact W11
  by_cases h10' : t.val = 10
  · -- the first point of phase 1
    have k1 : ¬c1 (grid1.coords t) := fun h => by have := (hc1 t).mp h; omega
    have k2 : ¬c2 (grid1.coords t) := fun h => by have := (hc2 t).mp h; omega
    have k3 : c3 (grid1.coords t) := (hc3 t).mpr (by omega)
    have k4 : c4 (grid1.coords t) := (hc4 t).mpr (by omega)
    have k5 : ¬c5 (grid1.coords t) := fun h => by have := (hc5 t).mp h; omega
    have k6 : ¬c6 (grid1.coords t) := fun h => by have := (hc6 t).mp h; omega
    rw [Dat.leavesExact_idle (dat1 V c) 11 t ((idle1_11 t).mpr (by omega)) (noflush t (by omega))]
    iintro ⟨⟨%s14, %s15, %s16, %s17, %s18, %hI, HO, S0, S1, S2, S3, S4, Hg⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
    iapply (runC c (grid1.coords t) _ _ _ _ _ _ _ _ _ _ _ _ _ _ _ _ _ _ _ _ _ _ _ _ _ _ _ _ _ _ _ _ _ _ k1 k2 k3 k4 k5 k6 (iblk1 V c 6 t) s14 s15 Set.univ _)
    isplitl [W6]; · iexact W6
    isplitl [S0]; · iexact S0
    isplitl [S1]; · iexact S1
    isplitl [S2]; · iexists _; iexact S2
    isplitl [S3]; · iexists _; iexact S3
    iintro ⟨W6, S0, S1, S3, S2⟩
    isplitl [HO S0 S1 S2 S3 S4 Hg]
    · iexists s14, s15, (k1_pay7 (View.ld s14 (rect2 (grid1.coords t) k4)) (k1_pay5 s15 (iblk1 V c 6 t)) k1_pay6), (k1_pay5 s15 (iblk1 V c 6 t)), s18; isplitr
      · ipureintro
        have e15 : s15 = sm V c 10 (Nat.le_refl _) := (hI.sum (by omega)).trans (sm_congr V c (by omega) _ _)
        have hI' : Inv V c 10 s14 s15 s16 s17 s18 := by rw [← h10']; exact hI
        rw [show t.val + 1 = 11 by omega]
        refine Inv.step10 V c hI' ?_ ?_
        · rw [e15]; exact pay5_eq V c t
        · rw [e15, pay5_eq V c t, ld_rect2 t k4 s14, hI.conv (jOf t) (by show t.val % 10 < t.val; omega)]
          have hj : jOf t = ⟨0, by omega⟩ := Fin.ext (by show t.val % 10 = 0; omega)
          rw [hj]; rfl
      isplitl [HO]; · iexact HO
      isplitl [S0]; · iexact S0
      isplitl [S1]; · iexact S1
      isplitl [S2]; · iexact S2
      isplitl [S3]; · iexact S3
      isplitl [S4]; · iexact S4
      iexact Hg
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexists _; iexact W11
  by_cases h20 : t.val < 20
  · -- a later point of phase 1
    have k1 : ¬c1 (grid1.coords t) := fun h => by have := (hc1 t).mp h; omega
    have k2 : ¬c2 (grid1.coords t) := fun h => by have := (hc2 t).mp h; omega
    have k3 : ¬c3 (grid1.coords t) := fun h => by have := (hc3 t).mp h; omega
    have k4 : c4 (grid1.coords t) := (hc4 t).mpr (by omega)
    have k5 : ¬c5 (grid1.coords t) := fun h => by have := (hc5 t).mp h; omega
    have k6 : ¬c6 (grid1.coords t) := fun h => by have := (hc6 t).mp h; omega
    rw [Dat.leavesExact_idle (dat1 V c) 11 t ((idle1_11 t).mpr (by omega)) (noflush t (by omega))]
    iintro ⟨⟨%s14, %s15, %s16, %s17, %s18, %hI, HO, S0, S1, S2, S3, S4, Hg⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
    iapply (runD c (grid1.coords t) _ _ _ _ _ _ _ _ _ _ _ _ _ _ _ _ _ _ _ _ _ _ _ _ _ _ _ _ _ _ _ _ _ _ k1 k2 k3 k4 k5 k6 s14 s16 s17 Set.univ _)
    isplitl [S0]; · iexact S0
    isplitl [S2]; · iexact S2
    isplitl [S3]; · iexact S3
    iintro ⟨S0, S3, S2⟩
    isplitl [HO S0 S1 S2 S3 S4 Hg]
    · iexists s14, s15, (k1_pay7 (View.ld s14 (rect2 (grid1.coords t) k4)) s17 s16), s17, s18; isplitr
      · ipureintro
        refine Inv.step1 V c t.val (by omega) h20 hI ?_
        rw [ld_rect2 t k4 s14, hI.conv (jOf t) (by show t.val % 10 < t.val; omega), hI.shift (by omega), hI.sqs (by omega),
          sq_succ V c (t.val - 10) (by omega), jOf_sub t 10 (by omega) (by omega) rfl,
          sq_congr V c (show min (t.val - 10) 10 = t.val - 10 by omega) _ (by omega)]
      isplitl [HO]; · iexact HO
      isplitl [S0]; · iexact S0
      isplitl [S1]; · iexact S1
      isplitl [S2]; · iexact S2
      isplitl [S3]; · iexact S3
      isplitl [S4]; · iexact S4
      iexact Hg
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexists _; iexact W11
  by_cases h20' : t.val = 20
  · -- the first point of phase 2
    have k1 : ¬c1 (grid1.coords t) := fun h => by have := (hc1 t).mp h; omega
    have k2 : ¬c2 (grid1.coords t) := fun h => by have := (hc2 t).mp h; omega
    have k3 : ¬c3 (grid1.coords t) := fun h => by have := (hc3 t).mp h; omega
    have k4 : ¬c4 (grid1.coords t) := fun h => by have := (hc4 t).mp h; omega
    have k5 : c5 (grid1.coords t) := (hc5 t).mpr (by omega)
    have k6 : c6 (grid1.coords t) := (hc6 t).mpr (by omega)
    rw [show (dat1 V c).leavesExact 11 t = owns (c : Thread nD τ) (st1_11 t) fullShare ((dat1 V c).after 11 t) from by
      unfold Dat.leavesExact; rw [notidle t (by omega)], after1_11]
    iintro ⟨⟨%s14, %s15, %s16, %s17, %s18, %hI, HO, S0, S1, S2, S3, S4, Hg⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
    iapply (runE c (grid1.coords t) _ _ _ _ _ _ _ _ _ _ _ _ _ _ _ _ _ _ _ _ _ _ _ _ _ _ _ _ _ _ _ _ _ _ k1 k2 k3 k4 k5 k6 (iblk1 V c 7 t) (iblk1 V c 8 t) (iblk1 V c 9 t) (iblk1 V c 10 t) s14 s16 s17 Set.univ _)
    isplitl [W7]; · iexact W7
    isplitl [W8]; · iexact W8
    isplitl [W9]; · iexact W9
    isplitl [W10]; · iexact W10
    isplitl [S0]; · iexact S0
    isplitl [S2]; · iexact S2
    isplitl [S3]; · iexact S3
    isplitl [W11]; · iexists _; iexact W11
    isplitl [S4]; · iexists _; iexact S4
    iintro ⟨W7, W8, W9, W10, S0, S2, S3, S4, W11⟩
    have e18 : k1_pay8 s16 = iv V c := by
      rw [hI.sqs (by omega), iv_def V c, sq_congr V c (show min (t.val - 10) 10 = 10 by omega) _ (Nat.le_refl _)]
    have e13 : k1_pay9 (View.ld s14 (rect3 (grid1.coords t) k6)) s17 (k1_pay8 s16) (iblk1 V c 7 t) (iblk1 V c 8 t) (iblk1 V c 9 t) (iblk1 V c 10 t) = ob V c (jOf t) := by
      rw [e18, ld_rect3 t k6 s14, hI.conv (jOf t) (by show t.val % 10 < t.val; omega), hI.shift (by omega)]; exact pay9_eq V c t (jOf t)
    rw [e13]
    isplitl [HO S0 S1 S2 S3 S4 Hg]
    · iexists s14, s15, s16, s17, (k1_pay8 s16); isplitr
      · ipureintro
        have hI' : Inv V c 20 s14 s15 s16 s17 s18 := by rw [← h20']; exact hI
        rw [show t.val + 1 = 21 by omega]
        exact Inv.step20 V c hI' e18
      isplitl [HO]; · iexact HO
      isplitl [S0]; · iexact S0
      isplitl [S1]; · iexact S1
      isplitl [S2]; · iexact S2
      isplitl [S3]; · iexact S3
      isplitl [S4]; · iexact S4
      iexact Hg
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexact W11
  · -- a later point of phase 2
    have k1 : ¬c1 (grid1.coords t) := fun h => by have := (hc1 t).mp h; omega
    have k2 : ¬c2 (grid1.coords t) := fun h => by have := (hc2 t).mp h; omega
    have k3 : ¬c3 (grid1.coords t) := fun h => by have := (hc3 t).mp h; omega
    have k4 : ¬c4 (grid1.coords t) := fun h => by have := (hc4 t).mp h; omega
    have k5 : ¬c5 (grid1.coords t) := fun h => by have := (hc5 t).mp h; omega
    have k6 : c6 (grid1.coords t) := (hc6 t).mpr (by omega)
    rw [show (dat1 V c).leavesExact 11 t = owns (c : Thread nD τ) (st1_11 t) fullShare ((dat1 V c).after 11 t) from by
      unfold Dat.leavesExact; rw [notidle t (by omega)], after1_11]
    iintro ⟨⟨%s14, %s15, %s16, %s17, %s18, %hI, HO, S0, S1, S2, S3, S4, Hg⟩, Ho, ⟨%d0, W0⟩, ⟨%d1, W1⟩, ⟨%d2, W2⟩, ⟨%d3, W3⟩, ⟨%d4, W4⟩, ⟨%d5, W5⟩, ⟨%d6, W6⟩, ⟨%d7, W7⟩, ⟨%d8, W8⟩, ⟨%d9, W9⟩, ⟨%d10, W10⟩, ⟨%d11, W11⟩⟩
    iapply (runF c (grid1.coords t) _ _ _ _ _ _ _ _ _ _ _ _ _ _ _ _ _ _ _ _ _ _ _ _ _ _ _ _ _ _ _ _ _ _ k1 k2 k3 k4 k5 k6 (iblk1 V c 7 t) (iblk1 V c 8 t) (iblk1 V c 9 t) (iblk1 V c 10 t) s14 s17 s18 Set.univ _)
    isplitl [W7]; · iexact W7
    isplitl [W8]; · iexact W8
    isplitl [W9]; · iexact W9
    isplitl [W10]; · iexact W10
    isplitl [S0]; · iexact S0
    isplitl [S3]; · iexact S3
    isplitl [S4]; · iexact S4
    isplitl [W11]; · iexists _; iexact W11
    iintro ⟨W7, W8, W9, W10, S0, S3, S4, W11⟩
    have e13 : k1_pay9 (View.ld s14 (rect3 (grid1.coords t) k6)) s17 s18 (iblk1 V c 7 t) (iblk1 V c 8 t) (iblk1 V c 9 t) (iblk1 V c 10 t) = ob V c (jOf t) := by
      rw [ld_rect3 t k6 s14, hI.conv (jOf t) (by show t.val % 10 < t.val; omega), hI.shift (by omega), hI.inv (by omega)]; exact pay9_eq V c t (jOf t)
    rw [e13]
    isplitl [HO S0 S1 S2 S3 S4 Hg]
    · iexists s14, s15, s16, s17, s18; isplitr
      · ipureintro
        exact Inv.step2 V c t.val (by omega) hI
      isplitl [HO]; · iexact HO
      isplitl [S0]; · iexact S0
      isplitl [S1]; · iexact S1
      isplitl [S2]; · iexact S2
      isplitl [S3]; · iexact S3
      isplitl [S4]; · iexact S4
      iexact Hg
    isplitl [Ho]; · iexact Ho
    isplitl [W0]; · iexact W0
    isplitl [W1]; · iexact W1
    isplitl [W2]; · iexact W2
    isplitl [W3]; · iexact W3
    isplitl [W4]; · iexact W4
    isplitl [W5]; · iexact W5
    isplitl [W6]; · iexact W6
    isplitl [W7]; · iexact W7
    isplitl [W8]; · iexact W8
    isplitl [W9]; · iexact W9
    isplitl [W10]; · iexact W10
    iexact W11

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the two ends -/

/-- What the region is handed — the generator register and the scoped buffers it does not stage, at anything — is the
    invariant before the first point. -/
theorem PhiS_intro (c : Dev nD) :
    iprop((∃ r, prngReg c r) ∗ Pipeline.scopedRest (Ix := Unit) (Name := ℕ) (U := UR sig nD τ) (Lvl := ℕ) (Val := Elt F) spec1 c) ⊢ (PhiS V c 0 : sProp 𝕄) := by
  unfold PhiS others; rw [scopedRest1_eq]
  simp only [scM0, scM1, scM2, scM3, scM4, owns_whole]
  iintro ⟨Hp, A1, A2, A3, A4, A5, A6, ⟨%f0, S0⟩, ⟨%f1, S1⟩, ⟨%f2, S2⟩, ⟨%f3, S3⟩, ⟨%f4, S4⟩⟩
  iexists f0, f1, f2, f3, f4
  isplitr; · ipureintro; exact Inv.zero V c _ _ _ _ _
  isplitl [A1 A2 A3 A4 A5 A6]
  · isplitl [A1]; · iexact A1
    isplitl [A2]; · iexact A2
    isplitl [A3]; · iexact A3
    isplitl [A4]; · iexact A4
    isplitl [A5]; · iexact A5
    iexact A6
  isplitl [S0]; · iexact S0
  isplitl [S1]; · iexact S1
  isplitl [S2]; · iexact S2
  isplitl [S3]; · iexact S3
  isplitl [S4]; · iexact S4
  iexact Hp

/-- The invariant after any point gives them back, the scratch contents forgotten. -/
theorem PhiS_elim (c : Dev nD) (n : Nat) :
    (PhiS V c n : sProp 𝕄) ⊢ iprop((∃ r, prngReg c r) ∗ Pipeline.scopedRest (Ix := Unit) (Name := ℕ) (U := UR sig nD τ) (Lvl := ℕ) (Val := Elt F) spec1 c) := by
  unfold PhiS others; rw [scopedRest1_eq]
  simp only [scM0, scM1, scM2, scM3, scM4, owns_whole]
  iintro ⟨%s14, %s15, %s16, %s17, %s18, -, ⟨A1, A2, A3, A4, A5, A6⟩, S0, S1, S2, S3, S4, Hp⟩
  isplitl [Hp]; · iexact Hp
  isplitl [A1]; · iexact A1
  isplitl [A2]; · iexact A2
  isplitl [A3]; · iexact A3
  isplitl [A4]; · iexact A4
  isplitl [A5]; · iexact A5
  isplitl [A6]; · iexact A6
  isplitl [S0]; · iexists _; iexact S0
  isplitl [S1]; · iexists _; iexact S1
  isplitl [S2]; · iexists _; iexact S2
  isplitl [S3]; · iexists _; iexact S3
  iexists _; iexact S4

end Cert.Kernel.Fr

end
-- ==== Proof.FrK.Run.lean ====
/-
  The launch (any float instance): @main as its four segments — the transposes, the first pipeline, the host
  operations between, the second pipeline — over the thread state "every unscoped buffer at the boundary's
  contents, the generator register at some state, nothing owed". Every weakly fair execution terminates, and the
  final memory holds every unscoped buffer at the last boundary's contents.
-/
import proofs.«407117_j28578712387660_3_alg».proof.Proof.FrK.Chain
import proofs.«407117_j28578712387660_3_alg».proof.Proof.FrK.Region1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
abbrev Tₙ (c : Dev nD) : sProp 𝕄 := iprop(StableHlo.held (c : Thread nD τ) (Pipeline.ucRefs τ sig) (W4 m c) ∗ ∃ r, prngReg c r)

set_option backward.isDefEq.respectTransparency.types false in
/-- The first pipeline over the thread state: entered from every unscoped buffer at the boundary's contents,
    left at the next boundary's. Its arrays are split out of the unscoped buffers and put back at the exit
    contents; the generator register goes into the invariant and comes out; nothing is owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second pipeline over the thread state: entered from every unscoped buffer at the boundary's contents,
    left at the next boundary's. Its arrays are split out of the unscoped buffers and put back at the exit
    contents; the generator register goes into the invariant and comes out; nothing is owed; no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = PhiS (V3 m) c 0 from rfl]
    iintro ⟨Hp, -, Hr⟩
    iapply (PhiS_intro (V3 m) c)
    isplitl [Hp]; · iexact Hp
    iexact Hr
  hout c := by
    rw [Pipeline.ownSems0_none, show (pdats m 1 c).Φ (Fin.last _) = PhiS (V3 m) c (Fin.last cfg1.N).val from rfl]
    iintro H
    ihave H' := (PhiS_elim (V3 m) c _) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main terminates, nothing faulting, and
    the final memory holds every unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Fr

end
-- ==== Proof.FrK.ArgsKept.lean ====
/-
  No boundary of @main changes an argument array (any float instance): no host operation writes one, and each
  pipeline only reads the ones it stages.
-/
import proofs.«407117_j28578712387660_3_alg».proof.Proof.FrK.Chain

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of m c main_arg0 (by decide)
    _ = W1 m c (Proc.devRef .tc main_arg0) :=
        (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := W3_of m c main_arg1 (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of m c main_arg2 (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := W3_of m c main_arg3 (by decide)
    _ = W1 m c (Proc.devRef .tc main_arg3) :=
        (W2_arr m c 2).trans (((dat0 (V1 m) c).arrAt_in 2 rfl _).trans (A_eq0 (V1 m) c 2))
    _ = W0 m c (Proc.devRef .tc main_arg3) := W1_of m c main_arg3 (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of m c main_arg4 (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W4_main_arg5 (c : Dev nD) : W4 m c (Proc.devRef .tc main_arg5) = m ((c : Thread nD τ).loc main_arg5) :=
  calc W4 m c (Proc.devRef .tc main_arg5)
    _ = W3 m c (Proc.devRef .tc main_arg5) :=
        (W4_arr m c 4).trans (((dat1 (V3 m) c).arrAt_in 4 rfl _).trans (A_eq1 (V3 m) c 4))
    _ = W2 m c (Proc.devRef .tc main_arg5) := W3_of m c main_arg5 (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of m c main_arg6 (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl
theorem W4_main_arg7 (c : Dev nD) : W4 m c (Proc.devRef .tc main_arg7) = m ((c : Thread nD τ).loc main_arg7) :=
  calc W4 m c (Proc.devRef .tc main_arg7)
    _ = W3 m c (Proc.devRef .tc main_arg7) :=
        (W4_arr m c 7).trans (((dat1 (V3 m) c).arrAt_in 7 rfl _).trans (A_eq1 (V3 m) c 7))
    _ = W2 m c (Proc.devRef .tc main_arg7) := W3_of m c main_arg7 (by decide)
    _ = W1 m c (Proc.devRef .tc main_arg7) := W2_of_ne m c main_arg7 (by decide)
    _ = W0 m c (Proc.devRef .tc main_arg7) := W1_of m c main_arg7 (by decide)
    _ = m ((c : Thread nD τ).loc main_arg7) := rfl
theorem W4_main_arg8 (c : Dev nD) : W4 m c (Proc.devRef .tc main_arg8) = m ((c : Thread nD τ).loc main_arg8) :=
  calc W4 m c (Proc.devRef .tc main_arg8)
    _ = W3 m c (Proc.devRef .tc main_arg8) :=
        (W4_arr m c 8).trans (((dat1 (V3 m) c).arrAt_in 8 rfl _).trans (A_eq1 (V3 m) c 8))
    _ = W2 m c (Proc.devRef .tc main_arg8) := W3_of m c main_arg8 (by decide)
    _ = W1 m c (Proc.devRef .tc main_arg8) := W2_of_ne m c main_arg8 (by decide)
    _ = W0 m c (Proc.devRef .tc main_arg8) := W1_of m c main_arg8 (by decide)
    _ = m ((c : Thread nD τ).loc main_arg8) := rfl
theorem W4_main_arg9 (c : Dev nD) : W4 m c (Proc.devRef .tc main_arg9) = m ((c : Thread nD τ).loc main_arg9) :=
  calc W4 m c (Proc.devRef .tc main_arg9)
    _ = W3 m c (Proc.devRef .tc main_arg9) :=
        (W4_arr m c 6).trans (((dat1 (V3 m) c).arrAt_in 6 rfl _).trans (A_eq1 (V3 m) c 6))
    _ = W2 m c (Proc.devRef .tc main_arg9) := W3_of m c main_arg9 (by decide)
    _ = W1 m c (Proc.devRef .tc main_arg9) := W2_of_ne m c main_arg9 (by decide)
    _ = W0 m c (Proc.devRef .tc main_arg9) := W1_of m c main_arg9 (by decide)
    _ = m ((c : Thread nD τ).loc main_arg9) := rfl
theorem W4_main_arg10 (c : Dev nD) : W4 m c (Proc.devRef .tc main_arg10) = m ((c : Thread nD τ).loc main_arg10) :=
  calc W4 m c (Proc.devRef .tc main_arg10)
    _ = W3 m c (Proc.devRef .tc main_arg10) := W4_of_ne m c main_arg10 (by decide)
    _ = W2 m c (Proc.devRef .tc main_arg10) := W3_of m c main_arg10 (by decide)
    _ = W1 m c (Proc.devRef .tc main_arg10) := W2_of_ne m c main_arg10 (by decide)
    _ = W0 m c (Proc.devRef .tc main_arg10) := W1_of m c main_arg10 (by decide)
    _ = m ((c : Thread nD τ).loc main_arg10) := rfl
theorem W4_main_arg11 (c : Dev nD) : W4 m c (Proc.devRef .tc main_arg11) = m ((c : Thread nD τ).loc main_arg11) :=
  calc W4 m c (Proc.devRef .tc main_arg11)
    _ = W3 m c (Proc.devRef .tc main_arg11) :=
        (W4_arr m c 10).trans (((dat1 (V3 m) c).arrAt_in 10 rfl _).trans (A_eq1 (V3 m) c 10))
    _ = W2 m c (Proc.devRef .tc main_arg11) := W3_of m c main_arg11 (by decide)
    _ = W1 m c (Proc.devRef .tc main_arg11) := W2_of_ne m c main_arg11 (by decide)
    _ = W0 m c (Proc.devRef .tc main_arg11) := W1_of m c main_arg11 (by decide)
    _ = m ((c : Thread nD τ).loc main_arg11) := rfl

end Cert.Kernel.Fr

end
-- ==== Proof.Spec.lean ====
/-
  What both programs compute, element by element, on the extended reals.

  h = x · Winᵀ + bin;  conv = (agg / max(cnt, 1)) · Wlᵀ + bl + h · Wrᵀ, with agg and cnt the neighbour sums and
  counts (any arrays here);  mean = (Σ_i conv_i) / 50000;  shift = gms · mean;  cen = conv - shift;
  var = (Σ_i cen_i²) / 50000;  inv = 1 / sqrt(var + eps);  nrm = cen · inv · gw + gb;
  act = nrm where nrm ≥ 0, else 0.1 · nrm;  out = act · Woᵀ + bo.
  Arrays are functions of their coordinates; a weight matrix is indexed (output feature, input feature).
  The float literals stay as the words the programs print (the same word on both sides).
-/
import Idealize.ShloMosaic.PureOps.Ideal
import Idealize.ShloMosaic.PureOps.Ideal.Laws
import Idealize.ShloMosaic.Lib.ValueIdx

noncomputable section

open scoped BigOperators

namespace Cert.Spec

open Idealize.ShloMosaic

/-- The words of 1, 50000, 1e-5 (as f32) and 0.1 (as f32), and 0. -/
abbrev one : EReal := Ideal.ofBits .f32 0x3F800000#32
abbrev nNodes : EReal := Ideal.ofBits .f32 0x47435000#32
abbrev eps : EReal := Ideal.ofBits .f32 0x3727C5AC#32
abbrev slope : EReal := Ideal.ofBits .f32 0x3DCCCCCD#32
abbrev zero : EReal := Ideal.ofBits .f32 0x00000000#32

/-- h = x · Winᵀ + bin. -/
def hS (x : Fin 50000 → Fin 128 → EReal) (win : Fin 64 → Fin 128 → EReal) (bin : Fin 64 → EReal)
    (i : Fin 50000) (k : Fin 64) : EReal :=
  (∑ d : Fin 128, x i d * win k d) + bin k

section Second

variable (agg : Fin 50000 → Fin 64 → EReal) (cnt : Fin 50000 → EReal) (h : Fin 50000 → Fin 64 → EReal)
  (wl : Fin 64 → Fin 64 → EReal) (bl : Fin 64 → EReal) (wr : Fin 64 → Fin 64 → EReal) (gms gw gb : Fin 64 → EReal)
  (wo : Fin 64 → Fin 64 → EReal) (bo : Fin 64 → EReal)

/-- conv = (agg / max(cnt, 1)) · Wlᵀ + bl + h · Wrᵀ. -/
def conv (i : Fin 50000) (k : Fin 64) : EReal :=
  ((∑ d : Fin 64, Ideal.div (agg i d) (max (cnt i) one) * wl k d) + bl k) + ∑ d : Fin 64, h i d * wr k d

/-- The column means of conv. -/
def mean (k : Fin 64) : EReal := Ideal.div (∑ i : Fin 50000, conv agg cnt h wl bl wr i k) nNodes

/-- gms · mean. -/
def shift (k : Fin 64) : EReal := gms k * mean agg cnt h wl bl wr k

/-- conv - shift. -/
def cen (i : Fin 50000) (k : Fin 64) : EReal := conv agg cnt h wl bl wr i k - shift agg cnt h wl bl wr gms k

/-- The column means of cen². -/
def var (k : Fin 64) : EReal :=
  Ideal.div (∑ i : Fin 50000, cen agg cnt h wl bl wr gms i k * cen agg cnt h wl bl wr gms i k) nNodes

/-- 1 / sqrt(var + eps). -/
def inv (k : Fin 64) : EReal := Ideal.rsqrt (var agg cnt h wl bl wr gms k + eps)

/-- cen · inv · gw + gb. -/
def nrm (i : Fin 50000) (k : Fin 64) : EReal :=
  cen agg cnt h wl bl wr gms i k * inv agg cnt h wl bl wr gms k * gw k + gb k

/-- nrm where nrm ≥ 0, else 0.1 · nrm (the comparison and the choice as the programs make them). -/
def act (i : Fin 50000) (k : Fin 64) : EReal :=
  Scalar.select (FloatOps.cmpf (F := Ideal) (φ := .f32) .oge (nrm agg cnt h wl bl wr gms gw gb i k) zero)
    (nrm agg cnt h wl bl wr gms gw gb i k) (slope * nrm agg cnt h wl bl wr gms gw gb i k)

/-- out = act · Woᵀ + bo. -/
def out (i : Fin 50000) (k : Fin 64) : EReal :=
  (∑ d : Fin 64, act agg cnt h wl bl wr gms gw gb i d * wo k d) + bo k

end Second

end Cert.Spec

end
-- ==== Proof.PV.Blocks.lean ====
/-
  Row blocks read at an element, at the extended reals: an element of the array assembled from row blocks
  is the element of its block; the first kernel's block and the second kernel's conv block, at (row, column),
  are the sums the specification states.
-/
import proofs.«407117_j28578712387660_3_alg».proof.Proof.Pure
import proofs.«407117_j28578712387660_3_alg».proof.Proof.Spec
import Idealize.ShloMosaic.PureOps.Ideal.Laws
import Idealize.ShloMosaic.Lib.Pipeline.Value
import Idealize.ShloMosaic.Lib.ValueLayout

noncomputable section

open scoped BigOperators

namespace Cert.KernelIdeal.PV

open Idealize.ShloMosaic Idealize.ShloMosaic.ValueIdx Cert.KernelIdeal Cert.KernelIdeal.Gen Cert.KernelIdeal.Pure

/-- An array of rank 2 as a function of its two coordinates, -/
abbrev cur2 {a b : Nat} (A : Vec Ideal ⟨2, ![a, b]⟩ .f32) : Fin a → Fin b → EReal := fun i d => A (ix2 i d)
/-- the same with the coordinates exchanged (a weight stored input-feature-major), -/
abbrev curT {a b : Nat} (A : Vec Ideal ⟨2, ![a, b]⟩ .f32) : Fin b → Fin a → EReal := fun k d => A (ix2 d k)
/-- a vector as a function of its coordinate, -/
abbrev cur1 {a : Nat} (v : Vec Ideal ⟨1, ![a]⟩ .f32) : Fin a → EReal := fun k => v (ix1 k)
/-- and a one-column array as a function of its row. -/
abbrev curC {a : Nat} (v : Vec Ideal ⟨2, ![a, 1]⟩ .f32) : Fin a → EReal := fun i => v (ix2 i 0)

/-- The specification's h as one array. -/
def hSpec (x : Vec Ideal S50000x128 .f32) (win : Vec Ideal S64x128 .f32) (bin : Vec Ideal S64 .f32) : Vec Ideal S50000x64 .f32 :=
  fun j => Cert.Spec.hS (cur2 x) (cur2 win) (cur1 bin) (j 0) (j 1)

/-! ## Operations that are not pointwise, read at (row, column) -/

/-- A column broadcast along the rows: an a × 1 array broadcast to a × b reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's index of the 128-term contraction on its row axis is the result's row, -/
theorem lhs128_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- on its column axis the contraction's coordinate; -/
theorem lhs128_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- the right operand's index on its row axis is the contraction's coordinate, -/
theorem rhs128_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- on its column axis the result's column. -/
theorem rhs128_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A product of a 5000 × 128 block with a 128 × 64 matrix into the zero accumulator, at (r, k): the sum over d of
    left (r, d) · right (d, k). -/
theorem matmul128_apply (a : FVec Ideal S5000x128 .f32) (w : FVec Ideal S128x64 .f32) (r : Fin 5000) (k : Fin 64) :
    matmul dot_S5000x128_S128x64_S5000x64_1_0_0_1_n_n none a w (constant (F := Ideal) S5000x64 .f32 0x00000000#32) (ix2 r k)
      = ∑ d : Fin 128, a (ix2 r d) * w (ix2 d k) := by
  show FloatOps.matmul dot_S5000x128_S128x64_S5000x64_1_0_0_1_n_n none a w (constant (F := Ideal) S5000x64 .f32 0x00000000#32) (ix2 r k) = _
  rw [Ideal.matmul_constant_zero_apply, ← Equiv.sum_comp (contrEquiv1 dot_S5000x128_S128x64_S5000x64_1_0_0_1_n_n 128 rfl rfl).symm]
  refine Finset.sum_congr rfl fun d _ => ?_
  have hk := contrEquiv1_symm_val dot_S5000x128_S128x64_S5000x64_1_0_0_1_n_n 128 rfl rfl d
  have el : dot_S5000x128_S128x64_S5000x64_1_0_0_1_n_n.lhsIdx (ix2 r k) ((contrEquiv1 dot_S5000x128_S128x64_S5000x64_1_0_0_1_n_n 128 rfl rfl).symm d) = ix2 r d := funext fun ax => Fin.ext (by
    match ax with
    | ⟨0, _⟩ => exact lhs128_0 _ _
    | ⟨1, _⟩ => exact (lhs128_1 _ _).trans hk)
  have er : dot_S5000x128_S128x64_S5000x64_1_0_0_1_n_n.rhsIdx (ix2 r k) ((contrEquiv1 dot_S5000x128_S128x64_S5000x64_1_0_0_1_n_n 128 rfl rfl).symm d) = ix2 d k := funext fun ax => Fin.ext (by
    match ax with
    | ⟨0, _⟩ => exact (rhs128_0 _ _).trans hk
    | ⟨1, _⟩ => exact rhs128_1 _ _)
  rw [el, er]

/-- The left operand's index of the 64-term contraction on its row axis is the result's row, -/
theorem lhs64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- on its column axis the contraction's coordinate; -/
theorem lhs64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand's index on its row axis is the contraction's coordinate, -/
theorem rhs64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- on its column axis the result's column. -/
theorem rhs64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product of a 5000 × 64 block with a 64 × 64 matrix into the zero accumulator, at (r, k): the sum over d of
    left (r, d) · right (d, k). -/
theorem matmul64_apply (a : FVec Ideal S5000x64 .f32) (w : FVec Ideal S64x64 .f32) (r : Fin 5000) (k : Fin 64) :
    matmul dot_S5000x64_S64x64_S5000x64_1_0_0_1_n_n none a w (constant (F := Ideal) S5000x64 .f32 0x00000000#32) (ix2 r k)
      = ∑ d : Fin 64, a (ix2 r d) * w (ix2 d k) := by
  show FloatOps.matmul dot_S5000x64_S64x64_S5000x64_1_0_0_1_n_n none a w (constant (F := Ideal) S5000x64 .f32 0x00000000#32) (ix2 r k) = _
  rw [Ideal.matmul_constant_zero_apply, ← Equiv.sum_comp (contrEquiv1 dot_S5000x64_S64x64_S5000x64_1_0_0_1_n_n 64 rfl rfl).symm]
  refine Finset.sum_congr rfl fun d _ => ?_
  have hk := contrEquiv1_symm_val dot_S5000x64_S64x64_S5000x64_1_0_0_1_n_n 64 rfl rfl d
  have el : dot_S5000x64_S64x64_S5000x64_1_0_0_1_n_n.lhsIdx (ix2 r k) ((contrEquiv1 dot_S5000x64_S64x64_S5000x64_1_0_0_1_n_n 64 rfl rfl).symm d) = ix2 r d := funext fun ax => Fin.ext (by
    match ax with
    | ⟨0, _⟩ => exact lhs64_0 _ _
    | ⟨1, _⟩ => exact (lhs64_1 _ _).trans hk)
  have er : dot_S5000x64_S64x64_S5000x64_1_0_0_1_n_n.rhsIdx (ix2 r k) ((contrEquiv1 dot_S5000x64_S64x64_S5000x64_1_0_0_1_n_n 64 rfl rfl).symm d) = ix2 d k := funext fun ax => Fin.ext (by
    match ax with
    | ⟨0, _⟩ => exact (rhs64_0 _ _).trans hk
    | ⟨1, _⟩ => exact rhs64_1 _ _)
  rw [el, er]

/-- A bias vector laid out as one row and broadcast over the rows reads, at (r, k), the bias at k. -/
theorem bias_apply (b : Vec Ideal S64 .f32) (r : Fin 5000) (k : Fin 64) :
    broadcastTo S5000x64 (shapeCast S1x64 b shapeCasts_S64_S1x64) broadcasts_S1x64_S5000x64 (ix2 r k) = b (ix1 k) := by
  rw [broadcastTo_1b_ab_apply, shapeCast_a_1a_apply]

/-- The first kernel's block at (r, k): row r of the block against column k of the weight, plus the bias. -/
theorem k0_pay1_apply (a : Vec Ideal S5000x128 .f32) (w : Vec Ideal S128x64 .f32) (b : Vec Ideal S64 .f32)
    (r : Fin 5000) (k : Fin 64) :
    k0_pay1 a w b (ix2 r k) = (∑ d : Fin 128, a (ix2 r d) * w (ix2 d k)) + b (ix1 k) := by
  unfold k0_pay1
  rw [addf_apply, bias_apply, shapeCast_self, matmul128_apply]

/-- The second kernel's conv block at (r, k): the rows of the neighbour sums divided by max(count, 1) against
    column k of the left weight, plus the bias, plus row r of h against column k of the right weight. -/
theorem k1_pay2_apply (ag : Vec Ideal S5000x64 .f32) (cn : Vec Ideal S5000x1 .f32) (wl : Vec Ideal S64x64 .f32)
    (bl : Vec Ideal S64 .f32) (hb : Vec Ideal S5000x64 .f32) (wr : Vec Ideal S64x64 .f32) (r : Fin 5000) (k : Fin 64) :
    k1_pay2 ag cn wl bl hb wr (ix2 r k)
      = ((∑ d : Fin 64, Ideal.div (ag (ix2 r d)) (max (cn (ix2 r 0)) Cert.Spec.one) * wl (ix2 d k)) + bl (ix1 k))
        + ∑ d : Fin 64, hb (ix2 r d) * wr (ix2 d k) := by
  unfold k1_pay2
  simp only [shapeCast_self]
  rw [addf_apply, addf_apply, bias_apply, matmul64_apply, matmul64_apply]
  refine congrArg (fun t => t + bl (ix1 k) + ∑ d : Fin 64, hb (ix2 r d) * wr (ix2 d k)) ?_
  refine Finset.sum_congr rfl fun d _ => ?_
  rw [divf_apply, broadcastTo_a1_ab_apply]
  rfl

/-! ## Row blocks and the assembled arrays -/

/-- An element of the assembled array is the element of its row block. -/
theorem asm_rowOf {n : Nat} (B : Fin 10 → Vec Ideal ⟨2, ![5000, n]⟩ .f32) (j : Fin 10) (r : Fin 5000) (k : Fin n) :
    asm B (ix2 (rowOf j r) k) = B j (ix2 r k) := by
  have e1 : ∀ h, (⟨(rowOf j r).val / 5000, h⟩ : Fin 10) = j := fun h => Fin.ext (by
    show (5000 * j.val + r.val) / 5000 = j.val
    have := r.isLt; omega)
  have e2 : ∀ h, (⟨(rowOf j r).val % 5000, h⟩ : Fin 5000) = r := fun h => Fin.ext (by
    show (5000 * j.val + r.val) % 5000 = r.val
    have := r.isLt; omega)
  exact congr (congrArg B (e1 _)) (congrArg (fun t : Fin 5000 => (ix2 t k : (⟨2, ![5000, n]⟩ : Shape).Idx)) (e2 _))

/-- Every row is row r of some row block j. -/
theorem exists_rowOf (i : Fin 50000) : ∃ (j : Fin 10) (r : Fin 5000), i = rowOf j r :=
  ⟨⟨i.val / 5000, by have := i.isLt; omega⟩, ⟨i.val % 5000, Nat.mod_lt _ (by decide)⟩, Fin.ext (by
    show i.val = 5000 * (i.val / 5000) + i.val % 5000
    omega)⟩

/-- An element of a row block is the element of the array. -/
theorem blk_apply {n : Nat} (A : Vec Ideal ⟨2, ![50000, n]⟩ .f32) (j : Fin 10) (r : Fin 5000) (k : Fin n) :
    blk A j (ix2 r k) = A (ix2 (rowOf j r) k) := rfl

/-- The first kernel's result at (i, k): the row of x against column k of the stored weight, plus the bias. -/
theorem hArr_apply (x : Vec Ideal S50000x128 .f32) (w : Vec Ideal S128x64 .f32) (b : Vec Ideal S64 .f32)
    (i : Fin 50000) (k : Fin 64) :
    hArr x w b (ix2 i k) = Cert.Spec.hS (cur2 x) (curT w) (cur1 b) i k := by
  obtain ⟨j, r, rfl⟩ := exists_rowOf i
  unfold hArr
  rw [asm_rowOf, k0_pay1_apply]
  rfl

section Second

variable (agg : Vec Ideal S50000x64 .f32) (cnt : Vec Ideal S50000x1 .f32) (h : Vec Ideal S50000x64 .f32)
  (wl : Vec Ideal S64x64 .f32) (bl : Vec Ideal S64 .f32) (wr : Vec Ideal S64x64 .f32)

/-- The conv block j at (r, k) is conv at row 5000 j + r. -/
theorem convBlk_apply (j : Fin 10) (r : Fin 5000) (k : Fin 64) :
    convBlk agg cnt h wl bl wr j (ix2 r k)
      = Cert.Spec.conv (cur2 agg) (curC cnt) (cur2 h) (curT wl) (cur1 bl) (curT wr) (rowOf j r) k := by
  unfold convBlk k1_pay3
  rw [shapeCast_self, k1_pay2_apply]
  rfl

end Second

end Cert.KernelIdeal.PV

end
-- ==== Proof.LibBlockSum.lean ====
/-
  A sum over the first `N·B` naturals taken block by block, `B` consecutive terms at a time: the bookkeeping
  step between a column sum over all rows of an array and the same sum accumulated over consecutive row blocks
  of equal height. Stated for any additive commutative monoid (so for the extended reals as well), over a summand
  defined on every natural so that no bound proofs enter the statement; the `Fin` forms read the summand at the
  values of the indices.
-/
import Mathlib.Algebra.BigOperators.Fin
import Mathlib.Algebra.BigOperators.Intervals

open scoped BigOperators

namespace Cert.LibBlockSum

variable {β : Type*} [AddCommMonoid β]

/-- The first `(N + 1)·B` terms are the first `N·B` terms and then the `B` terms of block `N`. -/
theorem sum_range_succ_block (g : ℕ → β) (B N : ℕ) :
    ∑ i ∈ Finset.range (B * (N + 1)), g i
      = ∑ i ∈ Finset.range (B * N), g i + ∑ k ∈ Finset.range B, g (B * N + k) := by
  rw [Nat.mul_succ, Finset.sum_range_add]

/-- The first `N·B` terms, block by block: block `s` holds the terms `B·s … B·s + B − 1`. -/
theorem sum_range_blocks (g : ℕ → β) (B : ℕ) :
    ∀ N : ℕ, ∑ i ∈ Finset.range (B * N), g i = ∑ s ∈ Finset.range N, ∑ k ∈ Finset.range B, g (B * s + k)
  | 0 => by simp
  | N + 1 => by rw [sum_range_succ_block, sum_range_blocks g B N, Finset.sum_range_succ]

/-- The same with both index sets as `Fin` types: a sum over `Fin M`, `M = B·N`, is the sum over the `N` blocks
    of the sum over the `B` positions inside a block. -/
theorem sum_fin_blocks (g : ℕ → β) {M B N : ℕ} (h : B * N = M) :
    ∑ r : Fin M, g r.val = ∑ s ∈ Finset.range N, ∑ k : Fin B, g (B * s + k.val) := by
  subst h
  rw [Fin.sum_univ_eq_sum_range (fun i => g i) (B * N), sum_range_blocks]
  exact Finset.sum_congr rfl fun s _ => (Fin.sum_univ_eq_sum_range (fun k => g (B * s + k)) B).symm

/-- The partial form an induction over the blocks uses: the terms below `B·(n + 1)` are those below `B·n` and
    block `n`'s, the block's as a `Fin` sum. -/
theorem sum_range_succ_block_fin (g : ℕ → β) (B n : ℕ) :
    ∑ i ∈ Finset.range (B * (n + 1)), g i = ∑ i ∈ Finset.range (B * n), g i + ∑ k : Fin B, g (B * n + k.val) := by
  rw [sum_range_succ_block, Fin.sum_univ_eq_sum_range (fun k => g (B * n + k)) B]

/-- AN ACCUMULATOR OVER THE BLOCKS. A quantity that is zero plus block 0's sum at step 0 and at each later step adds
    the next block's sum to what it was, is after step `n` the sum of all the terms below the end of block `n`
    (the bound proofs of the steps are threaded, as a recursion over the points of a grid carries them). -/
theorem fold_eq_prefix (g : ℕ → β) (B : ℕ) {N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val)) :
    ∀ (n : ℕ) (h : n < N), s n h = ∑ i ∈ Finset.range (B * (n + 1)), g i
  | 0, h => by
    rw [h0 h, sum_range_succ_block_fin, Nat.mul_zero, Finset.range_zero, Finset.sum_empty]
  | n + 1, h => by
    rw [hs n h, fold_eq_prefix g B s h0 hs n (Nat.lt_of_succ_lt h), ← sum_range_succ_block_fin]

/-- … so after the step whose block ends at `M` it is the whole sum over `Fin M`. -/
theorem fold_eq_total (g : ℕ → β) (B : ℕ) {M N : ℕ} (s : (n : ℕ) → n < N → β)
    (h0 : ∀ h : 0 < N, s 0 h = 0 + ∑ k : Fin B, g (B * 0 + k.val))
    (hs : ∀ (n : ℕ) (h : n + 1 < N), s (n + 1) h = s n (Nat.lt_of_succ_lt h) + ∑ k : Fin B, g (B * (n + 1) + k.val))
    (n : ℕ) (h : n < N) (hM : B * (n + 1) = M) : s n h = ∑ r : Fin M, g r.val := by
  subst hM
  rw [fold_eq_prefix g B s h0 hs n h, Fin.sum_univ_eq_sum_range (fun i => g i) (B * (n + 1))]

end Cert.LibBlockSum
-- ==== Proof.PV.Sums.lean ====
/-
  The two running column sums of the second kernel after all ten row blocks, at the extended reals: the
  ten blockwise sums added one after the other from zero are the sum over all 50000 rows.
-/
import proofs.«407117_j28578712387660_3_alg».proof.Proof.PV.Blocks
import proofs.«407117_j28578712387660_3_alg».proof.Proof.LibBlockSum
import Idealize.ShloMosaic.Lib.ValueLayout

noncomputable section

open scoped BigOperators

namespace Cert.KernelIdeal.PV

open Idealize.ShloMosaic Idealize.ShloMosaic.ValueIdx Cert.KernelIdeal Cert.KernelIdeal.Gen Cert.KernelIdeal.Pure

/-! ## Sums over the rows, block by block -/

/-- A sum over all 50000 rows is the sum over the ten row blocks of the sums over their 5000 rows. -/
theorem sum_rows (f : Fin 50000 → EReal) : ∑ i : Fin 50000, f i = ∑ j : Fin 10, ∑ r : Fin 5000, f (rowOf j r) := by
  -- f continued by zero past the last row, so that the summand is defined on every natural
  let g : ℕ → EReal := fun n => if hn : n < 50000 then f ⟨n, hn⟩ else 0
  have hg : ∀ i : Fin 50000, g i.val = f i := fun i => dif_pos i.isLt
  calc ∑ i : Fin 50000, f i
      = ∑ i : Fin 50000, g i.val := Finset.sum_congr rfl fun i _ => (hg i).symm
    _ = ∑ s ∈ Finset.range 10, ∑ r : Fin 5000, g (5000 * s + r.val) :=
        Cert.LibBlockSum.sum_fin_blocks g (by norm_num)
    _ = ∑ j : Fin 10, ∑ r : Fin 5000, g (5000 * j.val + r.val) :=
        (Fin.sum_univ_eq_sum_range (fun s => ∑ r : Fin 5000, g (5000 * s + r.val)) 10).symm
    _ = ∑ j : Fin 10, ∑ r : Fin 5000, f (rowOf j r) :=
        Finset.sum_congr rfl fun j _ => Finset.sum_congr rfl fun r _ => hg (rowOf j r)

/-- A quantity that starts at zero and, at step n, adds the sum of F over row block n, is after the first n steps
    the sum of F over the first n row blocks. -/
theorem fold_prefix (F : Fin 50000 → EReal) (s : (n : ℕ) → n ≤ 10 → EReal)
    (h0 : ∀ hn, s 0 hn = 0)
    (hs : ∀ (n : ℕ) (hn : n + 1 ≤ 10), s (n + 1) hn = s n (Nat.le_of_succ_le hn) + ∑ r : Fin 5000, F (rowOf ⟨n, hn⟩ r)) :
    ∀ (n : ℕ) (hn : n ≤ 10), s n hn = ∑ j : Fin n, ∑ r : Fin 5000, F (rowOf (Fin.castLE hn j) r)
  | 0, hn => by rw [h0 hn]; rfl
  | n + 1, hn => by
    rw [hs n hn, fold_prefix F s h0 hs n (Nat.le_of_succ_le hn),
      Fin.sum_univ_castSucc (fun j : Fin (n + 1) => ∑ r : Fin 5000, F (rowOf (Fin.castLE hn j) r))]
    rfl

/-- … so after all ten steps it is the sum of F over all 50000 rows. -/
theorem fold_total (F : Fin 50000 → EReal) (s : (n : ℕ) → n ≤ 10 → EReal)
    (h0 : ∀ hn, s 0 hn = 0)
    (hs : ∀ (n : ℕ) (hn : n + 1 ≤ 10), s (n + 1) hn = s n (Nat.le_of_succ_le hn) + ∑ r : Fin 5000, F (rowOf ⟨n, hn⟩ r)) :
    s 10 (Nat.le_refl _) = ∑ i : Fin 50000, F i := by
  rw [fold_prefix F s h0 hs 10 (Nat.le_refl _), sum_rows]
  rfl

/-! ## The payloads read at an element -/

/-- The column sums of a block of 5000 rows (a sum along the rows, then the vector stored as one row), at column k. -/
theorem colSum_apply (src : FVec Ideal S5000x64 .f32) (k : Fin 64) :
    shapeCast S1x64 (multiReduction (F := Ideal) .add [0] S64 src 0x00000000#32 reduces_S5000x64_S64 (.inl rfl) rfl)
        shapeCasts_S64_S1x64 (ix2 0 k)
      = ∑ r : Fin 5000, src (ix2 r k) := by
  refine (shapeCast_a_1a_apply _ shapeCasts_S64_S1x64 0 k).trans ?_
  refine (Ideal.multiReduction_add_single src 0x00000000#32 reduces_S5000x64_S64 (.inl rfl) rfl (ix1 k)).trans ?_
  refine Finset.sum_congr rfl fun r _ => congrArg src ?_
  funext a
  match a with
  | ⟨0, _⟩ => rfl
  | ⟨1, _⟩ => rfl

/-- The zero row both running sums start from. -/
theorem k1_pay1_apply (k : Fin 64) : k1_pay1 (F := Ideal) (ix2 0 k) = 0 := by
  unfold k1_pay1
  rw [shapeCast_self]
  exact Ideal.ofBits_zero_f32

theorem k1_pay6_apply (k : Fin 64) : k1_pay6 (F := Ideal) (ix2 0 k) = 0 := by
  unfold k1_pay6
  rw [shapeCast_self]
  exact Ideal.ofBits_zero_f32

/-- Phase 0's new running sum at column k: the old one plus the column sum of the block's conv. -/
theorem k1_pay4_apply (v26 : Vec Ideal S5000x64 .f32) (v28 : Vec Ideal S5000x1 .f32) (v34 : Vec Ideal S64x64 .f32)
    (v37 : Vec Ideal S64 .f32) (v41 : Vec Ideal S5000x64 .f32) (v43 : Vec Ideal S64x64 .f32) (v51 : Vec Ideal S1x64 .f32)
    (k : Fin 64) :
    k1_pay4 v26 v28 v34 v37 v41 v43 v51 (ix2 0 k)
      = v51 (ix2 0 k) + ∑ r : Fin 5000, k1_pay2 v26 v28 v34 v37 v41 v43 (ix2 r k) := by
  unfold k1_pay4
  rw [shapeCast_self]
  exact congrArg (fun t => v51 (ix2 0 k) + t) (colSum_apply _ k)

/-- Phase 1's new running sum at column k: the old one plus the column sum of the squared centred block. -/
theorem k1_pay7_apply (v27 : Vec Ideal S5000x64 .f32) (v28 v31 : Vec Ideal S1x64 .f32) (k : Fin 64) :
    k1_pay7 v27 v28 v31 (ix2 0 k)
      = v31 (ix2 0 k) + ∑ r : Fin 5000, (v27 (ix2 r k) - v28 (ix2 0 k)) * (v27 (ix2 r k) - v28 (ix2 0 k)) := by
  unfold k1_pay7
  rw [shapeCast_self]
  refine (congrArg (fun t => v31 (ix2 0 k) + t) (colSum_apply _ k)).trans ?_
  refine congrArg (fun t => v31 (ix2 0 k) + t) (Finset.sum_congr rfl fun r _ => ?_)
  show (v27 (ix2 r k) - broadcastTo S5000x64 v28 broadcasts_S1x64_S5000x64 (ix2 r k))
      * (v27 (ix2 r k) - broadcastTo S5000x64 v28 broadcasts_S1x64_S5000x64 (ix2 r k)) = _
  rw [broadcastTo_1b_ab_apply]

section Second

variable (agg : Vec Ideal S50000x64 .f32) (cnt : Vec Ideal S50000x1 .f32) (h : Vec Ideal S50000x64 .f32)
  (wl : Vec Ideal S64x64 .f32) (bl : Vec Ideal S64 .f32) (wr : Vec Ideal S64x64 .f32) (gms : Vec Ideal S64 .f32)

/-- What phase 0 keeps of row block j is the block it sums. -/
theorem convBlk_eq (j : Fin 10) :
    convBlk agg cnt h wl bl wr j = k1_pay2 (blk agg j) (blk cnt j) wl bl (blk h j) wr := by
  unfold convBlk k1_pay3
  exact shapeCast_self _ _

/-- The running sum after all ten blocks of phase 0, at column k: the column sum of conv. -/
theorem sumAt_apply (k : Fin 64) :
    sumAt agg cnt h wl bl wr 10 (Nat.le_refl _) (ix2 0 k)
      = ∑ i : Fin 50000, Cert.Spec.conv (cur2 agg) (curC cnt) (cur2 h) (curT wl) (cur1 bl) (curT wr) i k := by
  refine fold_total (fun i => Cert.Spec.conv (cur2 agg) (curC cnt) (cur2 h) (curT wl) (cur1 bl) (curT wr) i k)
    (fun n hn => sumAt agg cnt h wl bl wr n hn (ix2 0 k)) (fun hn => k1_pay1_apply k) (fun n hn => ?_)
  show k1_pay4 (blk agg ⟨n, hn⟩) (blk cnt ⟨n, hn⟩) wl bl (blk h ⟨n, hn⟩) wr
      (sumAt agg cnt h wl bl wr n (Nat.le_of_succ_le hn)) (ix2 0 k) = _
  rw [k1_pay4_apply]
  refine congrArg (fun t => sumAt agg cnt h wl bl wr n (Nat.le_of_succ_le hn) (ix2 0 k) + t)
    (Finset.sum_congr rfl fun r _ => ?_)
  rw [← convBlk_eq, convBlk_apply]

/-- The running sum after all ten blocks of phase 1, at column k: the column sum of (conv - s)², with s the
    shift the kernel holds (whatever it is). -/
theorem sqAt_apply (k : Fin 64) :
    sqAt agg cnt h wl bl wr gms 10 (Nat.le_refl _) (ix2 0 k)
      = ∑ i : Fin 50000,
          (Cert.Spec.conv (cur2 agg) (curC cnt) (cur2 h) (curT wl) (cur1 bl) (curT wr) i k - shift agg cnt h wl bl wr gms (ix2 0 k))
          * (Cert.Spec.conv (cur2 agg) (curC cnt) (cur2 h) (curT wl) (cur1 bl) (curT wr) i k - shift agg cnt h wl bl wr gms (ix2 0 k)) := by
  refine fold_total
    (fun i => (Cert.Spec.conv (cur2 agg) (curC cnt) (cur2 h) (curT wl) (cur1 bl) (curT wr) i k - shift agg cnt h wl bl wr gms (ix2 0 k))
      * (Cert.Spec.conv (cur2 agg) (curC cnt) (cur2 h) (curT wl) (cur1 bl) (curT wr) i k - shift agg cnt h wl bl wr gms (ix2 0 k)))
    (fun n hn => sqAt agg cnt h wl bl wr gms n hn (ix2 0 k)) (fun hn => k1_pay6_apply k) (fun n hn => ?_)
  show k1_pay7 (convBlk agg cnt h wl bl wr ⟨n, hn⟩) (shift agg cnt h wl bl wr gms)
      (sqAt agg cnt h wl bl wr gms n (Nat.le_of_succ_le hn)) (ix2 0 k) = _
  rw [k1_pay7_apply]
  refine congrArg (fun t => sqAt agg cnt h wl bl wr gms n (Nat.le_of_succ_le hn) (ix2 0 k) + t)
    (Finset.sum_congr rfl fun r _ => ?_)
  rw [convBlk_apply]

end Second

end Cert.KernelIdeal.PV

end
-- ==== Proof.PV.Out.lean ====
/-
  The second kernel's result, and the whole program's, at an element, at the extended reals: the shift, the
  inverse deviation and the output block are the specification's; so is the assembled array.
-/
import proofs.«407117_j28578712387660_3_alg».proof.Proof.PV.Sums
import Idealize.ShloMosaic.Lib.ValueLayout

noncomputable section

open scoped BigOperators

namespace Cert.KernelIdeal.PV

open Idealize.ShloMosaic Idealize.ShloMosaic.ValueIdx Cert.KernelIdeal Cert.KernelIdeal.Gen Cert.KernelIdeal.Pure

/-! ## A block of rows against a stored weight: the product at an element -/

private theorem wLhs0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
private theorem wLhs1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
private theorem wRhs0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
private theorem wRhs1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A 5000 × 64 block times a stored 64 × 64 weight, from zero, at (r, k): the row against the weight's column. -/
private theorem blockTimesWeight_apply (A : FVec Ideal S5000x64 .f32) (W : FVec Ideal S64x64 .f32) (r : Fin 5000) (k : Fin 64) :
    matmul dot_S5000x64_S64x64_S5000x64_1_0_0_1_n_n none A W (constant (F := Ideal) S5000x64 .f32 0x00000000#32) (ix2 r k)
      = ∑ d : Fin 64, A (ix2 r d) * W (ix2 d k) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun d _ => ?_
  have hk := ValueIdx.contrEquiv1_symm_val dot_S5000x64_S64x64_S5000x64_1_0_0_1_n_n 64 rfl rfl d
  have el : dot_S5000x64_S64x64_S5000x64_1_0_0_1_n_n.lhsIdx (ix2 r k) ((ValueIdx.contrEquiv1 dot_S5000x64_S64x64_S5000x64_1_0_0_1_n_n 64 rfl rfl).symm d) = ix2 r d := funext fun a => Fin.ext (by
    match a with
    | ⟨0, _⟩ => exact wLhs0 _ _
    | ⟨1, _⟩ => exact (wLhs1 _ _).trans hk)
  have er : dot_S5000x64_S64x64_S5000x64_1_0_0_1_n_n.rhsIdx (ix2 r k) ((ValueIdx.contrEquiv1 dot_S5000x64_S64x64_S5000x64_1_0_0_1_n_n 64 rfl rfl).symm d) = ix2 d k := funext fun a => Fin.ext (by
    match a with
    | ⟨0, _⟩ => exact (wRhs0 _ _).trans hk
    | ⟨1, _⟩ => exact wRhs1 _ _)
  rw [el, er]

section Second

variable (agg : Vec Ideal S50000x64 .f32) (cnt : Vec Ideal S50000x1 .f32) (h : Vec Ideal S50000x64 .f32)
  (wl : Vec Ideal S64x64 .f32) (bl : Vec Ideal S64 .f32) (wr : Vec Ideal S64x64 .f32) (gms gw gb : Vec Ideal S64 .f32)
  (wo : Vec Ideal S64x64 .f32) (bo : Vec Ideal S64 .f32)

theorem shift_apply (k : Fin 64) :
    shift agg cnt h wl bl wr gms (ix2 0 k)
      = Cert.Spec.shift (cur2 agg) (curC cnt) (cur2 h) (curT wl) (cur1 bl) (curT wr) (cur1 gms) k := by
  unfold shift k1_pay5
  rw [shapeCast_self, mulf_apply, shapeCast_a_1a_apply, divf_apply, broadcast_apply, sumAt_apply]
  rfl

theorem invStd_apply (k : Fin 64) :
    invStd agg cnt h wl bl wr gms (ix2 0 k)
      = Cert.Spec.inv (cur2 agg) (curC cnt) (cur2 h) (curT wl) (cur1 bl) (curT wr) (cur1 gms) k := by
  unfold invStd k1_pay8
  rw [shapeCast_self]
  show Ideal.rsqrt (Ideal.div (sqAt agg cnt h wl bl wr gms 10 (Nat.le_refl _) (ix2 0 k)) Cert.Spec.nNodes + Cert.Spec.eps) = _
  rw [sqAt_apply]
  simp only [shift_apply]
  rfl

/-- The normalised value the output block is made of, at (r, d) of row block j. -/
private theorem nrmBlk_apply (j : Fin 10) (r : Fin 5000) (d : Fin 64) :
    addf (mulf (mulf (subf (convBlk agg cnt h wl bl wr j)
            (broadcastTo S5000x64 (shift agg cnt h wl bl wr gms) broadcasts_S1x64_S5000x64))
          (broadcastTo S5000x64 (invStd agg cnt h wl bl wr gms) broadcasts_S1x64_S5000x64))
        (broadcastTo S5000x64 (shapeCast S1x64 gw shapeCasts_S64_S1x64) broadcasts_S1x64_S5000x64))
      (broadcastTo S5000x64 (shapeCast S1x64 gb shapeCasts_S64_S1x64) broadcasts_S1x64_S5000x64) (ix2 r d)
      = Cert.Spec.nrm (cur2 agg) (curC cnt) (cur2 h) (curT wl) (cur1 bl) (curT wr) (cur1 gms) (cur1 gw) (cur1 gb) (rowOf j r) d := by
  rw [addf_apply, mulf_apply, mulf_apply, subf_apply, broadcastTo_1b_ab_apply, broadcastTo_1b_ab_apply,
    broadcastTo_1b_ab_apply, broadcastTo_1b_ab_apply, shapeCast_a_1a_apply, shapeCast_a_1a_apply,
    convBlk_apply, shift_apply, invStd_apply]
  rfl

theorem outBlk_apply (j : Fin 10) (r : Fin 5000) (k : Fin 64) :
    outBlk agg cnt h wl bl wr gms gw gb wo bo j (ix2 r k)
      = Cert.Spec.out (cur2 agg) (curC cnt) (cur2 h) (curT wl) (cur1 bl) (curT wr) (cur1 gms) (cur1 gw) (cur1 gb) (curT wo) (cur1 bo) (rowOf j r) k := by
  unfold outBlk k1_pay9
  rw [addf_apply, blockTimesWeight_apply, broadcastTo_1b_ab_apply, shapeCast_a_1a_apply, shapeCast_self]
  simp only [select_apply, cmpf_apply, mulf_apply, broadcast_apply, nrmBlk_apply]
  rfl

/-- The second kernel's result at (i, k). -/
theorem outArr_apply (i : Fin 50000) (k : Fin 64) :
    outArr agg cnt h wl bl wr gms gw gb wo bo (ix2 i k)
      = Cert.Spec.out (cur2 agg) (curC cnt) (cur2 h) (curT wl) (cur1 bl) (curT wr) (cur1 gms) (cur1 gw) (cur1 gb) (curT wo) (cur1 bo) i k := by
  obtain ⟨j, r, rfl⟩ := exists_rowOf i
  unfold outArr
  rw [asm_rowOf, outBlk_apply]

end Second

/-- The first kernel's result over the transposed input weight is the specification's h, as arrays. -/
private theorem hArr_eq_hSpec (x : Vec Ideal S50000x128 .f32) (win : Vec Ideal S64x128 .f32) (bin : Vec Ideal S64 .f32) :
    hArr x (transpose S128x64 [1, 0] win transposes_S64x128_S128x64_1_0) bin = hSpec x win bin := by
  funext j
  obtain ⟨p, q, rfl⟩ : ∃ (p : Fin 50000) (q : Fin 64), j = ix2 p q := ⟨j 0, j 1, eq_ix2 j⟩
  rw [hArr_apply]
  show Cert.Spec.hS (cur2 x) (curT (transpose S128x64 [1, 0] win transposes_S64x128_S128x64_1_0)) (cur1 bin) p q
    = Cert.Spec.hS (cur2 x) (cur2 win) (cur1 bin) p q
  have e : curT (transpose S128x64 [1, 0] win transposes_S64x128_S128x64_1_0) = cur2 win := by
    funext a b
    exact transpose_ix2_apply win transposes_S64x128_S128x64_1_0 b a
  rw [e]

/-- A stored 64 × 64 weight transposed, read with its coordinates exchanged, is the weight. -/
private theorem curT_transpose (w : Vec Ideal S64x64 .f32) :
    curT (transpose S64x64 [1, 0] w transposes_S64x64_S64x64_1_0) = cur2 w := by
  funext a b
  exact transpose_ix2_apply w transposes_S64x64_S64x64_1_0 b a

/-- The whole program's result at (i, k): the specification's out, over the specification's h and the
    neighbour sums and counts of that h along the edge list. -/
theorem result_apply (x : Vec Ideal S50000x128 .f32) (e : Vec Ideal S2x1000000 .i32) (win : Vec Ideal S64x128 .f32) (bin : Vec Ideal S64 .f32)
    (wl : Vec Ideal S64x64 .f32) (bl : Vec Ideal S64 .f32) (wr : Vec Ideal S64x64 .f32) (gw gb gms : Vec Ideal S64 .f32)
    (wo : Vec Ideal S64x64 .f32) (bo : Vec Ideal S64 .f32) (i : Fin 50000) (k : Fin 64) :
    result x e win bin wl bl wr gw gb gms wo bo (ix2 i k)
      = Cert.Spec.out (cur2 (aggOf (hSpec x win bin) e)) (curC (cntOf (F := Ideal) e)) (cur2 (hSpec x win bin))
          (cur2 wl) (cur1 bl) (cur2 wr) (cur1 gms) (cur1 gw) (cur1 gb) (cur2 wo) (cur1 bo) i k := by
  unfold result
  rw [outArr_apply, hArr_eq_hSpec, curT_transpose, curT_transpose, curT_transpose]

end Cert.KernelIdeal.PV

end
-- ==== Proof.RefImports.lean ====
/-
  The reference's run and its stages read at an index (generated modules), gathered for the hand modules
  that compare the reference with the kernel.
-/
import proofs.«407117_j28578712387660_3_alg».proof.Proof.Gen.ReferenceIdeal.Run
import proofs.«407117_j28578712387660_3_alg».proof.Proof.Gen.ReferenceIdeal.Read
-- ==== Proof.RefValue.lean ====
/-
  The reference's result at an element, at the extended reals: the specification's out, over the specification's
  h and the neighbour sums and counts of that h along the edge list. Each stage of the reference is read at an
  index by the generated read-at-an-index lemmas; the gather and the two scatter-adds are carried whole.
-/
import proofs.«407117_j28578712387660_3_alg».proof.Proof.RefImports
import proofs.«407117_j28578712387660_3_alg».proof.Proof.PV.Blocks

noncomputable section

open scoped BigOperators

namespace Cert.ReferenceIdeal.RefValue

open Idealize.ShloMosaic Idealize.ShloMosaic.ValueIdx Idealize.ShloMosaic.TcCoe Idealize.SL.Sem
open Cert.ReferenceIdeal Cert.ReferenceIdeal.Gen Cert.ReferenceIdeal.Value Cert.ReferenceIdeal.Read
open Cert.KernelIdeal.PV (cur2 curT cur1 curC hSpec)

section Stages

variable (x0 : (⟨S50000x128, .f32⟩ : BufTy).Contents (Elt Ideal)) (x1 : (⟨S2x1000000, .i32⟩ : BufTy).Contents (Elt Ideal))
  (x2 : (⟨S64x128, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 x8 x9 : (⟨S64, .f32⟩ : BufTy).Contents (Elt Ideal))
  (x10 : (⟨S64x64, .f32⟩ : BufTy).Contents (Elt Ideal)) (x11 : (⟨S64, .f32⟩ : BufTy).Contents (Elt Ideal))

/-! ### h = x · Winᵀ + bin -/

theorem lidx1_eq (i : Fin 50000) (k : Fin 64) (d : Fin 128) : lidx_main_v1 (ix2 i k) d = ix2 i d :=
  funext fun a => Fin.ext (by match a with | ⟨0, _⟩ => rfl | ⟨1, _⟩ => rfl)

theorem ridx1_eq (i : Fin 50000) (k : Fin 64) (d : Fin 128) : idx_main_v0 (ridx_main_v1 (ix2 i k) d) = ix2 k d :=
  funext fun a => Fin.ext (by match a with | ⟨0, _⟩ => rfl | ⟨1, _⟩ => rfl)

theorem bias_idx_eq (i : Fin 50000) (k : Fin 64) : idx_main_v2 (idx_main_v3 (ix2 i k)) = ix1 k :=
  funext fun a => Fin.ext (by match a with | ⟨0, _⟩ => rfl)

/-- The reference's h at (i, k). -/
theorem h_apply (i : Fin 50000) (k : Fin 64) :
    val_main_v4 (F := Ideal) x0 x2 x3 (ix2 i k) = Cert.Spec.hS (cur2 x0) (cur2 x2) (cur1 x3) i k := by
  rw [val_main_v4_apply, val_main_v1_apply, val_main_v3_apply, val_main_v2_apply]
  simp only [val_main_v0_apply, lidx1_eq, ridx1_eq, bias_idx_eq]
  rfl

/-- The reference's h is the specification's h as one array. -/
theorem h_eq : val_main_v4 (F := Ideal) x0 x2 x3 = hSpec x0 x2 x3 := by
  funext j
  rw [eq_ix2 j]
  exact h_apply x0 x2 x3 (j 0) (j 1)

/-! ### The neighbour sums and counts, carried whole -/

/-- The neighbour sums of the specification's h along the edge list, as the kernel side states them. -/
abbrev aggA := Cert.KernelIdeal.Pure.aggOf (F := Ideal) (hSpec x0 x2 x3) x1

/-- The number of edges into each node, as the kernel side states it. -/
abbrev cntA := Cert.KernelIdeal.Pure.cntOf (F := Ideal) x1

/-- The reference's scatter-add of the gathered rows of h is the kernel side's neighbour sum: the same operations on
    the same arrays, once the reference's h is the specification's. -/
theorem agg_eq : val_main_v18 (F := Ideal) x0 x1 x2 x3 = aggA x0 x1 x2 x3 := by
  unfold val_main_v18 val_main_v15
  rw [h_eq]
  rfl

theorem agg_apply (j : S50000x64.Idx) : val_main_v18 (F := Ideal) x0 x1 x2 x3 j = aggA x0 x1 x2 x3 j :=
  congrFun (agg_eq x0 x1 x2 x3) j

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The reference's edge counts at a node are the kernel side's count column there. -/
theorem cnt_apply (i : Fin 50000) : val_main_v22 (F := Ideal) x1 (ix1 i) = curC (cntA x1) i := by
  show _ = Cert.KernelIdeal.Pure.cntOf (F := Ideal) x1 (ix2 i 0)
  unfold Cert.KernelIdeal.Pure.cntOf
  rw [shapeCast_a_a1_apply]
  rfl

/-! ### conv = (agg / max(cnt, 1)) · Wlᵀ + bl + h · Wrᵀ

  From here on the neighbour sums, the counts and h are arbitrary arrays A, C, H that the reference's stages equal. -/

variable (A : (⟨S50000x64, .f32⟩ : BufTy).Contents (Elt Ideal)) (C : Fin 50000 → EReal)
  (H : (⟨S50000x64, .f32⟩ : BufTy).Contents (Elt Ideal))
  (hA : val_main_v18 (F := Ideal) x0 x1 x2 x3 = A) (hC : ∀ i : Fin 50000, val_main_v22 (F := Ideal) x1 (ix1 i) = C i)
  (hH : val_main_v4 (F := Ideal) x0 x2 x3 = H)

theorem lidx29_eq (i : Fin 50000) (k d : Fin 64) : lidx_main_v29 (ix2 i k) d = ix2 i d :=
  funext fun a => Fin.ext (by match a with | ⟨0, _⟩ => rfl | ⟨1, _⟩ => rfl)

theorem ridx29_eq (i : Fin 50000) (k d : Fin 64) : idx_main_v28 (ridx_main_v29 (ix2 i k) d) = ix2 k d :=
  funext fun a => Fin.ext (by match a with | ⟨0, _⟩ => rfl | ⟨1, _⟩ => rfl)

theorem cnt_idx_eq (i : Fin 50000) (d : Fin 64) : idx_main_v25 (idx_main_v26 (ix2 i d)) = ix1 i :=
  funext fun a => Fin.ext (by match a with | ⟨0, _⟩ => rfl)

theorem bl_idx_eq (i : Fin 50000) (k : Fin 64) : idx_main_v30 (idx_main_v31 (ix2 i k)) = ix1 k :=
  funext fun a => Fin.ext (by match a with | ⟨0, _⟩ => rfl)

theorem lidx34_eq (i : Fin 50000) (k d : Fin 64) : lidx_main_v34 (ix2 i k) d = ix2 i d :=
  funext fun a => Fin.ext (by match a with | ⟨0, _⟩ => rfl | ⟨1, _⟩ => rfl)

theorem ridx34_eq (i : Fin 50000) (k d : Fin 64) : idx_main_v33 (ridx_main_v34 (ix2 i k) d) = ix2 k d :=
  funext fun a => Fin.ext (by match a with | ⟨0, _⟩ => rfl | ⟨1, _⟩ => rfl)

include hA hC in
/-- The neighbour sum over the clamped count at (i, d). -/
theorem div_apply (i : Fin 50000) (d : Fin 64) :
    val_main_v27 (F := Ideal) x0 x1 x2 x3 (ix2 i d) = Ideal.div (A (ix2 i d)) (max (C i) Cert.Spec.one) := by
  rw [val_main_v27_apply, hA, val_main_v26_apply, val_main_v25_apply, val_main_v24_apply, cnt_idx_eq, hC,
    val_main_v23_apply, val_main_cst_3_apply]
  rfl

include hA hC in
/-- The first product of conv at (i, k). -/
theorem dotl_apply (i : Fin 50000) (k : Fin 64) :
    val_main_v29 (F := Ideal) x0 x1 x2 x3 x4 (ix2 i k)
      = ∑ d : Fin 64, Ideal.div (A (ix2 i d)) (max (C i) Cert.Spec.one) * x4 (ix2 k d) := by
  rw [val_main_v29_apply]
  refine Finset.sum_congr rfl fun d _ => ?_
  rw [lidx29_eq, div_apply x0 x1 x2 x3 A C hA hC, val_main_v28_apply, ridx29_eq]

include hH in
/-- The second product of conv at (i, k). -/
theorem dotr_apply (i : Fin 50000) (k : Fin 64) :
    val_main_v34 (F := Ideal) x0 x2 x3 x6 (ix2 i k) = ∑ d : Fin 64, H (ix2 i d) * x6 (ix2 k d) := by
  rw [val_main_v34_apply]
  refine Finset.sum_congr rfl fun d _ => ?_
  rw [lidx34_eq, hH, val_main_v33_apply, ridx34_eq]

include hA hC hH in
/-- The reference's conv at (i, k). -/
theorem conv_apply (i : Fin 50000) (k : Fin 64) :
    val_main_v35 (F := Ideal) x0 x1 x2 x3 x4 x5 x6 (ix2 i k)
      = Cert.Spec.conv (cur2 A) C (cur2 H) (cur2 x4) (cur1 x5) (cur2 x6) i k := by
  rw [val_main_v35_apply, val_main_v32_apply, dotl_apply x0 x1 x2 x3 x4 A C hA hC, val_main_v31_apply, val_main_v30_apply,
    bl_idx_eq, dotr_apply x0 x2 x3 x6 H hH]
  rfl

/-! ### The column mean and the shift -/

theorem idx36_eq (k : Fin 64) (i : Fin 50000) : idx_main_v36 (ix1 k) i = ix2 i k :=
  funext fun a => Fin.ext (by match a with | ⟨0, _⟩ => rfl | ⟨1, _⟩ => rfl)

include hA hC hH in
/-- The reference's column sums of conv: the zero word plus the sum over the rows. -/
theorem sum_apply (k : Fin 64) :
    val_main_v36 (F := Ideal) x0 x1 x2 x3 x4 x5 x6 (ix1 k)
      = ∑ i : Fin 50000, Cert.Spec.conv (cur2 A) C (cur2 H) (cur2 x4) (cur1 x5) (cur2 x6) i k := by
  rw [val_main_v36_apply, show val_main_cst_4 (F := Ideal) (Shape.Idx.first h_S_) = 0 from Ideal.ofBits_zero_f32, zero_add]
  refine Finset.sum_congr rfl fun i _ => ?_
  rw [idx36_eq, conv_apply x0 x1 x2 x3 x4 x5 x6 A C H hA hC hH]

include hA hC hH in
/-- The reference's shift gms · mean at k. -/
theorem shift_apply (k : Fin 64) :
    val_main_v39 (F := Ideal) x0 x1 x2 x3 x4 x5 x6 x9 (ix1 k)
      = Cert.Spec.shift (cur2 A) C (cur2 H) (cur2 x4) (cur1 x5) (cur2 x6) (cur1 x9) k := by
  rw [val_main_v39_apply, val_main_v38_apply, sum_apply x0 x1 x2 x3 x4 x5 x6 A C H hA hC hH, val_main_v37_apply,
    val_main_cst_5_apply]
  rfl

/-! ### The centred rows and their variance -/

theorem shift_idx_eq (i : Fin 50000) (k : Fin 64) : idx_main_v40 (idx_main_v41 (ix2 i k)) = ix1 k :=
  funext fun a => Fin.ext (by match a with | ⟨0, _⟩ => rfl)

include hA hC hH in
/-- The reference's conv - shift at (i, k). -/
theorem cen_apply (i : Fin 50000) (k : Fin 64) :
    val_main_v42 (F := Ideal) x0 x1 x2 x3 x4 x5 x6 x9 (ix2 i k)
      = Cert.Spec.cen (cur2 A) C (cur2 H) (cur2 x4) (cur1 x5) (cur2 x6) (cur1 x9) i k := by
  rw [val_main_v42_apply, conv_apply x0 x1 x2 x3 x4 x5 x6 A C H hA hC hH, val_main_v41_apply, val_main_v40_apply,
    shift_idx_eq, shift_apply x0 x1 x2 x3 x4 x5 x6 x9 A C H hA hC hH]
  rfl

theorem idx44_eq (k : Fin 64) (i : Fin 50000) : idx_main_v44 (ix1 k) i = ix2 i k :=
  funext fun a => Fin.ext (by match a with | ⟨0, _⟩ => rfl | ⟨1, _⟩ => rfl)

include hA hC hH in
/-- The reference's column sums of the squared centred rows. -/
theorem sqsum_apply (k : Fin 64) :
    val_main_v44 (F := Ideal) x0 x1 x2 x3 x4 x5 x6 x9 (ix1 k)
      = ∑ i : Fin 50000, Cert.Spec.cen (cur2 A) C (cur2 H) (cur2 x4) (cur1 x5) (cur2 x6) (cur1 x9) i k
          * Cert.Spec.cen (cur2 A) C (cur2 H) (cur2 x4) (cur1 x5) (cur2 x6) (cur1 x9) i k := by
  rw [val_main_v44_apply, show val_main_cst_6 (F := Ideal) (Shape.Idx.first h_S_) = 0 from Ideal.ofBits_zero_f32, zero_add]
  refine Finset.sum_congr rfl fun i _ => ?_
  rw [idx44_eq, val_main_v43_apply, cen_apply x0 x1 x2 x3 x4 x5 x6 x9 A C H hA hC hH]
  rfl

include hA hC hH in
/-- The reference's 1 / sqrt(var + eps) at k. -/
theorem inv_apply (k : Fin 64) :
    val_main_v49 (F := Ideal) x0 x1 x2 x3 x4 x5 x6 x9 (ix1 k)
      = Cert.Spec.inv (cur2 A) C (cur2 H) (cur2 x4) (cur1 x5) (cur2 x6) (cur1 x9) k := by
  rw [val_main_v49_apply, val_main_v48_apply, val_main_v46_apply, sqsum_apply x0 x1 x2 x3 x4 x5 x6 x9 A C H hA hC hH,
    val_main_v45_apply, val_main_cst_7_apply, val_main_v47_apply, val_main_cst_8_apply]
  rfl

/-! ### The normalised rows, the activation and the result -/

theorem inv_idx_eq (i : Fin 50000) (k : Fin 64) : idx_main_v50 (idx_main_v51 (ix2 i k)) = ix1 k :=
  funext fun a => Fin.ext (by match a with | ⟨0, _⟩ => rfl)

theorem gw_idx_eq (i : Fin 50000) (k : Fin 64) : idx_main_v53 (idx_main_v54 (ix2 i k)) = ix1 k :=
  funext fun a => Fin.ext (by match a with | ⟨0, _⟩ => rfl)

theorem gb_idx_eq (i : Fin 50000) (k : Fin 64) : idx_main_v56 (idx_main_v57 (ix2 i k)) = ix1 k :=
  funext fun a => Fin.ext (by match a with | ⟨0, _⟩ => rfl)

include hA hC hH in
/-- The reference's normalised conv at (i, k). -/
theorem nrm_apply (i : Fin 50000) (k : Fin 64) :
    val_main_v58 (F := Ideal) x0 x1 x2 x3 x4 x5 x6 x7 x8 x9 (ix2 i k)
      = Cert.Spec.nrm (cur2 A) C (cur2 H) (cur2 x4) (cur1 x5) (cur2 x6) (cur1 x9) (cur1 x7) (cur1 x8) i k := by
  rw [val_main_v58_apply, val_main_v55_apply, val_main_v52_apply, cen_apply x0 x1 x2 x3 x4 x5 x6 x9 A C H hA hC hH,
    val_main_v51_apply, val_main_v50_apply, inv_idx_eq, inv_apply x0 x1 x2 x3 x4 x5 x6 x9 A C H hA hC hH,
    val_main_v54_apply, val_main_v53_apply, gw_idx_eq, val_main_v57_apply, val_main_v56_apply, gb_idx_eq]
  rfl

include hA hC hH in
/-- The reference's activation at (i, k). -/
theorem act_apply (i : Fin 50000) (k : Fin 64) :
    val_main_v63 (F := Ideal) x0 x1 x2 x3 x4 x5 x6 x7 x8 x9 (ix2 i k)
      = Cert.Spec.act (cur2 A) C (cur2 H) (cur2 x4) (cur1 x5) (cur2 x6) (cur1 x9) (cur1 x7) (cur1 x8) i k := by
  rw [val_main_v63_apply, val_main_v60_apply, val_main_v62_apply, nrm_apply x0 x1 x2 x3 x4 x5 x6 x7 x8 x9 A C H hA hC hH,
    val_main_v59_apply, val_main_cst_9_apply, val_main_v61_apply, val_main_cst_10_apply]
  rfl

theorem lidx65_eq (i : Fin 50000) (k d : Fin 64) : lidx_main_v65 (ix2 i k) d = ix2 i d :=
  funext fun a => Fin.ext (by match a with | ⟨0, _⟩ => rfl | ⟨1, _⟩ => rfl)

theorem ridx65_eq (i : Fin 50000) (k d : Fin 64) : idx_main_v64 (ridx_main_v65 (ix2 i k) d) = ix2 k d :=
  funext fun a => Fin.ext (by match a with | ⟨0, _⟩ => rfl | ⟨1, _⟩ => rfl)

theorem bo_idx_eq (i : Fin 50000) (k : Fin 64) : idx_main_v66 (idx_main_v67 (ix2 i k)) = ix1 k :=
  funext fun a => Fin.ext (by match a with | ⟨0, _⟩ => rfl)

include hA hC hH in
/-- The reference's result at (i, k), over the arrays its stages equal. -/
theorem out_apply (i : Fin 50000) (k : Fin 64) :
    val_main_v68 (F := Ideal) x0 x1 x2 x3 x4 x5 x6 x7 x8 x9 x10 x11 (ix2 i k)
      = Cert.Spec.out (cur2 A) C (cur2 H) (cur2 x4) (cur1 x5) (cur2 x6) (cur1 x9) (cur1 x7) (cur1 x8) (cur2 x10) (cur1 x11) i k := by
  rw [val_main_v68_apply, val_main_v65_apply, val_main_v67_apply, val_main_v66_apply, bo_idx_eq]
  refine congrArg (· + x11 (ix1 k)) (Finset.sum_congr rfl fun d _ => ?_)
  rw [lidx65_eq, act_apply x0 x1 x2 x3 x4 x5 x6 x7 x8 x9 A C H hA hC hH, val_main_v64_apply, ridx65_eq]

end Stages

variable (m : (ℓ : Loc nD τ sig) → Buf (Elt Ideal) ℓ) (c : Dev nD)

/-- The reference's result at (i, k). -/
theorem ref_apply (i : Fin 50000) (k : Fin 64) :
    res_out0 (F := Ideal) m c (ix2 i k)
      = Cert.Spec.out
          (cur2 (Cert.KernelIdeal.Pure.aggOf (F := Ideal)
            (hSpec (m ((c.tc : Thread nD τ).loc main_arg0)) (m ((c.tc : Thread nD τ).loc main_arg2)) (m ((c.tc : Thread nD τ).loc main_arg3)))
            (m ((c.tc : Thread nD τ).loc main_arg1))))
          (curC (Cert.KernelIdeal.Pure.cntOf (F := Ideal) (m ((c.tc : Thread nD τ).loc main_arg1))))
          (cur2 (hSpec (m ((c.tc : Thread nD τ).loc main_arg0)) (m ((c.tc : Thread nD τ).loc main_arg2)) (m ((c.tc : Thread nD τ).loc main_arg3))))
          (cur2 (m ((c.tc : Thread nD τ).loc main_arg4))) (cur1 (m ((c.tc : Thread nD τ).loc main_arg5)))
          (cur2 (m ((c.tc : Thread nD τ).loc main_arg6))) (cur1 (m ((c.tc : Thread nD τ).loc main_arg9)))
          (cur1 (m ((c.tc : Thread nD τ).loc main_arg7))) (cur1 (m ((c.tc : Thread nD τ).loc main_arg8)))
          (cur2 (m ((c.tc : Thread nD τ).loc main_arg10))) (cur1 (m ((c.tc : Thread nD τ).loc main_arg11))) i k := by
  show res_main_v68 (F := Ideal) m c (ix2 i k) = _
  rw [val_main_v68_eq]
  exact out_apply _ _ _ _ _ _ _ _ _ _ _ _ _ _ _ (agg_eq _ _ _ _) (cnt_apply _) (h_eq _ _ _) i k

end Cert.ReferenceIdeal.RefValue

end
-- ==== Proof.lean ====
/-
  The kernel — a first pallas_call h = x · Winᵀ + bin over ten row blocks, host-side neighbour sums and counts of h along
  the edge list, and a second pallas_call that in three passes over the same ten row blocks forms
  conv = (agg / max(cnt, 1)) · Wlᵀ + bl + h · Wrᵀ, its column means, the column means of the squared centred rows, and
  writes leaky((conv - gms · mean) / sqrt(var + eps) · gw + gb) · Woᵀ + bo — against the same computation written as
  whole-array host operations.
  Frames: each of the two printed kernel programs runs as four segments (transposes, first pipeline, gather and
  scatter-adds, second pipeline); the second pipeline's body is run in its six branch cases over a symbolic grid
  point, the five scratch buffers carried between points by an invariant (the conv cache's finished row blocks, the
  two running sums, the shift, the inverse deviation). The reference is its generated run.
  Values, on the extended reals: both results are, element by element, the same closed formula (Spec.lean): a matmul
  into zero and the host's dot_general are the same sum; the running sums over ten row blocks are the column sums
  over all 50000 rows (addition of extended reals is commutative and associative); the gather and the scatter-adds
  are the same operations of equal arrays. No law needing finiteness is used.
-/
import proofs.«407117_j28578712387660_3_alg».proof.Defs
import proofs.«407117_j28578712387660_3_alg».proof.Proof.Gen.Kernel
import proofs.«407117_j28578712387660_3_alg».proof.Proof.Gen.KernelIdeal
import proofs.«407117_j28578712387660_3_alg».proof.Proof.Gen.ReferenceIdeal
import proofs.«407117_j28578712387660_3_alg».proof.Proof.Gen.Pre_finite_inputs
import proofs.«407117_j28578712387660_3_alg».proof.Proof.Fr.Run
import proofs.«407117_j28578712387660_3_alg».proof.Proof.Fr.ArgsKept
import proofs.«407117_j28578712387660_3_alg».proof.Proof.Fr.Result
import proofs.«407117_j28578712387660_3_alg».proof.Proof.FrK.Run
import proofs.«407117_j28578712387660_3_alg».proof.Proof.FrK.ArgsKept
import proofs.«407117_j28578712387660_3_alg».proof.Proof.PV.Out
import proofs.«407117_j28578712387660_3_alg».proof.Proof.RefValue
import Idealize.ShloMosaic.Adequacy
import Idealize.ShloMosaic.Init

noncomputable section

namespace Cert.Proof

open Idealize.ShloMosaic Idealize.ShloMosaic.ValueIdx Idealize.ShloMosaic.TcCoe Idealize.SL.Sem

/-- The word-level kernel program runs, and its arguments end as launched. -/
theorem frame_k : Cert.frame_Kernel := fun m ρ _ =>
  (θ_run Cert.Kernel.defs _ _).mono (fun r h c => ⟨
      (h c _ (Cert.Kernel.Fr.mem_uc Cert.Kernel.main_arg0 (by decide))).trans (Cert.Kernel.Fr.W4_main_arg0 m c),
      (h c _ (Cert.Kernel.Fr.mem_uc Cert.Kernel.main_arg1 (by decide))).trans (Cert.Kernel.Fr.W4_main_arg1 m c),
      (h c _ (Cert.Kernel.Fr.mem_uc Cert.Kernel.main_arg2 (by decide))).trans (Cert.Kernel.Fr.W4_main_arg2 m c),
      (h c _ (Cert.Kernel.Fr.mem_uc Cert.Kernel.main_arg3 (by decide))).trans (Cert.Kernel.Fr.W4_main_arg3 m c),
      (h c _ (Cert.Kernel.Fr.mem_uc Cert.Kernel.main_arg4 (by decide))).trans (Cert.Kernel.Fr.W4_main_arg4 m c),
      (h c _ (Cert.Kernel.Fr.mem_uc Cert.Kernel.main_arg5 (by decide))).trans (Cert.Kernel.Fr.W4_main_arg5 m c),
      (h c _ (Cert.Kernel.Fr.mem_uc Cert.Kernel.main_arg6 (by decide))).trans (Cert.Kernel.Fr.W4_main_arg6 m c),
      (h c _ (Cert.Kernel.Fr.mem_uc Cert.Kernel.main_arg7 (by decide))).trans (Cert.Kernel.Fr.W4_main_arg7 m c),
      (h c _ (Cert.Kernel.Fr.mem_uc Cert.Kernel.main_arg8 (by decide))).trans (Cert.Kernel.Fr.W4_main_arg8 m c),
      (h c _ (Cert.Kernel.Fr.mem_uc Cert.Kernel.main_arg9 (by decide))).trans (Cert.Kernel.Fr.W4_main_arg9 m c),
      (h c _ (Cert.Kernel.Fr.mem_uc Cert.Kernel.main_arg10 (by decide))).trans (Cert.Kernel.Fr.W4_main_arg10 m c),
      (h c _ (Cert.Kernel.Fr.mem_uc Cert.Kernel.main_arg11 (by decide))).trans (Cert.Kernel.Fr.W4_main_arg11 m c)⟩)
    (Cert.Kernel.Fr.run (F := Bits) m ρ)

/-- The idealized kernel program runs, and its arguments end as launched. -/
theorem frame_ki : Cert.frame_KernelIdeal := fun m ρ _ =>
  (θ_run Cert.KernelIdeal.defs _ _).mono (fun r h c => ⟨
      (h c _ (Cert.KernelIdeal.Fr.mem_uc Cert.KernelIdeal.main_arg0 (by decide))).trans (Cert.KernelIdeal.Fr.W4_main_arg0 m c),
      (h c _ (Cert.KernelIdeal.Fr.mem_uc Cert.KernelIdeal.main_arg1 (by decide))).trans (Cert.KernelIdeal.Fr.W4_main_arg1 m c),
      (h c _ (Cert.KernelIdeal.Fr.mem_uc Cert.KernelIdeal.main_arg2 (by decide))).trans (Cert.KernelIdeal.Fr.W4_main_arg2 m c),
      (h c _ (Cert.KernelIdeal.Fr.mem_uc Cert.KernelIdeal.main_arg3 (by decide))).trans (Cert.KernelIdeal.Fr.W4_main_arg3 m c),
      (h c _ (Cert.KernelIdeal.Fr.mem_uc Cert.KernelIdeal.main_arg4 (by decide))).trans (Cert.KernelIdeal.Fr.W4_main_arg4 m c),
      (h c _ (Cert.KernelIdeal.Fr.mem_uc Cert.KernelIdeal.main_arg5 (by decide))).trans (Cert.KernelIdeal.Fr.W4_main_arg5 m c),
      (h c _ (Cert.KernelIdeal.Fr.mem_uc Cert.KernelIdeal.main_arg6 (by decide))).trans (Cert.KernelIdeal.Fr.W4_main_arg6 m c),
      (h c _ (Cert.KernelIdeal.Fr.mem_uc Cert.KernelIdeal.main_arg7 (by decide))).trans (Cert.KernelIdeal.Fr.W4_main_arg7 m c),
      (h c _ (Cert.KernelIdeal.Fr.mem_uc Cert.KernelIdeal.main_arg8 (by decide))).trans (Cert.KernelIdeal.Fr.W4_main_arg8 m c),
      (h c _ (Cert.KernelIdeal.Fr.mem_uc Cert.KernelIdeal.main_arg9 (by decide))).trans (Cert.KernelIdeal.Fr.W4_main_arg9 m c),
      (h c _ (Cert.KernelIdeal.Fr.mem_uc Cert.KernelIdeal.main_arg10 (by decide))).trans (Cert.KernelIdeal.Fr.W4_main_arg10 m c),
      (h c _ (Cert.KernelIdeal.Fr.mem_uc Cert.KernelIdeal.main_arg11 (by decide))).trans (Cert.KernelIdeal.Fr.W4_main_arg11 m c)⟩)
    (Cert.KernelIdeal.Fr.run (F := Ideal) m ρ)

/-- The reference runs, and its arguments end as launched (its generated run, the result dropped). -/
theorem frame_r : Cert.frame_ReferenceIdeal := fun m ρ _ =>
  (θ_run Cert.ReferenceIdeal.defs _ _).mono (fun _ h c => (h c).2) (Cert.ReferenceIdeal.Value.run (F := Ideal) m ρ)

/-- On the extended reals the kernel's pure function of the arguments is the reference's composed term, when the
    two memories agree on the arguments: element by element both are the specification's out. -/
theorem value_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.KernelIdeal.Pure.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = Cert.ReferenceIdeal.Value.res_out0 (F := Ideal) m' c := by
  funext j
  obtain ⟨i, k, rfl⟩ : ∃ (i : Fin 50000) (k : Fin 64), j = ix2 i k := ⟨j 0, j 1, eq_ix2 j⟩
  rw [Cert.KernelIdeal.PV.result_apply, Cert.ReferenceIdeal.RefValue.ref_apply m' c i k, h0, h1, h2, h3, h4, h5, h6, h7, h8, h9, h10, h11]

/-- Both idealized programs run from memories agreeing on the arguments and end with equal results. -/
theorem algebraic : Cert.algebraic_KernelIdeal_ReferenceIdeal := by
  intro m ρ m' ρ' _ hagree
  refine ⟨fun c => Cert.KernelIdeal.Pure.result (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨
      (h c _ (Cert.KernelIdeal.Fr.mem_uc Cert.KernelIdeal.main_v24 (by decide))).trans (Cert.KernelIdeal.Fr.W4_main_v24 m c),
      (h c _ (Cert.KernelIdeal.Fr.mem_uc Cert.KernelIdeal.main_arg0 (by decide))).trans (Cert.KernelIdeal.Fr.W4_main_arg0 m c),
      (h c _ (Cert.KernelIdeal.Fr.mem_uc Cert.KernelIdeal.main_arg1 (by decide))).trans (Cert.KernelIdeal.Fr.W4_main_arg1 m c),
      (h c _ (Cert.KernelIdeal.Fr.mem_uc Cert.KernelIdeal.main_arg2 (by decide))).trans (Cert.KernelIdeal.Fr.W4_main_arg2 m c),
      (h c _ (Cert.KernelIdeal.Fr.mem_uc Cert.KernelIdeal.main_arg3 (by decide))).trans (Cert.KernelIdeal.Fr.W4_main_arg3 m c),
      (h c _ (Cert.KernelIdeal.Fr.mem_uc Cert.KernelIdeal.main_arg4 (by decide))).trans (Cert.KernelIdeal.Fr.W4_main_arg4 m c),
      (h c _ (Cert.KernelIdeal.Fr.mem_uc Cert.KernelIdeal.main_arg5 (by decide))).trans (Cert.KernelIdeal.Fr.W4_main_arg5 m c),
      (h c _ (Cert.KernelIdeal.Fr.mem_uc Cert.KernelIdeal.main_arg6 (by decide))).trans (Cert.KernelIdeal.Fr.W4_main_arg6 m c),
      (h c _ (Cert.KernelIdeal.Fr.mem_uc Cert.KernelIdeal.main_arg7 (by decide))).trans (Cert.KernelIdeal.Fr.W4_main_arg7 m c),
      (h c _ (Cert.KernelIdeal.Fr.mem_uc Cert.KernelIdeal.main_arg8 (by decide))).trans (Cert.KernelIdeal.Fr.W4_main_arg8 m c),
      (h c _ (Cert.KernelIdeal.Fr.mem_uc Cert.KernelIdeal.main_arg9 (by decide))).trans (Cert.KernelIdeal.Fr.W4_main_arg9 m c),
      (h c _ (Cert.KernelIdeal.Fr.mem_uc Cert.KernelIdeal.main_arg10 (by decide))).trans (Cert.KernelIdeal.Fr.W4_main_arg10 m c),
      (h c _ (Cert.KernelIdeal.Fr.mem_uc Cert.KernelIdeal.main_arg11 (by decide))).trans (Cert.KernelIdeal.Fr.W4_main_arg11 m c)⟩)
      (Cert.KernelIdeal.Fr.run (F := Ideal) m ρ)
  · refine (θ_run Cert.ReferenceIdeal.defs _ _).mono (fun _ h c => ⟨(h c).1.trans ?_, (h c).2⟩) (Cert.ReferenceIdeal.Value.run (F := Ideal) m' ρ')
    have ha := hagree c
    exact (value_eq m m' c ha.1 ha.2.1 ha.2.2.1 ha.2.2.2.1 ha.2.2.2.2.1 ha.2.2.2.2.2.1 ha.2.2.2.2.2.2.1 ha.2.2.2.2.2.2.2.1
      ha.2.2.2.2.2.2.2.2.1 ha.2.2.2.2.2.2.2.2.2.1 ha.2.2.2.2.2.2.2.2.2.2.1 ha.2.2.2.2.2.2.2.2.2.2.2).symm

theorem claim : Cert.Claim := ⟨Cert.Kernel.Gen.facts, Cert.KernelIdeal.Gen.facts, Cert.ReferenceIdeal.Gen.facts, Cert.Pre_finite_inputs.Gen.facts,
  frame_k, frame_ki, frame_r, trivial, algebraic⟩

end Cert.Proof

end
